-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg6 : FVec F S256x256 .f32) (main_arg7 : FVec F S256 .f32) (main_arg8 : FVec F S256x256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : IVec S100000 32) (main_arg3 : FVec F S128x256 .f32) (main_arg4 : FVec F S256 .f32) (main_arg5 : FVec F S128x256 .f32) (main_arg6 : FVec F S256x256 .f32) (main_arg7 : FVec F S256 .f32) (main_arg8 : FVec F S256x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S100000x1 : Shape := ⟨2, ![100000, 1]⟩
abbrev S640000x128 : Shape := ⟨2, ![640000, 128]⟩
abbrev S1x256 : Shape := ⟨2, ![1, 256]⟩
abbrev S100000x256 : Shape := ⟨2, ![100000, 256]⟩
abbrev S5000x128 : Shape := ⟨2, ![5000, 128]⟩
abbrev S5000x1 : Shape := ⟨2, ![5000, 1]⟩
abbrev S5000x256 : Shape := ⟨2, ![5000, 256]⟩
abbrev S640000x256 : Shape := ⟨2, ![640000, 256]⟩
abbrev S2x256x256 : Shape := ⟨3, ![2, 256, 256]⟩
abbrev S1x256x256 : Shape := ⟨3, ![1, 256, 256]⟩

abbrev nBuf : Space → Nat
  | .hbm => 62
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S128x256, .f32⟩
  | .hbm, ⟨4, _⟩ => ⟨S256, .f32⟩
  | .hbm, ⟨5, _⟩ => ⟨S128x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S_, .i32⟩
  | .hbm, ⟨16, _⟩ => ⟨S100000, .i32⟩
  | .hbm, ⟨17, _⟩ => ⟨S640000x1, .i32⟩
  | .hbm, ⟨18, _⟩ => ⟨S100000, .i32⟩
  | .hbm, ⟨19, _⟩ => ⟨S100000, .f32⟩
  | .hbm, ⟨20, _⟩ => ⟨S100000x1, .f32⟩
  | .hbm, ⟨21, _⟩ => ⟨S100000x128, .bf16⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .bf16⟩
  | .hbm, ⟨31, _⟩ => ⟨S640000x128, .f32⟩
  | .hbm, ⟨32, _⟩ => ⟨S_, .f32⟩
  | .hbm, ⟨33, _⟩ => ⟨S100000x128, .f32⟩
  | .hbm, ⟨34, _⟩ => ⟨S640000x1, .i32⟩
  | .hbm, ⟨35, _⟩ => ⟨S100000x128, .f32⟩
  | .hbm, ⟨36, _⟩ => ⟨S1x256, .f32⟩
  | .hbm, ⟨37, _⟩ => ⟨S128x256, .bf16⟩
  | .hbm, ⟨38, _⟩ => ⟨S128x256, .bf16⟩
  | .hbm, ⟨39, _⟩ => ⟨S100000x256, .f32⟩
  | .hbm, ⟨40, _⟩ => ⟨S100000x256, .bf16⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x256, .bf16⟩
  | .hbm, ⟨50, _⟩ => ⟨S640000x256, .f32⟩
  | .hbm, ⟨51, _⟩ => ⟨S_, .f32⟩
  | .hbm, ⟨52, _⟩ => ⟨S100000x256, .f32⟩
  | .hbm, ⟨53, _⟩ => ⟨S640000x1, .i32⟩
  | .hbm, ⟨54, _⟩ => ⟨S100000x256, .f32⟩
  | .hbm, ⟨55, _⟩ => ⟨S1x256, .f32⟩
  | .hbm, ⟨56, _⟩ => ⟨S256x256, .bf16⟩
  | .hbm, ⟨57, _⟩ => ⟨S256x256, .bf16⟩
  | .hbm, ⟨58, _⟩ => ⟨S100000x1, .i32⟩
  | .hbm, ⟨59, _⟩ => ⟨S2x256x256, .f32⟩
  | .hbm, ⟨60, _⟩ => ⟨S_, .f32⟩
  | .hbm, ⟨61, _⟩ => ⟨S256x256, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x256, .bf16⟩
  | .local _ .vmem, ⟨7, _⟩ => ⟨S1x256, .f32⟩
  | .local _ .vmem, ⟨8, _⟩ => ⟨S128x256, .bf16⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x1, .f32⟩
  | .local _ .vmem, ⟨14, _⟩ => ⟨S5000x1, .f32⟩
  | .local _ .vmem, ⟨15, _⟩ => ⟨S5000x256, .f32⟩
  | .local _ .vmem, ⟨16, _⟩ => ⟨S5000x256, .f32⟩
  | .local _ .vmem, ⟨17, _⟩ => ⟨S256x256, .bf16⟩
  | .local _ .vmem, ⟨18, _⟩ => ⟨S1x256, .f32⟩
  | .local _ .vmem, ⟨19, _⟩ => ⟨S256x256, .bf16⟩
  | .local _ .vmem, ⟨20, _⟩ => ⟨S5000x1, .i32⟩
  | .local _ .vmem, ⟨21, _⟩ => ⟨S5000x1, .i32⟩
  | .local _ .vmem, ⟨22, _⟩ => ⟨S1x256x256, .f32⟩
  | .local _ .vmem, ⟨23, _⟩ => ⟨S1x256x256, .f32⟩
  | .local _ .vmem, ⟨24, _⟩ => ⟨S256x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 10], ![false, false]⟩

def k1_cond2 (i : grid1.Coords) : BitVec 1 :=
  let arg1 : BitVec 32 := BitVec.ofNat 32 (i 1).val
  let c9_i32 : BitVec 32 := 9#32
  let v41 : BitVec 1 := Scalar.cmpi .eq arg1 c9_i32
  let v42 : BitVec 32 := Scalar.extui v41
  let c0_i32_21 : BitVec 32 := 0#32
  let v43 : BitVec 1 := Scalar.cmpi .ne v42 c0_i32_21
  v43

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S5000x1 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bitsLt_bf16_f32 : FTy.bits .bf16 < FTy.bits .f32
  bcast_S_S100000x128 : S_.BroadcastsInDim S100000x128 (![] : Fin 0 → Fin S100000x128.rank)
  shapeCasts_S256_S1x256 : S256.ShapeCasts S1x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S100000x256 : S_.BroadcastsInDim S100000x256 (![] : Fin 0 → Fin S100000x256.rank)
  shapeCasts_S100000_S100000x1 : S100000.ShapeCasts S100000x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S5000x256_S5000x256 : S5000x256.ShapeCasts S5000x256
  broadcasts_S5000x1_S5000x256 : S5000x1.Broadcasts S5000x256
  iota_S5000x256_d1_w32 : S5000x256.Iotas .tc 32 [1]
  natLt_1_32 : 1 < 32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  reducesTo_S2x256x256_S256x256_d0 : S2x256x256.ReducesTo [0] S256x256
  h_S_ : 0 < S_.numel
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x256_S5000x256_1_0_0_1_n_n_wf : DotDims.WF S5000x128 S128x256 S5000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S5000x256_S256x256_S5000x256_1_0_0_1_n_n_wf : DotDims.WF S5000x256 S256x256 S5000x256 [1] [0] [0] [1] [] []
  dot_S5000x256_S5000x256_S256x256_0_0_1_1_n_n_wf : DotDims.WF S5000x256 S5000x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S100000x256.size a
  hwx0_6 : ∀ i : grid0.Coords, EltTy.bits .f32 = 32 ∨ (Rect.block (s := S100000x256) S5000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S100000x256.size a
  hwx1_2 : ∀ i : grid1.Coords, EltTy.bits .f32 = 32 ∨ (Rect.block (s := S100000x256) S5000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S100000x1.size a
  hwx1_6 : ∀ i : grid1.Coords, EltTy.bits .i32 = 32 ∨ (Rect.block (s := S100000x1) S5000x1.size (cc1_transform_6 i) (hinb1_6 i)).WholeWords (EltTy.packing .i32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x256.size a ≤ S2x256x256.size a
  hwx1_7 : ∀ i : grid1.Coords, EltTy.bits .f32 = 32 ∨ (Rect.block (s := S2x256x256) S1x256x256.size (cc1_transform_7 i) (hinb1_7 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S5000x256_S256x256_0_0_1_1_n_n : DotDims S5000x256 S5000x256 S256x256 where
  lhsContracting := [0]
  rhsContracting := [0]
  lhsNonContracting := [1]
  rhsNonContracting := [1]
  lhsBatch := []
  rhsBatch := []
  wf := dot_S5000x256_S5000x256_S256x256_0_0_1_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S5000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v42) S1x256x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000x1 : Shape := ⟨2, ![100000, 1]⟩
abbrev S100000x256 : Shape := ⟨2, ![100000, 256]⟩
abbrev S1x256 : Shape := ⟨2, ![1, 256]⟩
abbrev S640000x256 : Shape := ⟨2, ![640000, 256]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S128x256, .f32⟩
  | .hbm, ⟨4, _⟩ => ⟨S256, .f32⟩
  | .hbm, ⟨5, _⟩ => ⟨S128x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .f32⟩
  | .hbm, ⟨23, _⟩ => ⟨S100000x128, .f32⟩
  | .hbm, ⟨24, _⟩ => ⟨S640000x1, .i32⟩
  | .hbm, ⟨25, _⟩ => ⟨S100000x128, .f32⟩
  | .hbm, ⟨26, _⟩ => ⟨S_, .f32⟩
  | .hbm, ⟨27, _⟩ => ⟨S640000, .f32⟩
  | .hbm, ⟨28, _⟩ => ⟨S_, .f32⟩
  | .hbm, ⟨29, _⟩ => ⟨S100000, .f32⟩
  | .hbm, ⟨30, _⟩ => ⟨S640000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x256, .f32⟩
  | .hbm, ⟨39, _⟩ => ⟨S1x256, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S100000x256, .f32⟩
  | .hbm, ⟨44, _⟩ => ⟨S_, .f32⟩
  | .hbm, ⟨45, _⟩ => ⟨S100000x256, .f32⟩
  | .hbm, ⟨46, _⟩ => ⟨S100000x256, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x256, .f32⟩
  | .hbm, ⟨56, _⟩ => ⟨S_, .f32⟩
  | .hbm, ⟨57, _⟩ => ⟨S100000x256, .f32⟩
  | .hbm, ⟨58, _⟩ => ⟨S640000x1, .i32⟩
  | .hbm, ⟨59, _⟩ => ⟨S100000x256, .f32⟩
  | .hbm, ⟨60, _⟩ => ⟨S_, .f32⟩
  | .hbm, ⟨61, _⟩ => ⟨S640000, .f32⟩
  | .hbm, ⟨62, _⟩ => ⟨S_, .f32⟩
  | .hbm, ⟨63, _⟩ => ⟨S100000, .f32⟩
  | .hbm, ⟨64, _⟩ => ⟨S640000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x256, .f32⟩
  | .hbm, ⟨71, _⟩ => ⟨S100000x256, .f32⟩
  | .hbm, ⟨72, _⟩ => ⟨S100000x256, .f32⟩
  | .hbm, ⟨73, _⟩ => ⟨S1x256, .f32⟩
  | .hbm, ⟨74, _⟩ => ⟨S100000x256, .f32⟩
  | .hbm, ⟨75, _⟩ => ⟨S100000x256, .f32⟩
  | .hbm, ⟨76, _⟩ => ⟨S100000x256, .f32⟩
  | .hbm, ⟨77, _⟩ => ⟨S100000x256, .f32⟩
  | .hbm, ⟨78, _⟩ => ⟨S_, .f32⟩
  | .hbm, ⟨79, _⟩ => ⟨S256x256, .f32⟩
  | .hbm, ⟨80, _⟩ => ⟨S100000x1, .i32⟩
  | .hbm, ⟨81, _⟩ => ⟨S256x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S_S256x256 : S_.BroadcastsInDim S256x256 (![] : Fin 0 → Fin S256x256.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x256_S100000x256_1_0_0_1_n_n_wf : DotDims.WF S100000x128 S128x256 S100000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S100000x256_S256x256_S100000x256_1_0_0_1_n_n_wf : DotDims.WF S100000x256 S256x256 S100000x256 [1] [0] [0] [1] [] []
  scatter_S256x256_S100000x1_S100000x256_1_0_0_1_wf : ScatterDims.WF S256x256 S100000x1 S100000x256 [1] [0] [0] 1

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S256x256_S100000x1_S100000x256_1_0_0_1 : ScatterDims S256x256 S100000x1 S100000x256 where
  updateWindowDims := [1]
  insertedWindowDims := [0]
  scatterDimsToOperandDims := [0]
  indexVectorDim := 1
  wf := scatter_S256x256_S100000x1_S100000x256_1_0_0_1_wf

class Facts : Prop extends Facts₀ where

variable [Facts]
-- ==== Proof.Kernel.Linear.lean ====
/-
  The first pallas_call: one SAGEConv layer's dense half, a block of 5000 nodes at a time.
  At grid point `t` the body reads the block's neighbour sums `agg`, its in-degrees `cnt`, its own features `x`,
  the two weight matrices and the bias row, and stores into the output block
      relu( (agg / max(cnt, 1)) · W_l  +  x · W_r  +  b ).
  Nothing is kept between points: what the output's staging buffer holds after the body is one store covering it,
  over a payload that is a pure function of the six input blocks. This module names that function (`linOut`),
  proves the body's triple against it, and packs it as the pipeline's proof data at ANY contents `V` of the
  buffers when the region is entered.
-/
import proofs.«417693_j14645838480120_3_alg».proof.Proof.Gen.Kernel.Launch
import proofs.«417693_j14645838480120_3_alg».proof.Proof.Gen.Kernel.Skeleton
import proofs.«417693_j14645838480120_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at every point, whether the pipeline fetched it there
    or left it in place because its block index had not moved (the weights and the bias: fetched once). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

abbrev rAgg : Rect S5000x128 := Rect.unit (s := S5000x128) ![0, 0] S5000x128.size inb_S5000x128_S5000x128_0_0
abbrev rCnt : Rect S5000x1 := Rect.unit (s := S5000x1) ![0, 0] S5000x1.size inb_S5000x1_S5000x1_0_0
abbrev rW1 : Rect S128x256 := Rect.unit (s := S128x256) ![0, 0] S128x256.size inb_S128x256_S128x256_0_0
abbrev rB : Rect S1x256 := Rect.unit (s := S1x256) ![0, 0] S1x256.size inb_S1x256_S1x256_0_0
abbrev rOut : Rect S5000x256 := Rect.unit (s := S5000x256) ![0, 0] S5000x256.size inb_S5000x256_S5000x256_0_0

/-- The output block after the body, from the six input blocks (in window order: neighbour sums, in-degrees, own
    features, left weights, bias row, right weights): its one store, which covers the block. -/
def linOut (agg : Vec F S5000x128 .f32) (cnt : Vec F S5000x1 .f32) (x : Vec F S5000x128 .f32) (wl : Vec F S128x256 .bf16)
    (b : Vec F S1x256 .f32) (wr : Vec F S128x256 .bf16) : Vec F S5000x256 .f32 :=
  View.canon [⟨rOut, k0_pay1 (View.ld cnt rCnt) (View.ld agg rAgg) (View.ld wl rW1) (View.ld x rAgg) (View.ld wr rW1) (View.ld b rB)⟩]

/-- The one store tiles the block, so it covers it. -/
theorem linCover (p : Vec F S5000x256 .f32) (y : S5000x256.Idx) :
    ∃ pc ∈ ([⟨rOut, p⟩] : List (View.Piece (Elt F) S5000x256 .f32)), y ∈ pc.1.set :=
  View.cover_of_tiled [⟨rOut, p⟩] S5000x256.size (by rfl) y

/-! ## The body's triple -/

set_option maxHeartbeats 4000000 in
/-- The body on whole staging memrefs, the inputs' at contents `agg … wr` and the output's at anything, runs to the
    continuation with the inputs' as they were and the output's at `linOut` of them. -/
theorem sound_kernel0 (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S5000x128 .f32) (harg3 : arg3.IsWhole) (arg4 : Memref sig .tc .vmem S128x256 .bf16) (harg4 : arg4.IsWhole)
    (arg5 : Memref sig .tc .vmem S1x256 .f32) (harg5 : arg5.IsWhole) (arg6 : Memref sig .tc .vmem S128x256 .bf16) (harg6 : arg6.IsWhole)
    (arg7 : Memref sig .tc .vmem S5000x256 .f32) (harg7 : arg7.IsWhole)
    (agg : Vec F S5000x128 .f32) (cnt : Vec F S5000x1 .f32) (x : Vec F S5000x128 .f32) (wl : Vec F S128x256 .bf16)
    (b : Vec F S1x256 .f32) (wr : Vec F S128x256 .bf16) (K : PUnit → sProp 𝕄) :
    iprop(owns (c : Thread nD τ) arg1 fullShare agg ∗ owns (c : Thread nD τ) arg2 fullShare cnt ∗ owns (c : Thread nD τ) arg3 fullShare x
        ∗ owns (c : Thread nD τ) arg4 fullShare wl ∗ owns (c : Thread nD τ) arg5 fullShare b ∗ owns (c : Thread nD τ) arg6 fullShare wr
        ∗ (∃ d, owns (c : Thread nD τ) arg7 fullShare d)
        ∗ (iprop(owns (c : Thread nD τ) arg1 fullShare agg ∗ owns (c : Thread nD τ) arg2 fullShare cnt ∗ owns (c : Thread nD τ) arg3 fullShare x
            ∗ owns (c : Thread nD τ) arg4 fullShare wl ∗ owns (c : Thread nD τ) arg5 fullShare b ∗ owns (c : Thread nD τ) arg6 fullShare wr
            ∗ owns (c : Thread nD τ) arg7 fullShare (linOut agg cnt x wl b wr)) -∗ K ⟨⟩))
      ⊢ wp frame (wpE (defs₀ (F := F)) Variants.none c none) E
          (cc0__sage_linear_kernel i arg1 harg1 arg2 harg2 arg3 harg3 arg4 harg4 arg5 harg5 arg6 harg6 arg7 harg7) K := by
  simp only [cc0__sage_linear_kernel_eq_skeleton]; unfold cc0__sage_linear_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (linCover _)

/-! ## The pipeline's proof data -/

/-- The proof data of this pipeline on core `c`: the arrays as the region finds them; after the body at point `t`
    each input's buffer at its block and the output's at `linOut` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => linOut (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
/-- The output block after point `t`: the layer's formula on the point's input blocks. -/
theorem after0_6 (c : Dev nD) (t : Fin cfg0.N) : (dat0 V c).after 6 t
    = linOut (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Sage

end
-- ==== Proof.Kernel.Pool.lean ====
/-
  The second pallas_call: the second SAGEConv layer's dense half fused with the global add pool, a block of 5000
  nodes at a time, on a 2 x 10 grid (point t has inner coordinate t % 10).
  The body keeps a 256 x 256 accumulator in a scratch buffer that lives across grid points:
    * where t % 10 = 0 it first stores zeros into the accumulator;
    * at every point it adds the point's contribution, a function of the seven input blocks, to the accumulator;
    * where t % 10 = 9 it also copies the accumulator into the output block, which the pipeline then writes back.
  At the other points the output's staging buffer is neither stored into nor written back.
  So what the accumulator and the output block hold after point t is a recursion over t (outsAt1), and the region's
  invariant carries the accumulator's contents from one point to the next. This module runs the body in its three
  control cases, states the recursion, and packs it as the pipeline's proof data at ANY contents V of the buffers
  when the region is entered.
-/
import proofs.«417693_j14645838480120_3_alg».proof.Proof.Gen.Kernel.Launch
import proofs.«417693_j14645838480120_3_alg».proof.Proof.Gen.Kernel.Skeleton
import proofs.«417693_j14645838480120_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window w's block at point t, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block at every point, whether the pipeline fetched it there
    or left it in place because its block index had not moved (the weights and the bias: fetched once). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- The first condition, tested inside the body's first part: the inner coordinate is 0. -/
abbrev cond1_0 (i : grid1.Coords) : Prop := (Scalar.cmpi .ne (Scalar.extui (Scalar.cmpi .eq (BitVec.ofNat 32 (i 1).val) 0#32)) 0#32) = 1#1
/-- It holds exactly at the points whose position is 0 modulo 10. -/
theorem hcond1_0 : ∀ t : Fin cfg1.N, cond1_0 (grid1.coords t) ↔ t.val % 10 = 0 :=
  (by decide +kernel : ∀ t : Fin grid1.N, cond1_0 (grid1.coords t) ↔ t.val % 10 = 0)

/-- The second condition: the inner coordinate is 9. -/
abbrev cond1_1 (i : grid1.Coords) : Prop := k1_cond2 i = 1#1
/-- It holds exactly at the points whose position is 9 modulo 10. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
/-- Where the inner coordinate is 0 the output is idle: nothing is stored into it, -/
theorem idleAt1_7_A : ∀ t : Fin cfg1.N, cond1_0 (grid1.coords t) → ¬cond1_1 (grid1.coords t) → cfg1.idle 7 (grid1.coords t) = true := by decide +kernel
/-- and its block is not written back. -/
theorem noFlush1_7_A : ∀ t : Fin cfg1.N, cond1_0 (grid1.coords t) → ¬cond1_1 (grid1.coords t) → (cfg1.win 7).flush t = false := by decide +kernel
/-- The same where the inner coordinate is strictly between 0 and 9. -/
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
/-- Where the inner coordinate is 9 the output is live: the body stores into it. -/
theorem liveAt1_7_C : ∀ t : Fin cfg1.N, ¬cond1_0 (grid1.coords t) → cond1_1 (grid1.coords t) → cfg1.idle 7 (grid1.coords t) = false := by decide +kernel

/-! ## The memrefs the body is called with -/

/-- Each window's current staging memref at point t, and its wholeness. -/
abbrev ms1_0 (t : Fin cfg1.N) : Memref sig .tc .vmem S5000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S5000x1 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256x256 .f32 := win1_7.stage (cfg1.slots t 7)
abbrev hs1_7 (t : Fin cfg1.N) : (ms1_7 t).IsWhole := hstage1_7 ((cfg1.slots t 7).cast nbuf1_7)
/-- The accumulator: a whole scoped buffer of the kernel's own, passed beside the windows. -/
abbrev scM1 : Memref sig .tc .vmem S256x256 .f32 := Memref.whole cc1_scratch0
/-- The accumulator as a view: what it holds is stated through it. -/
abbrev VS1 : View sig .tc .vmem S256x256 .f32 := scM1.view
/-- One staging buffer of the output window, through which its contents are stated (which one does not matter:
    a covering list of writes reads back the same through any view). -/
abbrev VO1_7 : View sig .tc .vmem S1x256x256 .f32 := (Memref.whole cc1_stg7_0 : Memref sig .tc .vmem S1x256x256 .f32).view

/-! ## The region's scoped rest

Besides the accumulator, the core's scoped buffers that this pipeline does not stage are the eleven staging buffers
of the first pallas_call. The body never touches them: they ride along at some contents. -/

/-- The eleven staging buffers of the other call, each whole at some contents, beside a resource S for the accumulator. -/
def carried (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ S)

/-- The class's region invariant, with the accumulator as a memref owned at some contents. -/
theorem PhiA1_eq (c : Dev nD) :
    (Pipeline.ΦA spec1 c : sProp 𝕄)
      = iprop(carried c iprop(∃ d, owns (c : Thread nD τ) scM1 fullShare d) ∗ (∃ r, prngReg c r)) := by
  unfold Pipeline.ΦA carried; rw [scopedRest1_eq]; simp only [scM1, owns_whole]; try rfl

/-- The frame rule for the carried buffers: take the accumulator's resource out, and put any other back in. -/
theorem carried_frame (c : Dev nD) (S S' : sProp 𝕄) : carried c S ⊢ iprop(S ∗ (S' -∗ carried c S')) := by
  unfold carried
  iintro ⟨H0, H1, H2, H3, H4, H5, H6, H7, H8, H9, H10, HS⟩
  isplitl [HS]; · iexact HS
  iintro HS'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HS'

/-! ## The body's triple, case by case

The body on whole memrefs: the seven inputs' at their blocks x0 .. x6, the output's and the accumulator's as the case
needs them. Each case's run also FINDS the pieces (rectangle and payload, last store first) that the body's stores leave
in the output's memref (L7) and in the accumulator (LS): they are the witness the run produces. -/

section Runs

variable (c : Dev nD) (i : grid1.Coords)
  (arg2 : Memref sig .tc .vmem S5000x256 .f32) (harg2 : arg2.IsWhole) (arg3 : Memref sig .tc .vmem S5000x1 .f32) (harg3 : arg3.IsWhole)
  (arg4 : Memref sig .tc .vmem S5000x256 .f32) (harg4 : arg4.IsWhole) (arg5 : Memref sig .tc .vmem S256x256 .bf16) (harg5 : arg5.IsWhole)
  (arg6 : Memref sig .tc .vmem S1x256 .f32) (harg6 : arg6.IsWhole) (arg7 : Memref sig .tc .vmem S256x256 .bf16) (harg7 : arg7.IsWhole)
  (arg8 : Memref sig .tc .vmem S5000x1 .i32) (harg8 : arg8.IsWhole) (arg9 : Memref sig .tc .vmem S1x256x256 .f32) (harg9 : arg9.IsWhole)
  (arg10 : Memref sig .tc .vmem S256x256 .f32) (harg10 : arg10.IsWhole)
  (x0 : Vec F S5000x256 .f32) (x1 : Vec F S5000x1 .f32) (x2 : Vec F S5000x256 .f32) (x3 : Vec F S256x256 .bf16)
  (x4 : Vec F S1x256 .f32) (x5 : Vec F S256x256 .bf16) (x6 : Vec F S5000x1 .i32)

set_option maxHeartbeats 4000000 in
/-- CASE A (inner coordinate 0: the accumulator is reset, the output is not stored). The accumulator may hold anything
    on entry; the output's memref, idle here, is handed back at the contents xi7 it came with. -/
noncomputable def kernelRun1_A (hc0 : cond1_0 i) (hc1 : ¬cond1_1 i) :
    Σ' (L7 : List (View.Piece (Elt F) S1x256x256 .f32)), { LS : List (View.Piece (Elt F) S256x256 .f32) //
      ∀ (xi7 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ owns (c : Thread nD τ) arg8 fullShare x6 ∗ owns (c : Thread nD τ) arg9 fullShare xi7
                ∗ (∃ f, arg10.view.loc (c : Thread nD τ) ↦[arg10.view.set]{fullShare} arg10.view.writes (Elt F) f LS)) -∗ K ⟨⟩))
          ⊢ wp frame (wpE (defs₀ (F := F)) Variants.none c none) E
              (cc1__sage_pool_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__sage_pool_kernel_eq_skeleton]; unfold cc1__sage_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

set_option maxHeartbeats 4000000 in
/-- CASE B (inner coordinate strictly between 0 and 9: accumulate only). The accumulator holds xs on entry, what the point
    before left; the output's memref, idle here, is handed back at the contents xi7 it came with. -/
noncomputable def kernelRun1_B (hc0 : ¬cond1_0 i) (hc1 : ¬cond1_1 i) (xs : Vec F S256x256 .f32) :
    Σ' (L7 : List (View.Piece (Elt F) S1x256x256 .f32)), { LS : List (View.Piece (Elt F) S256x256 .f32) //
      ∀ (xi7 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ owns (c : Thread nD τ) arg8 fullShare x6 ∗ owns (c : Thread nD τ) arg9 fullShare xi7
                ∗ (∃ f, arg10.view.loc (c : Thread nD τ) ↦[arg10.view.set]{fullShare} arg10.view.writes (Elt F) f LS)) -∗ K ⟨⟩))
          ⊢ wp frame (wpE (defs₀ (F := F)) Variants.none c none) E
              (cc1__sage_pool_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__sage_pool_kernel_eq_skeleton]; unfold cc1__sage_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

set_option maxHeartbeats 4000000 in
/-- CASE C (inner coordinate 9: accumulate, then copy the accumulator into the output). The accumulator holds xs on
    entry; the output's memref may hold anything, and ends with the pieces L7 written. -/
noncomputable def kernelRun1_C (hc0 : ¬cond1_0 i) (hc1 : cond1_1 i) (xs : Vec F S256x256 .f32) :
    Σ' (L7 : List (View.Piece (Elt F) S1x256x256 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS)) -∗ K ⟨⟩))
          ⊢ wp frame (wpE (defs₀ (F := F)) Variants.none c none) E
              (cc1__sage_pool_kernel i arg2 harg2 arg3 harg3 arg4 harg4 arg5 harg5 arg6 harg6 arg7 harg7 arg8 harg8 arg9 harg9 arg10 harg10) K } := by
  refine ⟨?_, ?_, fun E K => ?run⟩
  case run =>
    simp only [cc1__sage_pool_kernel_eq_skeleton]; unfold cc1__sage_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Runs

/-! ## The runs at a grid point

Each case's run at point t: on the point's staging memrefs and the accumulator, the inputs at their blocks, the case
selected by the closed forms of the two conditions. -/

/-- Case A's run at a point whose position is 0 modulo 10. -/
def runA (c : Dev nD) (t : Fin cfg1.N) (h0 : t.val % 10 = 0) (h1 : ¬t.val % 10 = 9) :=
  kernelRun1_A (F := F) c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) scM1 (Memref.isWhole_whole _)
    (iblk1 V c 0 t) (iblk1 V c 1 t) (iblk1 V c 2 t) (iblk1 V c 3 t) (iblk1 V c 4 t) (iblk1 V c 5 t) (iblk1 V c 6 t)
    ((hcond1_0 t).mpr h0) (fun h => h1 ((hcond1_1 t).mp h))

/-- Case B's run at a point whose position is neither 0 nor 9 modulo 10, the accumulator entering at xs. -/
def runB (c : Dev nD) (t : Fin cfg1.N) (h0 : ¬t.val % 10 = 0) (h1 : ¬t.val % 10 = 9) (xs : Vec F S256x256 .f32) :=
  kernelRun1_B (F := F) c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) scM1 (Memref.isWhole_whole _)
    (iblk1 V c 0 t) (iblk1 V c 1 t) (iblk1 V c 2 t) (iblk1 V c 3 t) (iblk1 V c 4 t) (iblk1 V c 5 t) (iblk1 V c 6 t)
    (fun h => h0 ((hcond1_0 t).mp h)) (fun h => h1 ((hcond1_1 t).mp h)) xs

/-- Case C's run at a point whose position is 9 modulo 10, the accumulator entering at xs. -/
def runC (c : Dev nD) (t : Fin cfg1.N) (h0 : ¬t.val % 10 = 0) (h1 : t.val % 10 = 9) (xs : Vec F S256x256 .f32) :=
  kernelRun1_C (F := F) c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) scM1 (Memref.isWhole_whole _)
    (iblk1 V c 0 t) (iblk1 V c 1 t) (iblk1 V c 2 t) (iblk1 V c 3 t) (iblk1 V c 4 t) (iblk1 V c 5 t) (iblk1 V c 6 t)
    (fun h => h0 ((hcond1_0 t).mp h)) ((hcond1_1 t).mpr h1) xs

/-! ## What each case leaves -/

/-- Case A stores nothing into the output: no pieces. A placeholder that nothing consults, since at these points
    the window is neither written back nor read at the next point. -/
def out1_A_7 (c : Dev nD) (t : Fin cfg1.N) (h0 : t.val % 10 = 0) (h1 : ¬t.val % 10 = 9) : Vec F S1x256x256 .f32 :=
  VO1_7.read (Elt F) (VO1_7.writes (Elt F) VO1_7.junk (runA V c t h0 h1).1)

/-- Case A's pieces for the accumulator (the zero fill, then the sum) cover it. -/
theorem scover1_A (c : Dev nD) (t : Fin cfg1.N) (h0 : t.val % 10 = 0) (h1 : ¬t.val % 10 = 9) (y : S256x256.Idx) :
    ∃ pc ∈ (runA V c t h0 h1).2.1, y ∈ pc.1.set :=
  View.cover_of_tiledL (runA V c t h0 h1).2.1 S256x256.size (by sl_kernel_rfl) y

/-- What case A leaves in the accumulator: its pieces read back. -/
def sout1_A (c : Dev nD) (t : Fin cfg1.N) (h0 : t.val % 10 = 0) (h1 : ¬t.val % 10 = 9) : Vec F S256x256 .f32 :=
  VS1.read (Elt F) (VS1.writes (Elt F) VS1.junk (runA V c t h0 h1).2.1)

/-- Case B stores nothing into the output either. -/
def out1_B_7 (c : Dev nD) (t : Fin cfg1.N) (h0 : ¬t.val % 10 = 0) (h1 : ¬t.val % 10 = 9) (xs : Vec F S256x256 .f32) : Vec F S1x256x256 .f32 :=
  VO1_7.read (Elt F) (VO1_7.writes (Elt F) VO1_7.junk (runB V c t h0 h1 xs).1)

/-- Case B's one piece for the accumulator (the sum) covers it. -/
theorem scover1_B (c : Dev nD) (t : Fin cfg1.N) (h0 : ¬t.val % 10 = 0) (h1 : ¬t.val % 10 = 9) (xs : Vec F S256x256 .f32) (y : S256x256.Idx) :
    ∃ pc ∈ (runB V c t h0 h1 xs).2.1, y ∈ pc.1.set :=
  View.cover_of_tiledL (runB V c t h0 h1 xs).2.1 S256x256.size (by sl_kernel_rfl) y

/-- What case B leaves in the accumulator. -/
def sout1_B (c : Dev nD) (t : Fin cfg1.N) (h0 : ¬t.val % 10 = 0) (h1 : ¬t.val % 10 = 9) (xs : Vec F S256x256 .f32) : Vec F S256x256 .f32 :=
  VS1.read (Elt F) (VS1.writes (Elt F) VS1.junk (runB V c t h0 h1 xs).2.1)

/-- Case C's one store into the output covers its block. -/
theorem cover1_C_7 (c : Dev nD) (t : Fin cfg1.N) (h0 : ¬t.val % 10 = 0) (h1 : t.val % 10 = 9) (xs : Vec F S256x256 .f32) (y : S1x256x256.Idx) :
    ∃ pc ∈ (runC V c t h0 h1 xs).1, y ∈ pc.1.set :=
  View.cover_of_tiledL (runC V c t h0 h1 xs).1 S1x256x256.size (by sl_kernel_rfl) y

/-- What case C leaves in the output's staging buffer. -/
def out1_C_7 (c : Dev nD) (t : Fin cfg1.N) (h0 : ¬t.val % 10 = 0) (h1 : t.val % 10 = 9) (xs : Vec F S256x256 .f32) : Vec F S1x256x256 .f32 :=
  VO1_7.read (Elt F) (VO1_7.writes (Elt F) VO1_7.junk (runC V c t h0 h1 xs).1)

/-- Case C's one piece for the accumulator covers it. -/
theorem scover1_C (c : Dev nD) (t : Fin cfg1.N) (h0 : ¬t.val % 10 = 0) (h1 : t.val % 10 = 9) (xs : Vec F S256x256 .f32) (y : S256x256.Idx) :
    ∃ pc ∈ (runC V c t h0 h1 xs).2.1, y ∈ pc.1.set :=
  View.cover_of_tiledL (runC V c t h0 h1 xs).2.1 S256x256.size (by sl_kernel_rfl) y

/-- What case C leaves in the accumulator. -/
def sout1_C (c : Dev nD) (t : Fin cfg1.N) (h0 : ¬t.val % 10 = 0) (h1 : t.val % 10 = 9) (xs : Vec F S256x256 .f32) : Vec F S256x256 .f32 :=
  VS1.read (Elt F) (VS1.writes (Elt F) VS1.junk (runC V c t h0 h1 xs).2.1)

/-! ## What the output block and the accumulator hold after each point -/

/-- THE ACCUMULATION. The output's staging buffer and the accumulator after the body at position n: the case the
    closed forms select at n, the accumulator entering at what this recursion leaves at n - 1 (nothing touches it between
    two points). Positions 0 and 10 start afresh. No position is 0 and 9 modulo 10 at once. -/
def outsAt1 (c : Dev nD) : (n : ℕ) → n < cfg1.N → Vec F S1x256x256 .f32 × Vec F S256x256 .f32
  | 0, hn => (out1_A_7 V c ⟨0, hn⟩ (Nat.zero_mod _) (by decide : ¬(0 % 10 = 9)), sout1_A V c ⟨0, hn⟩ (Nat.zero_mod _) (by decide : ¬(0 % 10 = 9)))
  | n + 1, hn =>
    if h0 : (n + 1) % 10 = 0 then
      if h1 : (n + 1) % 10 = 9 then
        False.elim (by omega)
      else
        (out1_A_7 V c ⟨n + 1, hn⟩ h0 h1, sout1_A V c ⟨n + 1, hn⟩ h0 h1)
    else
      if h1 : (n + 1) % 10 = 9 then
        (out1_C_7 V c ⟨n + 1, hn⟩ h0 h1 (outsAt1 c n (Nat.lt_of_succ_lt hn)).2, sout1_C V c ⟨n + 1, hn⟩ h0 h1 (outsAt1 c n (Nat.lt_of_succ_lt hn)).2)
      else
        (out1_B_7 V c ⟨n + 1, hn⟩ h0 h1 (outsAt1 c n (Nat.lt_of_succ_lt hn)).2, sout1_B V c ⟨n + 1, hn⟩ h0 h1 (outsAt1 c n (Nat.lt_of_succ_lt hn)).2)

/-- At a point of case A: that case's contents. -/
theorem outsAt1_A (c : Dev nD) (t : Fin cfg1.N) (h0 : t.val % 10 = 0) (h1 : ¬t.val % 10 = 9) :
    outsAt1 V c t.val t.isLt = (out1_A_7 V c t h0 h1, sout1_A V c t h0 h1) := by
  obtain ⟨n, hn⟩ := t
  cases n with
  | zero => exact rfl
  | succ n => exact (dif_pos h0).trans ((dif_neg h1).trans rfl)

/-- At a point of case B: that case's contents, over what the point before left in the accumulator. -/
theorem outsAt1_B (c : Dev nD) (t : Fin cfg1.N) (h0 : ¬t.val % 10 = 0) (h1 : ¬t.val % 10 = 9) :
    outsAt1 V c t.val t.isLt
      = (out1_B_7 V c t h0 h1 (outsAt1 V c (t.val - 1) (Nat.lt_of_le_of_lt (Nat.sub_le _ _) t.isLt)).2,
         sout1_B V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point of case C: that case's contents, over what the point before left in the accumulator. -/
theorem outsAt1_C (c : Dev nD) (t : Fin cfg1.N) (h0 : ¬t.val % 10 = 0) (h1 : t.val % 10 = 9) :
    outsAt1 V c t.val t.isLt
      = (out1_C_7 V c t h0 h1 (outsAt1 V c (t.val - 1) (Nat.lt_of_le_of_lt (Nat.sub_le _ _) t.isLt)).2,
         sout1_C V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before position n: at the first point what the launch hands the region (the accumulator at anything); afterwards the
    scoped rest with the accumulator at what the point before left in it, and the generator register at some state. -/
def PhiS1 (c : Dev nD) : (n : ℕ) → n ≤ cfg1.N → sProp 𝕄
  | 0, _ => Pipeline.ΦA spec1 c
  | n + 1, hn => iprop(carried c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point n: the accumulator at that point's contents. -/
theorem PhiS1_succ (c : Dev nD) (n : ℕ) (hn : n < cfg1.N) :
    PhiS1 V c (n + 1) hn = iprop(carried c (owns (c : Thread nD τ) scM1 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(carried c (owns (c : Thread nD τ) scM1 fullShare ((outsAt1 V c (n - 1) (by omega)).2)) ∗ (∃ r, prngReg c r)) := by
  cases n with
  | zero => exact absurd rfl hz
  | succ n => rfl

/-! ## The pipeline's proof data -/

/-- The proof data of this pipeline on core c: the arrays as the region finds them; after the body at point t each
    input's buffer at its block and the output's at the recursion's first component; the invariant above; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
/-- The output block after point t: the recursion's first component. -/
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- An input's buffer is handed back at its block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) : (dat1 V c).leavesExact 5 t = owns (c : Thread nD τ) (ms1_5 t) fullShare (iblk1 V c 5 t) := by
  unfold Dat.leavesExact; rw [liveAt1_5 t, after1_5]
theorem leaves1_6 (c : Dev nD) (t : Fin cfg1.N) : (dat1 V c).leavesExact 6 t = owns (c : Thread nD τ) (ms1_6 t) fullShare (iblk1 V c 6 t) := by
  unfold Dat.leavesExact; rw [liveAt1_6 t, after1_6]

/-- The accumulator after a covering list of writes reads as the case's contents, whatever it held before. -/
theorem sout1_A_eq (c : Dev nD) (t : Fin cfg1.N) (h0 : t.val % 10 = 0) (h1 : ¬t.val % 10 = 9) (f) :
    scM1.view.read (Elt F) (scM1.view.writes (Elt F) f (runA V c t h0 h1).2.1) = sout1_A V c t h0 h1 := by
  unfold sout1_A; exact View.read_writes_of_cover _ _ _ _ _ (scover1_A V c t h0 h1)
theorem sout1_B_eq (c : Dev nD) (t : Fin cfg1.N) (h0 : ¬t.val % 10 = 0) (h1 : ¬t.val % 10 = 9) (xs : Vec F S256x256 .f32) (f) :
    scM1.view.read (Elt F) (scM1.view.writes (Elt F) f (runB V c t h0 h1 xs).2.1) = sout1_B V c t h0 h1 xs := by
  unfold sout1_B; exact View.read_writes_of_cover _ _ _ _ _ (scover1_B V c t h0 h1 xs)
theorem sout1_C_eq (c : Dev nD) (t : Fin cfg1.N) (h0 : ¬t.val % 10 = 0) (h1 : t.val % 10 = 9) (xs : Vec F S256x256 .f32) (f) :
    scM1.view.read (Elt F) (scM1.view.writes (Elt F) f (runC V c t h0 h1 xs).2.1) = sout1_C V c t h0 h1 xs := by
  unfold sout1_C; exact View.read_writes_of_cover _ _ _ _ _ (scover1_C V c t h0 h1 xs)
/-- The same for the output's staging buffer in case C. -/
theorem out1_C_7_eq (c : Dev nD) (t : Fin cfg1.N) (h0 : ¬t.val % 10 = 0) (h1 : t.val % 10 = 9) (xs : Vec F S256x256 .f32) (f) :
    (ms1_7 t).view.read (Elt F) ((ms1_7 t).view.writes (Elt F) f (runC V c t h0 h1 xs).1) = out1_C_7 V c t h0 h1 xs := by
  unfold out1_C_7; exact View.read_writes_of_cover _ _ _ _ _ (cover1_C_7 V c t h0 h1 xs)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' memrefs hold their blocks; the closed forms say which case the point is in;
    the invariant hands the body the accumulator at what the point before left (at anything at the first point) and takes
    it back at this point's contents, the carried buffers passing around the run; where the output is idle its buffer
    goes back as it came; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6]
  have hN : t.val < 20 := lt_of_lt_of_eq t.isLt (show cfg1.N = 20 from N_1)
  by_cases h0 : t.val % 10 = 0
  · by_cases h1 : t.val % 10 = 9
    · exfalso; omega
    · rw [Dat.leavesExact_idle (dat1 V c) 7 t (idleAt1_7_A t ((hcond1_0 t).mpr h0) (fun h => h1 ((hcond1_1 t).mp h)))
        (noFlush1_7_A t ((hcond1_0 t).mpr h0) (fun h => h1 ((hcond1_1 t).mp h)))]
      rw [outsAt1_A V c t h0 h1]
      dsimp only
      by_cases hz : t.val = 0
      · rw [PhiS1_castSucc V c t, PhiS1_zero V c _ _ hz, PhiA1_eq]
        iintro ⟨⟨HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        ihave HC' := (carried_frame c _ (owns (c : Thread nD τ) scM1 fullShare (sout1_A V c t h0 h1))) $$ HC
        icases HC' with ⟨HS, Hback⟩
        iapply ((runA V c t h0 h1).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HS Hback Hg]
        · isplitl [HS Hback]
          · iapply Hback
            unfold owns; iexists _; isplitr
            swap; · iexact HS
            ipureintro; exact sout1_A_eq V c t h0 h1 _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS1_castSucc V c t, PhiS1_pos V c _ _ hz]
        iintro ⟨⟨HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        ihave HC' := (carried_frame c _ (owns (c : Thread nD τ) scM1 fullShare (sout1_A V c t h0 h1))) $$ HC
        icases HC' with ⟨HS, Hback⟩
        iapply ((runA V c t h0 h1).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, ⟨%es, HS⟩⟩
        isplitl [HS Hback Hg]
        · isplitl [HS Hback]
          · iapply Hback
            unfold owns; iexists _; isplitr
            swap; · iexact HS
            ipureintro; exact sout1_A_eq V c t h0 h1 _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun hz => h0 (by rw [hz])
    by_cases h1 : t.val % 10 = 9
    · rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      dsimp only
      rw [PhiS1_castSucc V c t, PhiS1_pos V c _ _ hz]
      iintro ⟨⟨HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HC' := (carried_frame c _ (owns (c : Thread nD τ) scM1 fullShare
        (sout1_C V c t h0 h1 (outsAt1 V c (t.val - 1) (Nat.lt_of_le_of_lt (Nat.sub_le _ _) t.isLt)).2))) $$ HC
      icases HC' with ⟨HS, Hback⟩
      iapply ((runC V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hback Hg]
      · isplitl [HS Hback]
        · iapply Hback
          unfold owns; iexists _; isplitr
          swap; · iexact HS
          ipureintro; exact sout1_C_eq V c t h0 h1 _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact out1_C_7_eq V c t h0 h1 _ _
    · rw [Dat.leavesExact_idle (dat1 V c) 7 t (idleAt1_7_B t (fun h => h0 ((hcond1_0 t).mp h)) (fun h => h1 ((hcond1_1 t).mp h)))
        (noFlush1_7_B t (fun h => h0 ((hcond1_0 t).mp h)) (fun h => h1 ((hcond1_1 t).mp h)))]
      rw [outsAt1_B V c t h0 h1]
      dsimp only
      rw [PhiS1_castSucc V c t, PhiS1_pos V c _ _ hz]
      iintro ⟨⟨HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HC' := (carried_frame c _ (owns (c : Thread nD τ) scM1 fullShare
        (sout1_B V c t h0 h1 (outsAt1 V c (t.val - 1) (Nat.lt_of_le_of_lt (Nat.sub_le _ _) t.isLt)).2))) $$ HC
      icases HC' with ⟨HS, Hback⟩
      iapply ((runB V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hback Hg]
      · isplitl [HS Hback]
        · iapply Hback
          unfold owns; iexists _; isplitr
          swap; · iexact HS
          ipureintro; exact sout1_B_eq V c t h0 h1 _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HC, Hg⟩
  isplitl [HC]
  · ihave HC' := (carried_frame c _ iprop(∃ d, owns (c : Thread nD τ) scM1 fullShare d)) $$ HC
    icases HC' with ⟨HS, Hback⟩
    iapply Hback
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.Kernel.Sage

end
-- ==== Proof.Kernel.Run.lean ====
/-
  @main from the launch to the return: three stretches of host operations around the two pallas_calls.
  The buffers' contents at each boundary are a fold from the launch memory: a host stretch applies its operations;
  a pallas_call leaves its windows' arrays at what the pipeline's write-backs make of them and every other buffer
  as it was. Over that fold each pallas_call is a segment entered with every unscoped buffer held at the boundary's
  contents and left with them held at the next boundary's, and the launch theorem for a list of segments gives: every
  weakly fair execution terminates, nothing faults, and at the end every unscoped buffer holds the last boundary's
  contents. Read at the nine arguments this is the frame (no stretch writes an argument, no pallas_call has one as an
  output); read at the result buffer it is the value the program computes.
-/
import proofs.«417693_j14645838480120_3_alg».proof.Proof.Kernel.Linear
import proofs.«417693_j14645838480120_3_alg».proof.Proof.Kernel.Pool
import proofs.«417693_j14645838480120_3_alg».proof.Proof.Gen.Kernel.Regions

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: the first pallas_call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the second pallas_call's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second pallas_call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the return. -/
abbrev W5 : Dev nD → Valuation τ sig (Elt F) := fun c => StableHlo.after hostOps2 (W4 m ρ c)

/-- A buffer that no host stretch writes, that is no array of the second pallas_call, and that the first pallas_call
    leaves as it found it, holds at the return what it held at launch. -/
theorem W5_kept (c : Dev nD) (r : Ref sig .tc) (h2 : r ∉ hostOps2_W) (h4 : ∀ w, Pipeline.arrRef spec1 w ≠ r)
    (h1 : r ∉ hostOps1_W) (hreg : W2 m ρ c (Proc.devRef .tc r) = W1 m ρ c (Proc.devRef .tc r)) (h0 : r ∉ hostOps0_W) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r h4
    _ = W2 m ρ c (Proc.devRef .tc r) := StableHlo.after_of_writes_sub hostOps1 _ hostOps1_writes h1
    _ = W1 m ρ c (Proc.devRef .tc r) := hreg
    _ = W0 m ρ c (Proc.devRef .tc r) := StableHlo.after_of_writes_sub hostOps0 _ hostOps0_writes h0
    _ = m ((c : Thread nD τ).loc r) := rfl

/-- The node features are an INPUT array of the first pallas_call (its third window): the pipeline leaves an input
    array as it found it. -/
theorem W2_x (c : Dev nD) : W2 m ρ c (Proc.devRef .tc main_arg0) = W1 m ρ c (Proc.devRef .tc main_arg0) :=
  (W2_arr m ρ c 2).trans (((dat0 (V1 m ρ) c).arrAt_in 2 rfl _).trans (A_eq0 (V1 m ρ) c 2))

/-! ## The proof data family and the thread state -/

abbrev adm : (p : Fin 2) → (pcfgs (F := F) p).Adm := fun p => (cfgs p).toPCfg_adm
/-- Each pipeline's proof data at its pallas_call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The pallas_calls as segments -/

set_option backward.isDefEq.respectTransparency.types false in
/-- The first pallas_call: entered with every unscoped buffer at `W1`, left with them at `W2`. Its arrays are split out
    of the unscoped buffers and put back at the exit contents; the generator register goes into the invariant and comes
    out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered with every unscoped buffer at `W3`, left with them at `W4`. Its invariant starts
    as the scoped rest and the generator register (the accumulator scratch at anything) and ends giving them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    at the end every unscoped buffer of every core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- Where every unscoped buffer holds the last boundary's contents, each of the nine arguments holds what it held at
    launch: no host line writes an argument, the second pallas_call has none among its arrays, and the first has only
    the node features, as an input. -/
theorem args_kept (c : Dev nD) (mem : (ℓ : Loc nD τ sig) → Buf (Elt F) ℓ)
    (h : ∀ b ∈ Pipeline.ucRefs τ sig, mem (((c : Thread nD τ)).1, b) = W5 m ρ c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8) :=
  ⟨(h _ (mem_uc main_arg0 (by decide))).trans (W5_kept m ρ c main_arg0 (by decide) (by decide) (by decide) (W2_x m ρ c) (by decide)),
   (h _ (mem_uc main_arg1 (by decide))).trans (W5_kept m ρ c main_arg1 (by decide) (by decide) (by decide) (W2_of_ne m ρ c main_arg1 (by decide)) (by decide)),
   (h _ (mem_uc main_arg2 (by decide))).trans (W5_kept m ρ c main_arg2 (by decide) (by decide) (by decide) (W2_of_ne m ρ c main_arg2 (by decide)) (by decide)),
   (h _ (mem_uc main_arg3 (by decide))).trans (W5_kept m ρ c main_arg3 (by decide) (by decide) (by decide) (W2_of_ne m ρ c main_arg3 (by decide)) (by decide)),
   (h _ (mem_uc main_arg4 (by decide))).trans (W5_kept m ρ c main_arg4 (by decide) (by decide) (by decide) (W2_of_ne m ρ c main_arg4 (by decide)) (by decide)),
   (h _ (mem_uc main_arg5 (by decide))).trans (W5_kept m ρ c main_arg5 (by decide) (by decide) (by decide) (W2_of_ne m ρ c main_arg5 (by decide)) (by decide)),
   (h _ (mem_uc main_arg6 (by decide))).trans (W5_kept m ρ c main_arg6 (by decide) (by decide) (by decide) (W2_of_ne m ρ c main_arg6 (by decide)) (by decide)),
   (h _ (mem_uc main_arg7 (by decide))).trans (W5_kept m ρ c main_arg7 (by decide) (by decide) (by decide) (W2_of_ne m ρ c main_arg7 (by decide)) (by decide)),
   (h _ (mem_uc main_arg8 (by decide))).trans (W5_kept m ρ c main_arg8 (by decide) (by decide) (by decide) (W2_of_ne m ρ c main_arg8 (by decide)) (by decide))⟩

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m ρ c r.2.mem (h c)) (run_main m ρ)

/-- THE VALUE: the result buffer ends at the last boundary's contents, every argument as launched. -/
theorem run_value : θ_run defs (onTc (τ := τ) (main (F := F))) ⟨m, fun _ => 0, ρ⟩ (fun r => ∀ c : Dev nD,
      r.2.mem ((c.tc : Thread nD τ).loc main_v43) = W5 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v43 (by decide)), args_kept m ρ c r.2.mem (h c)⟩) (run_main m ρ)

end Cert.Kernel.Sage

end
-- ==== Proof.KernelIdeal.Linear.lean ====
/-
  The first pallas_call: one SAGEConv layer's dense half, a block of 5000 nodes at a time.
  At grid point `t` the body reads the block's neighbour sums `agg`, its in-degrees `cnt`, its own features `x`,
  the two weight matrices and the bias row, and stores into the output block
      relu( (agg / max(cnt, 1)) · W_l  +  x · W_r  +  b ).
  Nothing is kept between points: what the output's staging buffer holds after the body is one store covering it,
  over a payload that is a pure function of the six input blocks. This module names that function (`linOut`),
  proves the body's triple against it, and packs it as the pipeline's proof data at ANY contents `V` of the
  buffers when the region is entered.
-/
import proofs.«417693_j14645838480120_3_alg».proof.Proof.Gen.KernelIdeal.Launch
import proofs.«417693_j14645838480120_3_alg».proof.Proof.Gen.KernelIdeal.Skeleton
import proofs.«417693_j14645838480120_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at every point, whether the pipeline fetched it there
    or left it in place because its block index had not moved (the weights and the bias: fetched once). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

abbrev rAgg : Rect S5000x128 := Rect.unit (s := S5000x128) ![0, 0] S5000x128.size inb_S5000x128_S5000x128_0_0
abbrev rCnt : Rect S5000x1 := Rect.unit (s := S5000x1) ![0, 0] S5000x1.size inb_S5000x1_S5000x1_0_0
abbrev rW1 : Rect S128x256 := Rect.unit (s := S128x256) ![0, 0] S128x256.size inb_S128x256_S128x256_0_0
abbrev rB : Rect S1x256 := Rect.unit (s := S1x256) ![0, 0] S1x256.size inb_S1x256_S1x256_0_0
abbrev rOut : Rect S5000x256 := Rect.unit (s := S5000x256) ![0, 0] S5000x256.size inb_S5000x256_S5000x256_0_0

/-- The output block after the body, from the six input blocks (in window order: neighbour sums, in-degrees, own
    features, left weights, bias row, right weights): its one store, which covers the block. -/
def linOut (agg : Vec F S5000x128 .f32) (cnt : Vec F S5000x1 .f32) (x : Vec F S5000x128 .f32) (wl : Vec F S128x256 .bf16)
    (b : Vec F S1x256 .f32) (wr : Vec F S128x256 .bf16) : Vec F S5000x256 .f32 :=
  View.canon [⟨rOut, k0_pay1 (View.ld cnt rCnt) (View.ld agg rAgg) (View.ld wl rW1) (View.ld x rAgg) (View.ld wr rW1) (View.ld b rB)⟩]

/-- The one store tiles the block, so it covers it. -/
theorem linCover (p : Vec F S5000x256 .f32) (y : S5000x256.Idx) :
    ∃ pc ∈ ([⟨rOut, p⟩] : List (View.Piece (Elt F) S5000x256 .f32)), y ∈ pc.1.set :=
  View.cover_of_tiled [⟨rOut, p⟩] S5000x256.size (by rfl) y

/-! ## The body's triple -/

set_option maxHeartbeats 4000000 in
/-- The body on whole staging memrefs, the inputs' at contents `agg … wr` and the output's at anything, runs to the
    continuation with the inputs' as they were and the output's at `linOut` of them. -/
theorem sound_kernel0 (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S5000x128 .f32) (harg3 : arg3.IsWhole) (arg4 : Memref sig .tc .vmem S128x256 .bf16) (harg4 : arg4.IsWhole)
    (arg5 : Memref sig .tc .vmem S1x256 .f32) (harg5 : arg5.IsWhole) (arg6 : Memref sig .tc .vmem S128x256 .bf16) (harg6 : arg6.IsWhole)
    (arg7 : Memref sig .tc .vmem S5000x256 .f32) (harg7 : arg7.IsWhole)
    (agg : Vec F S5000x128 .f32) (cnt : Vec F S5000x1 .f32) (x : Vec F S5000x128 .f32) (wl : Vec F S128x256 .bf16)
    (b : Vec F S1x256 .f32) (wr : Vec F S128x256 .bf16) (K : PUnit → sProp 𝕄) :
    iprop(owns (c : Thread nD τ) arg1 fullShare agg ∗ owns (c : Thread nD τ) arg2 fullShare cnt ∗ owns (c : Thread nD τ) arg3 fullShare x
        ∗ owns (c : Thread nD τ) arg4 fullShare wl ∗ owns (c : Thread nD τ) arg5 fullShare b ∗ owns (c : Thread nD τ) arg6 fullShare wr
        ∗ (∃ d, owns (c : Thread nD τ) arg7 fullShare d)
        ∗ (iprop(owns (c : Thread nD τ) arg1 fullShare agg ∗ owns (c : Thread nD τ) arg2 fullShare cnt ∗ owns (c : Thread nD τ) arg3 fullShare x
            ∗ owns (c : Thread nD τ) arg4 fullShare wl ∗ owns (c : Thread nD τ) arg5 fullShare b ∗ owns (c : Thread nD τ) arg6 fullShare wr
            ∗ owns (c : Thread nD τ) arg7 fullShare (linOut agg cnt x wl b wr)) -∗ K ⟨⟩))
      ⊢ wp frame (wpE (defs₀ (F := F)) Variants.none c none) E
          (cc0__sage_linear_kernel i arg1 harg1 arg2 harg2 arg3 harg3 arg4 harg4 arg5 harg5 arg6 harg6 arg7 harg7) K := by
  simp only [cc0__sage_linear_kernel_eq_skeleton]; unfold cc0__sage_linear_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (linCover _)

/-! ## The pipeline's proof data -/

/-- The proof data of this pipeline on core `c`: the arrays as the region finds them; after the body at point `t`
    each input's buffer at its block and the output's at `linOut` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => linOut (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
/-- The output block after point `t`: the layer's formula on the point's input blocks. -/
theorem after0_6 (c : Dev nD) (t : Fin cfg0.N) : (dat0 V c).after 6 t
    = linOut (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Sage

end
-- ==== Proof.KernelIdeal.Pool.lean ====
/-
  The second pallas_call: the second SAGEConv layer's dense half fused with the global add pool, a block of 5000
  nodes at a time, on a 2 x 10 grid (point t has inner coordinate t % 10).
  The body keeps a 256 x 256 accumulator in a scratch buffer that lives across grid points:
    * where t % 10 = 0 it first stores zeros into the accumulator;
    * at every point it adds the point's contribution, a function of the seven input blocks, to the accumulator;
    * where t % 10 = 9 it also copies the accumulator into the output block, which the pipeline then writes back.
  At the other points the output's staging buffer is neither stored into nor written back.
  So what the accumulator and the output block hold after point t is a recursion over t (outsAt1), and the region's
  invariant carries the accumulator's contents from one point to the next. This module runs the body in its three
  control cases, states the recursion, and packs it as the pipeline's proof data at ANY contents V of the buffers
  when the region is entered.
-/
import proofs.«417693_j14645838480120_3_alg».proof.Proof.Gen.KernelIdeal.Launch
import proofs.«417693_j14645838480120_3_alg».proof.Proof.Gen.KernelIdeal.Skeleton
import proofs.«417693_j14645838480120_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window w's block at point t, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block at every point, whether the pipeline fetched it there
    or left it in place because its block index had not moved (the weights and the bias: fetched once). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- The first condition, tested inside the body's first part: the inner coordinate is 0. -/
abbrev cond1_0 (i : grid1.Coords) : Prop := (Scalar.cmpi .ne (Scalar.extui (Scalar.cmpi .eq (BitVec.ofNat 32 (i 1).val) 0#32)) 0#32) = 1#1
/-- It holds exactly at the points whose position is 0 modulo 10. -/
theorem hcond1_0 : ∀ t : Fin cfg1.N, cond1_0 (grid1.coords t) ↔ t.val % 10 = 0 :=
  (by decide +kernel : ∀ t : Fin grid1.N, cond1_0 (grid1.coords t) ↔ t.val % 10 = 0)

/-- The second condition: the inner coordinate is 9. -/
abbrev cond1_1 (i : grid1.Coords) : Prop := k1_cond2 i = 1#1
/-- It holds exactly at the points whose position is 9 modulo 10. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
/-- Where the inner coordinate is 0 the output is idle: nothing is stored into it, -/
theorem idleAt1_7_A : ∀ t : Fin cfg1.N, cond1_0 (grid1.coords t) → ¬cond1_1 (grid1.coords t) → cfg1.idle 7 (grid1.coords t) = true := by decide +kernel
/-- and its block is not written back. -/
theorem noFlush1_7_A : ∀ t : Fin cfg1.N, cond1_0 (grid1.coords t) → ¬cond1_1 (grid1.coords t) → (cfg1.win 7).flush t = false := by decide +kernel
/-- The same where the inner coordinate is strictly between 0 and 9. -/
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
/-- Where the inner coordinate is 9 the output is live: the body stores into it. -/
theorem liveAt1_7_C : ∀ t : Fin cfg1.N, ¬cond1_0 (grid1.coords t) → cond1_1 (grid1.coords t) → cfg1.idle 7 (grid1.coords t) = false := by decide +kernel

/-! ## The memrefs the body is called with -/

/-- Each window's current staging memref at point t, and its wholeness. -/
abbrev ms1_0 (t : Fin cfg1.N) : Memref sig .tc .vmem S5000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S5000x1 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256x256 .f32 := win1_7.stage (cfg1.slots t 7)
abbrev hs1_7 (t : Fin cfg1.N) : (ms1_7 t).IsWhole := hstage1_7 ((cfg1.slots t 7).cast nbuf1_7)
/-- The accumulator: a whole scoped buffer of the kernel's own, passed beside the windows. -/
abbrev scM1 : Memref sig .tc .vmem S256x256 .f32 := Memref.whole cc1_scratch0
/-- The accumulator as a view: what it holds is stated through it. -/
abbrev VS1 : View sig .tc .vmem S256x256 .f32 := scM1.view
/-- One staging buffer of the output window, through which its contents are stated (which one does not matter:
    a covering list of writes reads back the same through any view). -/
abbrev VO1_7 : View sig .tc .vmem S1x256x256 .f32 := (Memref.whole cc1_stg7_0 : Memref sig .tc .vmem S1x256x256 .f32).view

/-! ## The region's scoped rest

Besides the accumulator, the core's scoped buffers that this pipeline does not stage are the eleven staging buffers
of the first pallas_call. The body never touches them: they ride along at some contents. -/

/-- The eleven staging buffers of the other call, each whole at some contents, beside a resource S for the accumulator. -/
def carried (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ S)

/-- The class's region invariant, with the accumulator as a memref owned at some contents. -/
theorem PhiA1_eq (c : Dev nD) :
    (Pipeline.ΦA spec1 c : sProp 𝕄)
      = iprop(carried c iprop(∃ d, owns (c : Thread nD τ) scM1 fullShare d) ∗ (∃ r, prngReg c r)) := by
  unfold Pipeline.ΦA carried; rw [scopedRest1_eq]; simp only [scM1, owns_whole]; try rfl

/-- The frame rule for the carried buffers: take the accumulator's resource out, and put any other back in. -/
theorem carried_frame (c : Dev nD) (S S' : sProp 𝕄) : carried c S ⊢ iprop(S ∗ (S' -∗ carried c S')) := by
  unfold carried
  iintro ⟨H0, H1, H2, H3, H4, H5, H6, H7, H8, H9, H10, HS⟩
  isplitl [HS]; · iexact HS
  iintro HS'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HS'

/-! ## The body's triple, case by case

The body on whole memrefs: the seven inputs' at their blocks x0 .. x6, the output's and the accumulator's as the case
needs them. Each case's run also FINDS the pieces (rectangle and payload, last store first) that the body's stores leave
in the output's memref (L7) and in the accumulator (LS): they are the witness the run produces. -/

section Runs

variable (c : Dev nD) (i : grid1.Coords)
  (arg2 : Memref sig .tc .vmem S5000x256 .f32) (harg2 : arg2.IsWhole) (arg3 : Memref sig .tc .vmem S5000x1 .f32) (harg3 : arg3.IsWhole)
  (arg4 : Memref sig .tc .vmem S5000x256 .f32) (harg4 : arg4.IsWhole) (arg5 : Memref sig .tc .vmem S256x256 .bf16) (harg5 : arg5.IsWhole)
  (arg6 : Memref sig .tc .vmem S1x256 .f32) (harg6 : arg6.IsWhole) (arg7 : Memref sig .tc .vmem S256x256 .bf16) (harg7 : arg7.IsWhole)
  (arg8 : Memref sig .tc .vmem S5000x1 .i32) (harg8 : arg8.IsWhole) (arg9 : Memref sig .tc .vmem S1x256x256 .f32) (harg9 : arg9.IsWhole)
  (arg10 : Memref sig .tc .vmem S256x256 .f32) (harg10 : arg10.IsWhole)
  (x0 : Vec F S5000x256 .f32) (x1 : Vec F S5000x1 .f32) (x2 : Vec F S5000x256 .f32) (x3 : Vec F S256x256 .bf16)
  (x4 : Vec F S1x256 .f32) (x5 : Vec F S256x256 .bf16) (x6 : Vec F S5000x1 .i32)

set_option maxHeartbeats 4000000 in
/-- CASE A (inner coordinate 0: the accumulator is reset, the output is not stored). The accumulator may hold anything
    on entry; the output's memref, idle here, is handed back at the contents xi7 it came with. -/
noncomputable def kernelRun1_A (hc0 : cond1_0 i) (hc1 : ¬cond1_1 i) :
    Σ' (L7 : List (View.Piece (Elt F) S1x256x256 .f32)), { LS : List (View.Piece (Elt F) S256x256 .f32) //
      ∀ (xi7 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ owns (c : Thread nD τ) arg8 fullShare x6 ∗ owns (c : Thread nD τ) arg9 fullShare xi7
                ∗ (∃ f, arg10.view.loc (c : Thread nD τ) ↦[arg10.view.set]{fullShare} arg10.view.writes (Elt F) f LS)) -∗ K ⟨⟩))
          ⊢ wp frame (wpE (defs₀ (F := F)) Variants.none c none) E
              (cc1__sage_pool_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__sage_pool_kernel_eq_skeleton]; unfold cc1__sage_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

set_option maxHeartbeats 4000000 in
/-- CASE B (inner coordinate strictly between 0 and 9: accumulate only). The accumulator holds xs on entry, what the point
    before left; the output's memref, idle here, is handed back at the contents xi7 it came with. -/
noncomputable def kernelRun1_B (hc0 : ¬cond1_0 i) (hc1 : ¬cond1_1 i) (xs : Vec F S256x256 .f32) :
    Σ' (L7 : List (View.Piece (Elt F) S1x256x256 .f32)), { LS : List (View.Piece (Elt F) S256x256 .f32) //
      ∀ (xi7 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ owns (c : Thread nD τ) arg8 fullShare x6 ∗ owns (c : Thread nD τ) arg9 fullShare xi7
                ∗ (∃ f, arg10.view.loc (c : Thread nD τ) ↦[arg10.view.set]{fullShare} arg10.view.writes (Elt F) f LS)) -∗ K ⟨⟩))
          ⊢ wp frame (wpE (defs₀ (F := F)) Variants.none c none) E
              (cc1__sage_pool_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__sage_pool_kernel_eq_skeleton]; unfold cc1__sage_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

set_option maxHeartbeats 4000000 in
/-- CASE C (inner coordinate 9: accumulate, then copy the accumulator into the output). The accumulator holds xs on
    entry; the output's memref may hold anything, and ends with the pieces L7 written. -/
noncomputable def kernelRun1_C (hc0 : ¬cond1_0 i) (hc1 : cond1_1 i) (xs : Vec F S256x256 .f32) :
    Σ' (L7 : List (View.Piece (Elt F) S1x256x256 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS)) -∗ K ⟨⟩))
          ⊢ wp frame (wpE (defs₀ (F := F)) Variants.none c none) E
              (cc1__sage_pool_kernel i arg2 harg2 arg3 harg3 arg4 harg4 arg5 harg5 arg6 harg6 arg7 harg7 arg8 harg8 arg9 harg9 arg10 harg10) K } := by
  refine ⟨?_, ?_, fun E K => ?run⟩
  case run =>
    simp only [cc1__sage_pool_kernel_eq_skeleton]; unfold cc1__sage_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Runs

/-! ## The runs at a grid point

Each case's run at point t: on the point's staging memrefs and the accumulator, the inputs at their blocks, the case
selected by the closed forms of the two conditions. -/

/-- Case A's run at a point whose position is 0 modulo 10. -/
def runA (c : Dev nD) (t : Fin cfg1.N) (h0 : t.val % 10 = 0) (h1 : ¬t.val % 10 = 9) :=
  kernelRun1_A (F := F) c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) scM1 (Memref.isWhole_whole _)
    (iblk1 V c 0 t) (iblk1 V c 1 t) (iblk1 V c 2 t) (iblk1 V c 3 t) (iblk1 V c 4 t) (iblk1 V c 5 t) (iblk1 V c 6 t)
    ((hcond1_0 t).mpr h0) (fun h => h1 ((hcond1_1 t).mp h))

/-- Case B's run at a point whose position is neither 0 nor 9 modulo 10, the accumulator entering at xs. -/
def runB (c : Dev nD) (t : Fin cfg1.N) (h0 : ¬t.val % 10 = 0) (h1 : ¬t.val % 10 = 9) (xs : Vec F S256x256 .f32) :=
  kernelRun1_B (F := F) c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) scM1 (Memref.isWhole_whole _)
    (iblk1 V c 0 t) (iblk1 V c 1 t) (iblk1 V c 2 t) (iblk1 V c 3 t) (iblk1 V c 4 t) (iblk1 V c 5 t) (iblk1 V c 6 t)
    (fun h => h0 ((hcond1_0 t).mp h)) (fun h => h1 ((hcond1_1 t).mp h)) xs

/-- Case C's run at a point whose position is 9 modulo 10, the accumulator entering at xs. -/
def runC (c : Dev nD) (t : Fin cfg1.N) (h0 : ¬t.val % 10 = 0) (h1 : t.val % 10 = 9) (xs : Vec F S256x256 .f32) :=
  kernelRun1_C (F := F) c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) scM1 (Memref.isWhole_whole _)
    (iblk1 V c 0 t) (iblk1 V c 1 t) (iblk1 V c 2 t) (iblk1 V c 3 t) (iblk1 V c 4 t) (iblk1 V c 5 t) (iblk1 V c 6 t)
    (fun h => h0 ((hcond1_0 t).mp h)) ((hcond1_1 t).mpr h1) xs

/-! ## What each case leaves -/

/-- Case A stores nothing into the output: no pieces. A placeholder that nothing consults, since at these points
    the window is neither written back nor read at the next point. -/
def out1_A_7 (c : Dev nD) (t : Fin cfg1.N) (h0 : t.val % 10 = 0) (h1 : ¬t.val % 10 = 9) : Vec F S1x256x256 .f32 :=
  VO1_7.read (Elt F) (VO1_7.writes (Elt F) VO1_7.junk (runA V c t h0 h1).1)

/-- Case A's pieces for the accumulator (the zero fill, then the sum) cover it. -/
theorem scover1_A (c : Dev nD) (t : Fin cfg1.N) (h0 : t.val % 10 = 0) (h1 : ¬t.val % 10 = 9) (y : S256x256.Idx) :
    ∃ pc ∈ (runA V c t h0 h1).2.1, y ∈ pc.1.set :=
  View.cover_of_tiledL (runA V c t h0 h1).2.1 S256x256.size (by sl_kernel_rfl) y

/-- What case A leaves in the accumulator: its pieces read back. -/
def sout1_A (c : Dev nD) (t : Fin cfg1.N) (h0 : t.val % 10 = 0) (h1 : ¬t.val % 10 = 9) : Vec F S256x256 .f32 :=
  VS1.read (Elt F) (VS1.writes (Elt F) VS1.junk (runA V c t h0 h1).2.1)

/-- Case B stores nothing into the output either. -/
def out1_B_7 (c : Dev nD) (t : Fin cfg1.N) (h0 : ¬t.val % 10 = 0) (h1 : ¬t.val % 10 = 9) (xs : Vec F S256x256 .f32) : Vec F S1x256x256 .f32 :=
  VO1_7.read (Elt F) (VO1_7.writes (Elt F) VO1_7.junk (runB V c t h0 h1 xs).1)

/-- Case B's one piece for the accumulator (the sum) covers it. -/
theorem scover1_B (c : Dev nD) (t : Fin cfg1.N) (h0 : ¬t.val % 10 = 0) (h1 : ¬t.val % 10 = 9) (xs : Vec F S256x256 .f32) (y : S256x256.Idx) :
    ∃ pc ∈ (runB V c t h0 h1 xs).2.1, y ∈ pc.1.set :=
  View.cover_of_tiledL (runB V c t h0 h1 xs).2.1 S256x256.size (by sl_kernel_rfl) y

/-- What case B leaves in the accumulator. -/
def sout1_B (c : Dev nD) (t : Fin cfg1.N) (h0 : ¬t.val % 10 = 0) (h1 : ¬t.val % 10 = 9) (xs : Vec F S256x256 .f32) : Vec F S256x256 .f32 :=
  VS1.read (Elt F) (VS1.writes (Elt F) VS1.junk (runB V c t h0 h1 xs).2.1)

/-- Case C's one store into the output covers its block. -/
theorem cover1_C_7 (c : Dev nD) (t : Fin cfg1.N) (h0 : ¬t.val % 10 = 0) (h1 : t.val % 10 = 9) (xs : Vec F S256x256 .f32) (y : S1x256x256.Idx) :
    ∃ pc ∈ (runC V c t h0 h1 xs).1, y ∈ pc.1.set :=
  View.cover_of_tiledL (runC V c t h0 h1 xs).1 S1x256x256.size (by sl_kernel_rfl) y

/-- What case C leaves in the output's staging buffer. -/
def out1_C_7 (c : Dev nD) (t : Fin cfg1.N) (h0 : ¬t.val % 10 = 0) (h1 : t.val % 10 = 9) (xs : Vec F S256x256 .f32) : Vec F S1x256x256 .f32 :=
  VO1_7.read (Elt F) (VO1_7.writes (Elt F) VO1_7.junk (runC V c t h0 h1 xs).1)

/-- Case C's one piece for the accumulator covers it. -/
theorem scover1_C (c : Dev nD) (t : Fin cfg1.N) (h0 : ¬t.val % 10 = 0) (h1 : t.val % 10 = 9) (xs : Vec F S256x256 .f32) (y : S256x256.Idx) :
    ∃ pc ∈ (runC V c t h0 h1 xs).2.1, y ∈ pc.1.set :=
  View.cover_of_tiledL (runC V c t h0 h1 xs).2.1 S256x256.size (by sl_kernel_rfl) y

/-- What case C leaves in the accumulator. -/
def sout1_C (c : Dev nD) (t : Fin cfg1.N) (h0 : ¬t.val % 10 = 0) (h1 : t.val % 10 = 9) (xs : Vec F S256x256 .f32) : Vec F S256x256 .f32 :=
  VS1.read (Elt F) (VS1.writes (Elt F) VS1.junk (runC V c t h0 h1 xs).2.1)

/-! ## What the output block and the accumulator hold after each point -/

/-- THE ACCUMULATION. The output's staging buffer and the accumulator after the body at position n: the case the
    closed forms select at n, the accumulator entering at what this recursion leaves at n - 1 (nothing touches it between
    two points). Positions 0 and 10 start afresh. No position is 0 and 9 modulo 10 at once. -/
def outsAt1 (c : Dev nD) : (n : ℕ) → n < cfg1.N → Vec F S1x256x256 .f32 × Vec F S256x256 .f32
  | 0, hn => (out1_A_7 V c ⟨0, hn⟩ (Nat.zero_mod _) (by decide : ¬(0 % 10 = 9)), sout1_A V c ⟨0, hn⟩ (Nat.zero_mod _) (by decide : ¬(0 % 10 = 9)))
  | n + 1, hn =>
    if h0 : (n + 1) % 10 = 0 then
      if h1 : (n + 1) % 10 = 9 then
        False.elim (by omega)
      else
        (out1_A_7 V c ⟨n + 1, hn⟩ h0 h1, sout1_A V c ⟨n + 1, hn⟩ h0 h1)
    else
      if h1 : (n + 1) % 10 = 9 then
        (out1_C_7 V c ⟨n + 1, hn⟩ h0 h1 (outsAt1 c n (Nat.lt_of_succ_lt hn)).2, sout1_C V c ⟨n + 1, hn⟩ h0 h1 (outsAt1 c n (Nat.lt_of_succ_lt hn)).2)
      else
        (out1_B_7 V c ⟨n + 1, hn⟩ h0 h1 (outsAt1 c n (Nat.lt_of_succ_lt hn)).2, sout1_B V c ⟨n + 1, hn⟩ h0 h1 (outsAt1 c n (Nat.lt_of_succ_lt hn)).2)

/-- At a point of case A: that case's contents. -/
theorem outsAt1_A (c : Dev nD) (t : Fin cfg1.N) (h0 : t.val % 10 = 0) (h1 : ¬t.val % 10 = 9) :
    outsAt1 V c t.val t.isLt = (out1_A_7 V c t h0 h1, sout1_A V c t h0 h1) := by
  obtain ⟨n, hn⟩ := t
  cases n with
  | zero => exact rfl
  | succ n => exact (dif_pos h0).trans ((dif_neg h1).trans rfl)

/-- At a point of case B: that case's contents, over what the point before left in the accumulator. -/
theorem outsAt1_B (c : Dev nD) (t : Fin cfg1.N) (h0 : ¬t.val % 10 = 0) (h1 : ¬t.val % 10 = 9) :
    outsAt1 V c t.val t.isLt
      = (out1_B_7 V c t h0 h1 (outsAt1 V c (t.val - 1) (Nat.lt_of_le_of_lt (Nat.sub_le _ _) t.isLt)).2,
         sout1_B V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point of case C: that case's contents, over what the point before left in the accumulator. -/
theorem outsAt1_C (c : Dev nD) (t : Fin cfg1.N) (h0 : ¬t.val % 10 = 0) (h1 : t.val % 10 = 9) :
    outsAt1 V c t.val t.isLt
      = (out1_C_7 V c t h0 h1 (outsAt1 V c (t.val - 1) (Nat.lt_of_le_of_lt (Nat.sub_le _ _) t.isLt)).2,
         sout1_C V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before position n: at the first point what the launch hands the region (the accumulator at anything); afterwards the
    scoped rest with the accumulator at what the point before left in it, and the generator register at some state. -/
def PhiS1 (c : Dev nD) : (n : ℕ) → n ≤ cfg1.N → sProp 𝕄
  | 0, _ => Pipeline.ΦA spec1 c
  | n + 1, hn => iprop(carried c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point n: the accumulator at that point's contents. -/
theorem PhiS1_succ (c : Dev nD) (n : ℕ) (hn : n < cfg1.N) :
    PhiS1 V c (n + 1) hn = iprop(carried c (owns (c : Thread nD τ) scM1 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(carried c (owns (c : Thread nD τ) scM1 fullShare ((outsAt1 V c (n - 1) (by omega)).2)) ∗ (∃ r, prngReg c r)) := by
  cases n with
  | zero => exact absurd rfl hz
  | succ n => rfl

/-! ## The pipeline's proof data -/

/-- The proof data of this pipeline on core c: the arrays as the region finds them; after the body at point t each
    input's buffer at its block and the output's at the recursion's first component; the invariant above; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
/-- The output block after point t: the recursion's first component. -/
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- An input's buffer is handed back at its block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) : (dat1 V c).leavesExact 5 t = owns (c : Thread nD τ) (ms1_5 t) fullShare (iblk1 V c 5 t) := by
  unfold Dat.leavesExact; rw [liveAt1_5 t, after1_5]
theorem leaves1_6 (c : Dev nD) (t : Fin cfg1.N) : (dat1 V c).leavesExact 6 t = owns (c : Thread nD τ) (ms1_6 t) fullShare (iblk1 V c 6 t) := by
  unfold Dat.leavesExact; rw [liveAt1_6 t, after1_6]

/-- The accumulator after a covering list of writes reads as the case's contents, whatever it held before. -/
theorem sout1_A_eq (c : Dev nD) (t : Fin cfg1.N) (h0 : t.val % 10 = 0) (h1 : ¬t.val % 10 = 9) (f) :
    scM1.view.read (Elt F) (scM1.view.writes (Elt F) f (runA V c t h0 h1).2.1) = sout1_A V c t h0 h1 := by
  unfold sout1_A; exact View.read_writes_of_cover _ _ _ _ _ (scover1_A V c t h0 h1)
theorem sout1_B_eq (c : Dev nD) (t : Fin cfg1.N) (h0 : ¬t.val % 10 = 0) (h1 : ¬t.val % 10 = 9) (xs : Vec F S256x256 .f32) (f) :
    scM1.view.read (Elt F) (scM1.view.writes (Elt F) f (runB V c t h0 h1 xs).2.1) = sout1_B V c t h0 h1 xs := by
  unfold sout1_B; exact View.read_writes_of_cover _ _ _ _ _ (scover1_B V c t h0 h1 xs)
theorem sout1_C_eq (c : Dev nD) (t : Fin cfg1.N) (h0 : ¬t.val % 10 = 0) (h1 : t.val % 10 = 9) (xs : Vec F S256x256 .f32) (f) :
    scM1.view.read (Elt F) (scM1.view.writes (Elt F) f (runC V c t h0 h1 xs).2.1) = sout1_C V c t h0 h1 xs := by
  unfold sout1_C; exact View.read_writes_of_cover _ _ _ _ _ (scover1_C V c t h0 h1 xs)
/-- The same for the output's staging buffer in case C. -/
theorem out1_C_7_eq (c : Dev nD) (t : Fin cfg1.N) (h0 : ¬t.val % 10 = 0) (h1 : t.val % 10 = 9) (xs : Vec F S256x256 .f32) (f) :
    (ms1_7 t).view.read (Elt F) ((ms1_7 t).view.writes (Elt F) f (runC V c t h0 h1 xs).1) = out1_C_7 V c t h0 h1 xs := by
  unfold out1_C_7; exact View.read_writes_of_cover _ _ _ _ _ (cover1_C_7 V c t h0 h1 xs)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' memrefs hold their blocks; the closed forms say which case the point is in;
    the invariant hands the body the accumulator at what the point before left (at anything at the first point) and takes
    it back at this point's contents, the carried buffers passing around the run; where the output is idle its buffer
    goes back as it came; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6]
  have hN : t.val < 20 := lt_of_lt_of_eq t.isLt (show cfg1.N = 20 from N_1)
  by_cases h0 : t.val % 10 = 0
  · by_cases h1 : t.val % 10 = 9
    · exfalso; omega
    · rw [Dat.leavesExact_idle (dat1 V c) 7 t (idleAt1_7_A t ((hcond1_0 t).mpr h0) (fun h => h1 ((hcond1_1 t).mp h)))
        (noFlush1_7_A t ((hcond1_0 t).mpr h0) (fun h => h1 ((hcond1_1 t).mp h)))]
      rw [outsAt1_A V c t h0 h1]
      dsimp only
      by_cases hz : t.val = 0
      · rw [PhiS1_castSucc V c t, PhiS1_zero V c _ _ hz, PhiA1_eq]
        iintro ⟨⟨HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        ihave HC' := (carried_frame c _ (owns (c : Thread nD τ) scM1 fullShare (sout1_A V c t h0 h1))) $$ HC
        icases HC' with ⟨HS, Hback⟩
        iapply ((runA V c t h0 h1).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HS Hback Hg]
        · isplitl [HS Hback]
          · iapply Hback
            unfold owns; iexists _; isplitr
            swap; · iexact HS
            ipureintro; exact sout1_A_eq V c t h0 h1 _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS1_castSucc V c t, PhiS1_pos V c _ _ hz]
        iintro ⟨⟨HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        ihave HC' := (carried_frame c _ (owns (c : Thread nD τ) scM1 fullShare (sout1_A V c t h0 h1))) $$ HC
        icases HC' with ⟨HS, Hback⟩
        iapply ((runA V c t h0 h1).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, ⟨%es, HS⟩⟩
        isplitl [HS Hback Hg]
        · isplitl [HS Hback]
          · iapply Hback
            unfold owns; iexists _; isplitr
            swap; · iexact HS
            ipureintro; exact sout1_A_eq V c t h0 h1 _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun hz => h0 (by rw [hz])
    by_cases h1 : t.val % 10 = 9
    · rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      dsimp only
      rw [PhiS1_castSucc V c t, PhiS1_pos V c _ _ hz]
      iintro ⟨⟨HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HC' := (carried_frame c _ (owns (c : Thread nD τ) scM1 fullShare
        (sout1_C V c t h0 h1 (outsAt1 V c (t.val - 1) (Nat.lt_of_le_of_lt (Nat.sub_le _ _) t.isLt)).2))) $$ HC
      icases HC' with ⟨HS, Hback⟩
      iapply ((runC V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hback Hg]
      · isplitl [HS Hback]
        · iapply Hback
          unfold owns; iexists _; isplitr
          swap; · iexact HS
          ipureintro; exact sout1_C_eq V c t h0 h1 _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact out1_C_7_eq V c t h0 h1 _ _
    · rw [Dat.leavesExact_idle (dat1 V c) 7 t (idleAt1_7_B t (fun h => h0 ((hcond1_0 t).mp h)) (fun h => h1 ((hcond1_1 t).mp h)))
        (noFlush1_7_B t (fun h => h0 ((hcond1_0 t).mp h)) (fun h => h1 ((hcond1_1 t).mp h)))]
      rw [outsAt1_B V c t h0 h1]
      dsimp only
      rw [PhiS1_castSucc V c t, PhiS1_pos V c _ _ hz]
      iintro ⟨⟨HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HC' := (carried_frame c _ (owns (c : Thread nD τ) scM1 fullShare
        (sout1_B V c t h0 h1 (outsAt1 V c (t.val - 1) (Nat.lt_of_le_of_lt (Nat.sub_le _ _) t.isLt)).2))) $$ HC
      icases HC' with ⟨HS, Hback⟩
      iapply ((runB V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hback Hg]
      · isplitl [HS Hback]
        · iapply Hback
          unfold owns; iexists _; isplitr
          swap; · iexact HS
          ipureintro; exact sout1_B_eq V c t h0 h1 _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HC, Hg⟩
  isplitl [HC]
  · ihave HC' := (carried_frame c _ iprop(∃ d, owns (c : Thread nD τ) scM1 fullShare d)) $$ HC
    icases HC' with ⟨HS, Hback⟩
    iapply Hback
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.KernelIdeal.Sage

end
-- ==== Proof.KernelIdeal.Run.lean ====
/-
  @main from the launch to the return: three stretches of host operations around the two pallas_calls.
  The buffers' contents at each boundary are a fold from the launch memory: a host stretch applies its operations;
  a pallas_call leaves its windows' arrays at what the pipeline's write-backs make of them and every other buffer
  as it was. Over that fold each pallas_call is a segment entered with every unscoped buffer held at the boundary's
  contents and left with them held at the next boundary's, and the launch theorem for a list of segments gives: every
  weakly fair execution terminates, nothing faults, and at the end every unscoped buffer holds the last boundary's
  contents. Read at the nine arguments this is the frame (no stretch writes an argument, no pallas_call has one as an
  output); read at the result buffer it is the value the program computes.
-/
import proofs.«417693_j14645838480120_3_alg».proof.Proof.KernelIdeal.Linear
import proofs.«417693_j14645838480120_3_alg».proof.Proof.KernelIdeal.Pool
import proofs.«417693_j14645838480120_3_alg».proof.Proof.Gen.KernelIdeal.Regions

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: the first pallas_call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the second pallas_call's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second pallas_call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the return. -/
abbrev W5 : Dev nD → Valuation τ sig (Elt F) := fun c => StableHlo.after hostOps2 (W4 m ρ c)

/-- A buffer that no host stretch writes, that is no array of the second pallas_call, and that the first pallas_call
    leaves as it found it, holds at the return what it held at launch. -/
theorem W5_kept (c : Dev nD) (r : Ref sig .tc) (h2 : r ∉ hostOps2_W) (h4 : ∀ w, Pipeline.arrRef spec1 w ≠ r)
    (h1 : r ∉ hostOps1_W) (hreg : W2 m ρ c (Proc.devRef .tc r) = W1 m ρ c (Proc.devRef .tc r)) (h0 : r ∉ hostOps0_W) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r h4
    _ = W2 m ρ c (Proc.devRef .tc r) := StableHlo.after_of_writes_sub hostOps1 _ hostOps1_writes h1
    _ = W1 m ρ c (Proc.devRef .tc r) := hreg
    _ = W0 m ρ c (Proc.devRef .tc r) := StableHlo.after_of_writes_sub hostOps0 _ hostOps0_writes h0
    _ = m ((c : Thread nD τ).loc r) := rfl

/-- The node features are an INPUT array of the first pallas_call (its third window): the pipeline leaves an input
    array as it found it. -/
theorem W2_x (c : Dev nD) : W2 m ρ c (Proc.devRef .tc main_arg0) = W1 m ρ c (Proc.devRef .tc main_arg0) :=
  (W2_arr m ρ c 2).trans (((dat0 (V1 m ρ) c).arrAt_in 2 rfl _).trans (A_eq0 (V1 m ρ) c 2))

/-! ## The proof data family and the thread state -/

abbrev adm : (p : Fin 2) → (pcfgs (F := F) p).Adm := fun p => (cfgs p).toPCfg_adm
/-- Each pipeline's proof data at its pallas_call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The pallas_calls as segments -/

set_option backward.isDefEq.respectTransparency.types false in
/-- The first pallas_call: entered with every unscoped buffer at `W1`, left with them at `W2`. Its arrays are split out
    of the unscoped buffers and put back at the exit contents; the generator register goes into the invariant and comes
    out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered with every unscoped buffer at `W3`, left with them at `W4`. Its invariant starts
    as the scoped rest and the generator register (the accumulator scratch at anything) and ends giving them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    at the end every unscoped buffer of every core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- Where every unscoped buffer holds the last boundary's contents, each of the nine arguments holds what it held at
    launch: no host line writes an argument, the second pallas_call has none among its arrays, and the first has only
    the node features, as an input. -/
theorem args_kept (c : Dev nD) (mem : (ℓ : Loc nD τ sig) → Buf (Elt F) ℓ)
    (h : ∀ b ∈ Pipeline.ucRefs τ sig, mem (((c : Thread nD τ)).1, b) = W5 m ρ c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8) :=
  ⟨(h _ (mem_uc main_arg0 (by decide))).trans (W5_kept m ρ c main_arg0 (by decide) (by decide) (by decide) (W2_x m ρ c) (by decide)),
   (h _ (mem_uc main_arg1 (by decide))).trans (W5_kept m ρ c main_arg1 (by decide) (by decide) (by decide) (W2_of_ne m ρ c main_arg1 (by decide)) (by decide)),
   (h _ (mem_uc main_arg2 (by decide))).trans (W5_kept m ρ c main_arg2 (by decide) (by decide) (by decide) (W2_of_ne m ρ c main_arg2 (by decide)) (by decide)),
   (h _ (mem_uc main_arg3 (by decide))).trans (W5_kept m ρ c main_arg3 (by decide) (by decide) (by decide) (W2_of_ne m ρ c main_arg3 (by decide)) (by decide)),
   (h _ (mem_uc main_arg4 (by decide))).trans (W5_kept m ρ c main_arg4 (by decide) (by decide) (by decide) (W2_of_ne m ρ c main_arg4 (by decide)) (by decide)),
   (h _ (mem_uc main_arg5 (by decide))).trans (W5_kept m ρ c main_arg5 (by decide) (by decide) (by decide) (W2_of_ne m ρ c main_arg5 (by decide)) (by decide)),
   (h _ (mem_uc main_arg6 (by decide))).trans (W5_kept m ρ c main_arg6 (by decide) (by decide) (by decide) (W2_of_ne m ρ c main_arg6 (by decide)) (by decide)),
   (h _ (mem_uc main_arg7 (by decide))).trans (W5_kept m ρ c main_arg7 (by decide) (by decide) (by decide) (W2_of_ne m ρ c main_arg7 (by decide)) (by decide)),
   (h _ (mem_uc main_arg8 (by decide))).trans (W5_kept m ρ c main_arg8 (by decide) (by decide) (by decide) (W2_of_ne m ρ c main_arg8 (by decide)) (by decide))⟩

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m ρ c r.2.mem (h c)) (run_main m ρ)

/-- THE VALUE: the result buffer ends at the last boundary's contents, every argument as launched. -/
theorem run_value : θ_run defs (onTc (τ := τ) (main (F := F))) ⟨m, fun _ => 0, ρ⟩ (fun r => ∀ c : Dev nD,
      r.2.mem ((c.tc : Thread nD τ).loc main_v43) = W5 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v43 (by decide)), args_kept m ρ c r.2.mem (h c)⟩) (run_main m ρ)

end Cert.KernelIdeal.Sage

end
-- ==== Proof.RefImports.lean ====
/- The reference program's run and its read-at-an-index lemmas, brought in for the modules that state what the
   reference computes. -/
import proofs.«417693_j14645838480120_3_alg».proof.Proof.Gen.ReferenceIdeal.Run
import proofs.«417693_j14645838480120_3_alg».proof.Proof.Gen.ReferenceIdeal.Read
-- ==== Proof.LibScatterAdd.lean ====
/-
  The host's accumulating float scatter (`Host.scatterAdd`, at the ideal instance `Ideal.hostScatterAdd`) read at
  an index, at generic extents, for the two layouts a segment sum prints:
  `scatterAdd_rows` — an [N, D] matrix of updates scattered by rows onto a [C, D] operand, row `r` going to the row
  that entry `(r, 0)` of an [N, 1] column of 32-bit indices names (update window axis 1, inserted window axis 0,
  scatter axis 0, index vector axis 1): entry `(c, e)` of the result is the operand's plus the sum over the rows `r`
  whose index, read signed, is `c` of the update entry `(r, e)`;
  `scatterAdd_vec` — an [N] vector of updates scattered onto a [C] operand the same way.
  An index that, read signed, falls outside the operand's rows drops its update.
-/
import Idealize.ShloMosaic.PureOps.Ideal
import Idealize.ShloMosaic.Lib.ValueIdx
import Idealize.ShloMosaic.Lib.ValueIdxRank1

noncomputable section

namespace Cert.ScatterAdd

open Idealize.ShloMosaic Idealize.ShloMosaic.ValueIdx

/-! ## Rows of a matrix -/

section Rows
variable {C D N : ℕ}
  (wf : ScatterDims.WF (⟨2, ![C, D]⟩ : Shape) (⟨2, ![N, 1]⟩ : Shape) (⟨2, ![N, D]⟩ : Shape) [1] [0] [0] 1)

/-- The row scatter's dimension numbers: the updates' axis 1 is the window, the operand's axis 0 is inserted and is
    the one the index names. -/
abbrev rowsDims : ScatterDims (⟨2, ![C, D]⟩ : Shape) (⟨2, ![N, 1]⟩ : Shape) (⟨2, ![N, D]⟩ : Shape) :=
  ⟨[1], [0], [0], 1, wf⟩

/-- On the row axis the window starts at the row the index column names, read signed. -/
theorem rows_start0 (j : (⟨2, ![N, D]⟩ : Shape).Idx) (idx : IVec (⟨2, ![N, 1]⟩ : Shape) 32) :
    (rowsDims wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- On the column axis the window starts at 0. -/
theorem rows_start1 (j : (⟨2, ![N, D]⟩ : Shape).Idx) (idx : IVec (⟨2, ![N, 1]⟩ : Shape) 32) :
    (rowsDims wf).start j idx 1 = 0 := by
  unfold ScatterDims.start
  exact dif_neg (show (1 : Fin 2) ∉ ([0] : List (Fin 2)) by decide)

/-- The row axis is inserted: no window coordinate. -/
theorem rows_window0 (j : (⟨2, ![N, D]⟩ : Shape).Idx) : (rowsDims wf).window j 0 = 0 := by
  unfold ScatterDims.window
  exact dif_neg (show (0 : Fin 2) ∉ (List.finRange 2).filter (· ∉ ([0] : List (Fin 2))) by decide)

/-- The column axis carries the update's column. -/
theorem rows_window1 (j : (⟨2, ![N, D]⟩ : Shape).Idx) : (rowsDims wf).window j 1 = (j 1).val := by
  unfold ScatterDims.window
  exact (dif_pos (show (1 : Fin 2) ∈ (List.finRange 2).filter (· ∉ ([0] : List (Fin 2))) by decide)).trans rfl

/-- An update lands on entry `(c, e)` exactly when its row's index, read signed, is `c` and its column is `e`:
    the range conditions then hold because `c` is a row and `e` a column of the operand. -/
theorem rows_resultIdx_iff (j : (⟨2, ![N, D]⟩ : Shape).Idx) (idx : IVec (⟨2, ![N, 1]⟩ : Shape) 32)
    (c : Fin C) (e : Fin D) :
    (rowsDims wf).resultIdx? j idx = some (ix2 c e)
      ↔ (idx (ix2 (j 0) (0 : Fin 1))).toInt = (c.val : ℤ) ∧ (j 1).val = e.val := by
  have hs0 := rows_start0 wf j idx
  have hs1 := rows_start1 wf j idx
  have hw0 := rows_window0 wf j
  have hw1 := rows_window1 wf j
  have hj1 : (j 1).val < D := idx2_lt1 j
  have hc : c.val < C := c.isLt
  have he : e.val < D := e.isLt
  unfold ScatterDims.resultIdx?
  split
  · rename_i h
    rw [Option.some.injEq]
    constructor
    · intro hf
      have h0 : ((rowsDims wf).start j idx 0 + ((rowsDims wf).window j 0 : ℕ)).toNat = c.val :=
        congrArg Fin.val (congrFun hf 0)
      have h1 : ((rowsDims wf).start j idx 1 + ((rowsDims wf).window j 1 : ℕ)).toNat = e.val :=
        congrArg Fin.val (congrFun hf 1)
      have hh0 : 0 ≤ (rowsDims wf).start j idx 0 + ((rowsDims wf).window j 0 : ℕ) := (h 0).1
      rw [hs0, hw0] at h0 hh0
      rw [hs1, hw1] at h1
      omega
    · intro ⟨h0, h1⟩
      funext a
      refine Fin.ext ?_
      match a with
      | ⟨0, _⟩ =>
        show ((rowsDims wf).start j idx 0 + ((rowsDims wf).window j 0 : ℕ)).toNat = c.val
        rw [hs0, hw0]
        omega
      | ⟨1, _⟩ =>
        show ((rowsDims wf).start j idx 1 + ((rowsDims wf).window j 1 : ℕ)).toNat = e.val
        rw [hs1, hw1]
        omega
  · rename_i h
    constructor
    · intro hf
      exact absurd hf (by simp)
    · intro ⟨h0, h1⟩
      exfalso
      apply h
      intro a
      match a with
      | ⟨0, _⟩ =>
        show 0 ≤ (rowsDims wf).start j idx 0 + ((rowsDims wf).window j 0 : ℕ)
          ∧ (rowsDims wf).start j idx 0 + ((rowsDims wf).window j 0 : ℕ) < (C : ℤ)
        rw [hs0, hw0]
        omega
      | ⟨1, _⟩ =>
        show 0 ≤ (rowsDims wf).start j idx 1 + ((rowsDims wf).window j 1 : ℕ)
          ∧ (rowsDims wf).start j idx 1 + ((rowsDims wf).window j 1 : ℕ) < (D : ℤ)
        rw [hs1, hw1]
        omega

end Rows

/-- Rows: update row `r` (all its columns) lands on operand row `idx r`; so entry `(c, e)` of the result is the
    operand's plus the sum of the entries `(r, e)` of the rows whose index is `c`. -/
theorem scatterAdd_rows {C D N : ℕ}
    (d : ScatterDims (⟨2, ![C, D]⟩ : Shape) (⟨2, ![N, 1]⟩ : Shape) (⟨2, ![N, D]⟩ : Shape))
    (huw : d.updateWindowDims = [1]) (hiw : d.insertedWindowDims = [0]) (hsd : d.scatterDimsToOperandDims = [0])
    (hiv : d.indexVectorDim = 1)
    (x : (⟨2, ![C, D]⟩ : Shape).Idx → EReal) (idx : IVec (⟨2, ![N, 1]⟩ : Shape) 32)
    (upd : (⟨2, ![N, D]⟩ : Shape).Idx → EReal) (c : Fin C) (e : Fin D) :
    Ideal.hostScatterAdd d x idx upd (ix2 c e)
      = x (ix2 c e) + ∑ r : Fin N, if (idx (ix2 r (0 : Fin 1))).toInt = (c.val : ℤ) then upd (ix2 r e) else 0 := by
  obtain ⟨uw, iw, sd, iv, wf⟩ := d
  dsimp only at huw hiw hsd hiv
  subst huw hiw hsd hiv
  unfold Ideal.hostScatterAdd
  congr 1
  rw [Finset.sum_filter, sum_idx2]
  refine Finset.sum_congr rfl fun r _ => ?_
  refine ((Finset.sum_congr rfl fun e' _ => ?_).trans (Finset.sum_ite_eq' Finset.univ e
    (fun e' => if (idx (ix2 r (0 : Fin 1))).toInt = (c.val : ℤ) then upd (ix2 r e') else 0))).trans
    (if_pos (Finset.mem_univ e))
  have hiff : (rowsDims wf).resultIdx? (ix2 r e') idx = some (ix2 c e)
      ↔ (idx (ix2 r (0 : Fin 1))).toInt = (c.val : ℤ) ∧ e'.val = e.val :=
    rows_resultIdx_iff wf (ix2 r e') idx c e
  by_cases he : e' = e
  · subst he
    rw [if_pos rfl]
    exact if_congr (hiff.trans ⟨fun h => h.1, fun h => ⟨h, rfl⟩⟩) rfl rfl
  · rw [if_neg he]
    exact if_neg fun hh => he (Fin.ext (hiff.1 hh).2)

/-! ## Entries of a vector -/

section Vec
variable {C N : ℕ}
  (wf : ScatterDims.WF (⟨1, ![C]⟩ : Shape) (⟨2, ![N, 1]⟩ : Shape) (⟨1, ![N]⟩ : Shape) [] [0] [0] 1)

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The entry scatter's dimension numbers: the updates have no window axis, the operand's one axis is inserted and
    is the one the index names. -/
abbrev vecDims : ScatterDims (⟨1, ![C]⟩ : Shape) (⟨2, ![N, 1]⟩ : Shape) (⟨1, ![N]⟩ : Shape) :=
  ⟨[], [0], [0], 1, wf⟩

/-- The window starts at the entry the index column names, read signed. -/
theorem vec_start0 (j : (⟨1, ![N]⟩ : Shape).Idx) (idx : IVec (⟨2, ![N, 1]⟩ : Shape) 32) :
    (vecDims wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- The operand's axis is inserted: no window coordinate. -/
theorem vec_window0 (j : (⟨1, ![N]⟩ : Shape).Idx) : (vecDims wf).window j 0 = 0 := by
  unfold ScatterDims.window
  exact dif_neg (show (0 : Fin 1) ∉ (List.finRange 1).filter (· ∉ ([0] : List (Fin 1))) by decide)

/-- An update lands on entry `c` exactly when its index, read signed, is `c`: the range condition then holds
    because `c` is an entry of the operand. -/
theorem vec_resultIdx_iff (j : (⟨1, ![N]⟩ : Shape).Idx) (idx : IVec (⟨2, ![N, 1]⟩ : Shape) 32) (c : Fin C) :
    (vecDims wf).resultIdx? j idx = some (ix1 c) ↔ (idx (ix2 (j 0) (0 : Fin 1))).toInt = (c.val : ℤ) := by
  have hs0 := vec_start0 wf j idx
  have hw0 := vec_window0 wf j
  have hc : c.val < C := c.isLt
  unfold ScatterDims.resultIdx?
  split
  · rename_i h
    rw [Option.some.injEq]
    constructor
    · intro hf
      have h0 : ((vecDims wf).start j idx 0 + ((vecDims wf).window j 0 : ℕ)).toNat = c.val :=
        congrArg Fin.val (congrFun hf 0)
      have hh0 : 0 ≤ (vecDims wf).start j idx 0 + ((vecDims wf).window j 0 : ℕ) := (h 0).1
      rw [hs0, hw0] at h0 hh0
      omega
    · intro h0
      funext a
      refine Fin.ext ?_
      match a with
      | ⟨0, _⟩ =>
        show ((vecDims wf).start j idx 0 + ((vecDims wf).window j 0 : ℕ)).toNat = c.val
        rw [hs0, hw0]
        omega
  · rename_i h
    constructor
    · intro hf
      exact absurd hf (by simp)
    · intro h0
      exfalso
      apply h
      intro a
      match a with
      | ⟨0, _⟩ =>
        show 0 ≤ (vecDims wf).start j idx 0 + ((vecDims wf).window j 0 : ℕ)
          ∧ (vecDims wf).start j idx 0 + ((vecDims wf).window j 0 : ℕ) < (C : ℤ)
        rw [hs0, hw0]
        omega

end Vec

/-- Entries of a vector: update entry `r` lands on operand entry `idx r`. -/
theorem scatterAdd_vec {C N : ℕ}
    (d : ScatterDims (⟨1, ![C]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1)
    (x : (⟨1, ![C]⟩ : Shape).Idx → EReal) (idx : IVec (⟨2, ![N, 1]⟩ : Shape) 32)
    (upd : (⟨1, ![N]⟩ : Shape).Idx → EReal) (c : Fin C) :
    Ideal.hostScatterAdd d x idx upd (ix1 c)
      = x (ix1 c) + ∑ r : Fin N, if (idx (ix2 r (0 : Fin 1))).toInt = (c.val : ℤ) then upd (ix1 r) else 0 := by
  obtain ⟨uw, iw, sd, iv, wf⟩ := d
  dsimp only at huw hiw hsd hiv
  subst huw hiw hsd hiv
  unfold Ideal.hostScatterAdd
  congr 1
  rw [Finset.sum_filter, sum_idx1]
  refine Finset.sum_congr rfl fun r _ => ?_
  exact if_congr (vec_resultIdx_iff wf (ix1 r) idx c) rfl rfl

end Cert.ScatterAdd

end
-- ==== Proof.LibScatterFold.lean ====
/-
  The host's folding scatter (`Host.scatter`: a left fold over the update positions in row-major order) with an
  addition body, read at an index. Addition in a commutative monoid is associative and commutative, so the fold's
  order does not matter: the entry at `i` is the operand's plus the sum of the updates whose result index is `i`
  (`scatter_add_apply`), the closed form the exact float scatter-add `Ideal.hostScatterAdd` is defined by.
  `scatter_addi_vec` reads the 32-bit integer instance at an entry of a vector scattered by an [N, 1] column of
  indices; `count_eq` says that scattering ones into zeros counts, in 32-bit words and in the extended reals alike,
  the rows whose index names the entry, as long as the number of rows fits a signed word.
-/
import Idealize.ShloMosaic.PureOps.ShapeOps
import Idealize.ShloMosaic.PureOps.Ideal
import Idealize.ShloMosaic.Lib.ValueIdx
import Idealize.ShloMosaic.Lib.ValueIdxRank1
import Mathlib.Algebra.BigOperators.Fin
import Mathlib.Data.BitVec
import Mathlib.Data.EReal.Basic
import proofs.«417693_j14645838480120_3_alg».proof.Proof.LibScatterAdd

noncomputable section

namespace Cert.ScatterFold

open Idealize.ShloMosaic Idealize.ShloMosaic.ValueIdx

/-- The fold over any list `L` of update positions: the entry at `i` is the starting value's plus the sum, over the
    positions of `L` whose update lands on `i`, of that update. A step at a position landing on `k` changes entry
    `k` only, adding the update to it; a step at a position landing outside changes nothing. -/
theorem foldl_add_apply {α : Type} [AddCommMonoid α] {s si u : Shape} {w : ℕ} (d : ScatterDims s si u)
    (idx : IVec si w) (upd : u.Idx → α) (i : s.Idx) (L : List (Fin u.numel)) (x : s.Idx → α) :
    L.foldl (fun r n =>
        match d.resultIdx? (u.rowMajor.symm n) idx with
        | some k => fun i' => if i' = k then r k + upd (u.rowMajor.symm n) else r i'
        | none => r) x i
      = x i + (L.map fun n =>
          if d.resultIdx? (u.rowMajor.symm n) idx = some i then upd (u.rowMajor.symm n) else 0).sum := by
  induction L generalizing x with
  | nil => simp
  | cons n L ih =>
    rw [List.foldl_cons, ih, List.map_cons, List.sum_cons, ← add_assoc]
    congr 1
    cases h : d.resultIdx? (u.rowMajor.symm n) idx with
    | none => simp
    | some k =>
      by_cases hik : i = k
      · subst hik
        simp
      · have hne : ¬ (some k = some i) := fun hh => hik (Option.some.inj hh).symm
        simp [hik, hne]

/-- The folding scatter with an addition body, at generic shapes: the entry at `i` is the operand's plus the sum of
    the updates whose result index is `i`. -/
theorem scatter_add_apply {α : Type} [AddCommMonoid α] {s si u : Shape} {w : ℕ} (d : ScatterDims s si u)
    (x : s.Idx → α) (idx : IVec si w) (upd : u.Idx → α) (i : s.Idx) :
    Host.scatter d (fun a b => a + b) x idx upd i
      = x i + ∑ j ∈ Finset.univ.filter (fun j => d.resultIdx? j idx = some i), upd j := by
  refine Eq.trans (foldl_add_apply d idx upd i (List.finRange u.numel) x) ?_
  congr 1
  rw [← Fin.sum_univ_def, Finset.sum_filter]
  exact Equiv.sum_comp u.rowMajor.symm (fun j => if d.resultIdx? j idx = some i then upd j else 0)

/-- The 32-bit integer instance at an entry of a vector: update entry `r` lands on operand entry `idx r`, read
    signed; an index outside the operand drops its update. Sums are in the ring of 32-bit words. -/
theorem scatter_addi_vec {C N : ℕ}
    (d : ScatterDims (⟨1, ![C]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1)
    (x : (⟨1, ![C]⟩ : Shape).Idx → BitVec 32) (idx : IVec (⟨2, ![N, 1]⟩ : Shape) 32)
    (upd : (⟨1, ![N]⟩ : Shape).Idx → BitVec 32) (c : Fin C) :
    Host.scatter d IntOp.addi x idx upd (ix1 c)
      = x (ix1 c) + ∑ r : Fin N, if (idx (ix2 r (0 : Fin 1))).toInt = (c.val : ℤ) then upd (ix1 r) else 0 := by
  obtain ⟨uw, iw, sd, iv, wf⟩ := d
  dsimp only at huw hiw hsd hiv
  subst huw hiw hsd hiv
  have h := scatter_add_apply (Cert.ScatterAdd.vecDims wf) x idx upd (ix1 c)
  refine Eq.trans h ?_
  congr 1
  rw [Finset.sum_filter, Cert.ScatterAdd.sum_idx1]
  refine Finset.sum_congr rfl fun r _ => ?_
  exact if_congr (Cert.ScatterAdd.vec_resultIdx_iff wf (ix1 r) idx c) rfl rfl

/-- A natural number below 2^31, as a 32-bit word, reads signed as itself: it is below 2^32, so the word's unsigned
    value is the number, and twice it is below 2^32, so the sign bit is clear. -/
theorem toInt_natCast_of_lt {k : ℕ} (hk : k < 2 ^ 31) : ((k : BitVec 32)).toInt = (k : ℤ) := by
  rw [BitVec.natCast_eq_ofNat]
  have hmod : (BitVec.ofNat 32 k).toNat = k := by
    rw [BitVec.toNat_ofNat]
    exact Nat.mod_eq_of_lt (by omega)
  rw [BitVec.toInt_eq_toNat_of_lt (by rw [hmod]; omega), hmod]

/-- Scattering the word 1 from every row into zero words counts, at entry `c`, the rows whose index read signed is
    `c`; with fewer than 2^31 rows the count fits a signed word, and, read signed and taken to the extended reals,
    it is the exact scatter-add of ones into zeros: both are the number of those rows. -/
theorem count_eq {C N : ℕ} (hN : N < 2 ^ 31)
    (d : ScatterDims (⟨1, ![C]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1)
    (idx : IVec (⟨2, ![N, 1]⟩ : Shape) 32) (c : Fin C) :
    (((Host.scatter d IntOp.addi (fun _ => (0#32 : BitVec 32)) idx (fun _ => (1#32 : BitVec 32)) (ix1 c)).toInt : ℝ) : EReal)
      = Ideal.hostScatterAdd d (fun _ => (0 : EReal)) idx (fun _ => (1 : EReal)) (ix1 c) := by
  have hk : (Finset.univ.filter fun r : Fin N => (idx (ix2 r (0 : Fin 1))).toInt = (c.val : ℤ)).card < 2 ^ 31 :=
    lt_of_le_of_lt ((Finset.card_filter_le _ _).trans (by simp)) hN
  have hL : Host.scatter d IntOp.addi (fun _ => (0#32 : BitVec 32)) idx (fun _ => (1#32 : BitVec 32)) (ix1 c)
      = (((Finset.univ.filter fun r : Fin N => (idx (ix2 r (0 : Fin 1))).toInt = (c.val : ℤ)).card : ℕ) : BitVec 32) := by
    refine (scatter_addi_vec d huw hiw hsd hiv (fun _ => (0#32 : BitVec 32)) idx (fun _ => (1#32 : BitVec 32)) c).trans ?_
    show (0#32 : BitVec 32)
        + ∑ r : Fin N, (if (idx (ix2 r (0 : Fin 1))).toInt = (c.val : ℤ) then (1 : BitVec 32) else 0) = _
    rw [BitVec.zero_add]
    exact Finset.sum_boole _ _
  have hR : Ideal.hostScatterAdd d (fun _ => (0 : EReal)) idx (fun _ => (1 : EReal)) (ix1 c)
      = (((Finset.univ.filter fun r : Fin N => (idx (ix2 r (0 : Fin 1))).toInt = (c.val : ℤ)).card : ℕ) : EReal) := by
    refine (Cert.ScatterAdd.scatterAdd_vec d huw hiw hsd hiv (fun _ => (0 : EReal)) idx (fun _ => (1 : EReal)) c).trans ?_
    show (0 : EReal)
        + ∑ r : Fin N, (if (idx (ix2 r (0 : Fin 1))).toInt = (c.val : ℤ) then (1 : EReal) else 0) = _
    rw [zero_add]
    exact Finset.sum_boole _ _
  rw [hL, hR, toInt_natCast_of_lt hk, Int.cast_natCast]
  rfl

end Cert.ScatterFold

end
-- ==== Proof.LibColumnCast.lean ====
/-
  A vector stood up as a column: an `[a]` array cast to `[a, 1]` reads, at `(i, u)`, the operand at `i`, whatever
  the unit coordinate `u`.  (The trailing-axis companion of the library's leading-axis form `shapeCast_a_1a_apply`:
  what `keepdims=True` does to a row reduction's result.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`: both indices have row-major position
    `i`, since the unit coordinate is `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.HostValue.lean ====
/-
  What the kernel's host lines put into the arrays the two pallas_calls read, on the extended reals, stated against
  the reference's own stages where the two programs apply the same operations.
  The gather of source rows and the scatter-add at destination rows are the same host operations in both programs;
  the kernel rounds the gathered features to bf16 and widens them again, which changes nothing here. So the kernel's
  neighbour sums ARE the reference's stage of the same arguments. The in-degree is where they differ: the kernel
  counts in 32-bit integers and converts, the reference adds float ones.
-/
import proofs.«417693_j14645838480120_3_alg».proof.Proof.KernelIdeal.Run
import proofs.«417693_j14645838480120_3_alg».proof.Proof.RefImports
import proofs.«417693_j14645838480120_3_alg».proof.Proof.LibScatterFold
import proofs.«417693_j14645838480120_3_alg».proof.Proof.LibColumnCast
import Idealize.ShloMosaic.Lib.StableHlo.Run
import Idealize.ShloMosaic.Lib.ValueLayout

set_option maxRecDepth 16384

noncomputable section

namespace Cert.Bridge

open Cert.KernelIdeal Cert.KernelIdeal.Gen Cert.KernelIdeal.Sage
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## Before the first pallas_call -/

set_option maxHeartbeats 4000000 in
/-- The first layer's neighbour sums are the reference's, of the same features and edges. -/
theorem agg1_eq (c : Dev nD) :
    Sage.V1 m ρ c main_v21 = Cert.ReferenceIdeal.Read.val_main_v13 (m ((c : Thread nD τ).loc main_arg0)) (m ((c : Thread nD τ).loc main_arg1)) := by
  show StableHlo.after hostOps0 (W0 m ρ c) (Proc.devRef .tc main_v21) = _
  after_results_simp
  rfl

/-- The node features reach the first pallas_call as launched. -/
theorem x_eq (c : Dev nD) : Sage.V1 m ρ c main_arg0 = m ((c : Thread nD τ).loc main_arg0) :=
  StableHlo.after_of_writes_sub hostOps0 _ hostOps0_writes (r := main_arg0) (by decide)

set_option maxHeartbeats 4000000 in
/-- The first layer's left weights, rounded to bf16: themselves. -/
theorem w1l_eq (c : Dev nD) (j : S128x256.Idx) : Sage.V1 m ρ c main_v23 j = m ((c : Thread nD τ).loc main_arg3) j := by
  show StableHlo.after hostOps0 (W0 m ρ c) (Proc.devRef .tc main_v23) j = _
  after_results_simp
  rfl

set_option maxHeartbeats 4000000 in
/-- The first layer's right weights, rounded to bf16: themselves. -/
theorem w1r_eq (c : Dev nD) (j : S128x256.Idx) : Sage.V1 m ρ c main_v24 j = m ((c : Thread nD τ).loc main_arg5) j := by
  show StableHlo.after hostOps0 (W0 m ρ c) (Proc.devRef .tc main_v24) j = _
  after_results_simp
  rfl

set_option maxHeartbeats 4000000 in
/-- The first layer's bias as a row: entry (0, d) is the bias at d. -/
theorem b1_eq (c : Dev nD) (d : Fin 256) : Sage.V1 m ρ c main_v22 (ix2 0 d) = m ((c : Thread nD τ).loc main_arg4) (ix1 d) := by
  show StableHlo.after hostOps0 (W0 m ρ c) (Proc.devRef .tc main_v22) (ix2 0 d) = _
  after_results_simp
  exact shapeCast_a_1a_apply _ _ 0 d

set_option maxHeartbeats 4000000 in
/-- The in-degree column the kernel reads: at node n, the 32-bit count of the edges whose destination is n, read
    signed and converted. -/
theorem cntK_apply (c : Dev nD) (n : Fin 100000) :
    Sage.V1 m ρ c main_v9 (ix2 n 0)
      = (((Host.scatter scatter_S100000_S640000x1_S640000_n_0_0_1 IntOp.addi (fun _ => (0#32 : BitVec 32))
            (Cert.ReferenceIdeal.Read.val_main_v16 (m ((c : Thread nD τ).loc main_arg1))) (fun _ => (1#32 : BitVec 32)) (ix1 n)).toInt : ℝ) : EReal) := by
  show StableHlo.after hostOps0 (W0 m ρ c) (Proc.devRef .tc main_v9) (ix2 n 0) = _
  after_results_simp
  rw [broadcastInDim_apply _ _ _ _ (ix1 n) (fun a => by match a with | ⟨0, _⟩ => rfl)]
  rfl

/-! ## Between the two pallas_calls -/

/-- The second layer's neighbour sums as the reference forms them from the first layer's output array. -/
def agg2Of (h : (⟨Cert.ReferenceIdeal.S100000x256, .f32⟩ : BufTy).Contents (Elt Ideal))
    (x1 : (⟨Cert.ReferenceIdeal.S2x640000, .i32⟩ : BufTy).Contents (Elt Ideal)) : (⟨Cert.ReferenceIdeal.S100000x256, .f32⟩ : BufTy).Contents (Elt Ideal) :=
  Host.scatterAdd (F := Ideal) (φ := .f32) Cert.ReferenceIdeal.scatter_S100000x256_S640000x1_S640000x256_1_0_0_1 (Cert.ReferenceIdeal.Read.val_main_v37 (F := Ideal))
    (Cert.ReferenceIdeal.Read.val_main_v38 (F := Ideal) x1)
    (Host.gather Cert.ReferenceIdeal.gather_S100000x256_S640000x1_S640000x256_1_0_n_n_0_1_1256 h (Cert.ReferenceIdeal.Read.val_main_v35 (F := Ideal) x1))

theorem agg2_ref (x0 : (⟨Cert.ReferenceIdeal.S100000x128, .f32⟩ : BufTy).Contents (Elt Ideal)) (x1 : (⟨Cert.ReferenceIdeal.S2x640000, .i32⟩ : BufTy).Contents (Elt Ideal))
    (x3 : (⟨Cert.ReferenceIdeal.S128x256, .f32⟩ : BufTy).Contents (Elt Ideal)) (x4 : (⟨Cert.ReferenceIdeal.S256, .f32⟩ : BufTy).Contents (Elt Ideal))
    (x5 : (⟨Cert.ReferenceIdeal.S128x256, .f32⟩ : BufTy).Contents (Elt Ideal)) :
    Cert.ReferenceIdeal.Read.val_main_v39 x0 x1 x3 x4 x5 = agg2Of (Cert.ReferenceIdeal.Read.val_main_v29 x0 x1 x3 x4 x5) x1 := rfl

set_option maxHeartbeats 8000000 in
/-- The kernel's second-layer neighbour sums are that function of what the first pallas_call left in its output array. -/
theorem agg2_eq (c : Dev nD) :
    Sage.V3 m ρ c main_v37 = agg2Of (W2 m ρ c (Proc.devRef .tc main_v25)) (m ((c : Thread nD τ).loc main_arg1)) := by
  show StableHlo.after hostOps1 (W2 m ρ c) (Proc.devRef .tc main_v37) = _
  after_results_simp
  rw [W2_of_ne m ρ c main_v1 (by decide), W2_of_ne m ρ c main_v3 (by decide)]
  show _ = agg2Of _ _
  simp only [W1]
  after_results_simp
  rfl

/-- The first layer's output reaches the second pallas_call as the first left it. -/
theorem v3_h1 (c : Dev nD) : Sage.V3 m ρ c main_v25 = W2 m ρ c (Proc.devRef .tc main_v25) :=
  StableHlo.after_of_writes_sub hostOps1 _ hostOps1_writes (r := main_v25) (by decide)

/-- The in-degree column is an input of the first pallas_call and no line between writes it. -/
theorem v3_cnt (c : Dev nD) : Sage.V3 m ρ c main_v9 = Sage.V1 m ρ c main_v9 :=
  (StableHlo.after_of_writes_sub hostOps1 _ hostOps1_writes (r := main_v9) (by decide)).trans
    ((W2_arr m ρ c 1).trans (((dat0 (Sage.V1 m ρ) c).arrAt_in 1 rfl _).trans (A_eq0 (Sage.V1 m ρ) c 1)))

set_option maxHeartbeats 4000000 in
theorem w2l_eq (c : Dev nD) (j : S256x256.Idx) : Sage.V3 m ρ c main_v39 j = m ((c : Thread nD τ).loc main_arg6) j := by
  show StableHlo.after hostOps1 (W2 m ρ c) (Proc.devRef .tc main_v39) j = _
  after_results_simp
  rw [W2_of_ne m ρ c main_arg6 (by decide)]
  show W1 m ρ c (Proc.devRef .tc main_arg6) j = _
  exact congrFun (StableHlo.after_of_writes_sub (hostOps0 (F := Ideal)) _ hostOps0_writes (r := main_arg6) (by decide)) j

set_option maxHeartbeats 4000000 in
theorem w2r_eq (c : Dev nD) (j : S256x256.Idx) : Sage.V3 m ρ c main_v40 j = m ((c : Thread nD τ).loc main_arg8) j := by
  show StableHlo.after hostOps1 (W2 m ρ c) (Proc.devRef .tc main_v40) j = _
  after_results_simp
  rw [W2_of_ne m ρ c main_arg8 (by decide)]
  show W1 m ρ c (Proc.devRef .tc main_arg8) j = _
  exact congrFun (StableHlo.after_of_writes_sub (hostOps0 (F := Ideal)) _ hostOps0_writes (r := main_arg8) (by decide)) j

set_option maxHeartbeats 4000000 in
theorem b2_eq (c : Dev nD) (d : Fin 256) : Sage.V3 m ρ c main_v38 (ix2 0 d) = m ((c : Thread nD τ).loc main_arg7) (ix1 d) := by
  show StableHlo.after hostOps1 (W2 m ρ c) (Proc.devRef .tc main_v38) (ix2 0 d) = _
  after_results_simp
  rw [W2_of_ne m ρ c main_arg7 (by decide)]
  refine (shapeCast_a_1a_apply _ _ 0 d).trans ?_
  exact congrFun (StableHlo.after_of_writes_sub (hostOps0 (F := Ideal)) _ hostOps0_writes (r := main_arg7) (by decide)) (ix1 d)

set_option maxHeartbeats 4000000 in
/-- The graph ids as a column: entry (n, 0) is node n's id. -/
theorem batch_eq (c : Dev nD) (n : Fin 100000) : Sage.V3 m ρ c main_v41 (ix2 n 0) = m ((c : Thread nD τ).loc main_arg2) (ix1 n) := by
  show StableHlo.after hostOps1 (W2 m ρ c) (Proc.devRef .tc main_v41) (ix2 n 0) = _
  after_results_simp
  rw [W2_of_ne m ρ c main_arg2 (by decide)]
  refine (shapeCast_a_a1_apply _ _ n 0).trans ?_
  exact congrFun (StableHlo.after_of_writes_sub (hostOps0 (F := Ideal)) _ hostOps0_writes (r := main_arg2) (by decide)) (ix1 n)

end Cert.Bridge

end
-- ==== Proof.Spec.lean ====
/-
  What the two programs compute, entry by entry, on the extended reals.
  A SAGEConv layer's dense half at node `n` and output feature `d`: the neighbour sums divided by the in-degree
  (at least one) go through the left weights, the node's own features through the right weights, and the bias is added.
  The kernel adds the two products first and the bias last; the reference adds the bias to the left product first.
  Addition of extended reals is commutative and associative, so the two orders agree with no finiteness assumption.
  The pooled result at graph `g` is the sum of the second layer's rows whose graph id is `g`.
-/
import Idealize.ShloMosaic.PureOps.Ideal
import Idealize.ShloMosaic.Lib.ValueIdx

noncomputable section

namespace Cert.SageSpec

open Idealize.ShloMosaic Idealize.ShloMosaic.ValueIdx

/-- The float word of 1.0 and of 0.0, as the programs spell them. -/
abbrev one : EReal := Ideal.ofBits .f32 0x3F800000#32
abbrev zero : EReal := Ideal.ofBits .f32 0x00000000#32

/-- The neighbour mean through the left weights: `∑ₖ (agg[n,k] / max(cnt[n], 1)) · W_l[k,d]`. -/
def left {K : ℕ} (agg : (⟨2, ![100000, K]⟩ : Shape).Idx → EReal) (cnt : Fin 100000 → EReal)
    (wl : (⟨2, ![K, 256]⟩ : Shape).Idx → EReal) (n : Fin 100000) (d : Fin 256) : EReal :=
  ∑ k : Fin K, Ideal.div (agg (ix2 n k)) (max (cnt n) one) * wl (ix2 k d)

/-- The node's own features through the right weights: `∑ₖ x[n,k] · W_r[k,d]`. -/
def right {K : ℕ} (x : (⟨2, ![100000, K]⟩ : Shape).Idx → EReal) (wr : (⟨2, ![K, 256]⟩ : Shape).Idx → EReal)
    (n : Fin 100000) (d : Fin 256) : EReal :=
  ∑ k : Fin K, x (ix2 n k) * wr (ix2 k d)

/-- The layer as the kernel adds it: (left + right) + bias. -/
def layer {K : ℕ} (agg x : (⟨2, ![100000, K]⟩ : Shape).Idx → EReal) (cnt : Fin 100000 → EReal)
    (wl wr : (⟨2, ![K, 256]⟩ : Shape).Idx → EReal) (b : Fin 256 → EReal) (n : Fin 100000) (d : Fin 256) : EReal :=
  (left agg cnt wl n d + right x wr n d) + b d

/-- The layer as the reference adds it: (left + bias) + right. -/
def layerRef {K : ℕ} (agg x : (⟨2, ![100000, K]⟩ : Shape).Idx → EReal) (cnt : Fin 100000 → EReal)
    (wl wr : (⟨2, ![K, 256]⟩ : Shape).Idx → EReal) (b : Fin 256 → EReal) (n : Fin 100000) (d : Fin 256) : EReal :=
  (left agg cnt wl n d + b d) + right x wr n d

/-- The two orders of addition agree. -/
theorem layerRef_eq {K : ℕ} (agg x : (⟨2, ![100000, K]⟩ : Shape).Idx → EReal) (cnt : Fin 100000 → EReal)
    (wl wr : (⟨2, ![K, 256]⟩ : Shape).Idx → EReal) (b : Fin 256 → EReal) (n : Fin 100000) (d : Fin 256) :
    layerRef agg x cnt wl wr b n d = layer agg x cnt wl wr b n d := by
  unfold layerRef layer
  exact add_right_comm _ _ _

/-- The first layer ends in a rectifier. -/
def relu (v : EReal) : EReal := max v zero

/-- The pooled sum at graph `g`, feature `d`: the rows of `h` whose graph id, read signed, is `g`. -/
def pooled (batch : Fin 100000 → BitVec 32) (h : Fin 100000 → Fin 256 → EReal) (g d : Fin 256) : EReal :=
  ∑ n : Fin 100000, if (batch n).toInt = (g.val : ℤ) then h n d else 0

end Cert.SageSpec

end
-- ==== Proof.LibBroadcastColumn.lean ====
/-
  One column broadcast over many: a `[a, 1]` array broadcast to `[a, b]` reads, at `(p, c)`, the operand's one
  column at row `p`.  (The companion of the library's row form `broadcastTo_1b_ab_apply`: a per-row bias added to
  every column of a matrix.)
-/
import Idealize.ShloMosaic.Lib.Pipeline.Value
import Idealize.ShloMosaic.Lib.ValueIdx

namespace Idealize.ShloMosaic.ValueIdx

variable {α : Type}

/-- A `[a, 1]` array broadcast to `[a, b]` reads, at `(p, c)`, the operand's one column at `p`: the row axis is kept
    (or has extent one, and then `p = 0`), the unit column axis reads its only index. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelIdeal.LinearValue.lean ====
/-
  What the first kernel call leaves in its output array, entry by entry, on the extended reals.
  At every grid point the body stores relu((agg / max(cnt, 1)) · W_l + x · W_r + b) over the point's block of 5000
  rows; the twenty blocks tile the array's 100000 rows, so the array ends holding that formula at every row, read
  from the whole input arrays.
-/
import proofs.«417693_j14645838480120_3_alg».proof.Proof.KernelIdeal.Linear
import proofs.«417693_j14645838480120_3_alg».proof.Proof.Spec
import proofs.«417693_j14645838480120_3_alg».proof.Proof.LibBroadcastColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Sage

open Cert.KernelIdeal Cert.KernelIdeal.Gen
open Idealize.ShloMosaic Idealize.ShloMosaic.TcCoe Idealize.ShloMosaic.ValueIdx
open Idealize.ShloMosaic.Pipeline (Dat)
open Cert

/-! ## One matrix product at an index -/

theorem lin_zero_off : (![0, 0] : Fin 2 → Nat) = fun _ => 0 := funext fun a => by fin_cases a <;> rfl

/-- The left operand is read at the output's row … -/
theorem lin_lhs_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
/-- … and the contracted column, -/
theorem lin_lhs_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
/-- the right operand at the contracted row … -/
theorem lin_rhs_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
/-- … and the output's column. -/
theorem lin_rhs_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- A [5000,128] by [128,256] product into the zero accumulator, at row `p` and column `q`: the sum over the 128 contracted
    indices. -/
theorem lin_matmul_at (a : FVec Ideal S5000x128 .bf16) (w : FVec Ideal S128x256 .bf16) (p : Fin 5000) (q : Fin 256) :
    matmul dot_S5000x128_S128x256_S5000x256_1_0_0_1_n_n none a w (constant (F := Ideal) S5000x256 .f32 0x00000000#32) (ix2 p q)
      = ∑ k : Fin 128, a (ix2 p k) * w (ix2 k q) := by
  show FloatOps.matmul dot_S5000x128_S128x256_S5000x256_1_0_0_1_n_n none a w (constant (F := Ideal) S5000x256 .f32 0x00000000#32) (ix2 p q) = _
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ix2 p q) ((ValueIdx.contrEquiv1 dot_S5000x128_S128x256_S5000x256_1_0_0_1_n_n 128 rfl rfl).symm k) = ix2 p k := funext fun a => Fin.ext (by
    match a with
    | ⟨0, _⟩ => exact lin_lhs_0 _ _
    | ⟨1, _⟩ => exact (lin_lhs_1 _ _).trans hk)
  have er : dot_S5000x128_S128x256_S5000x256_1_0_0_1_n_n.rhsIdx (ix2 p q) ((ValueIdx.contrEquiv1 dot_S5000x128_S128x256_S5000x256_1_0_0_1_n_n 128 rfl rfl).symm k) = ix2 k q := funext fun a => Fin.ext (by
    match a with
    | ⟨0, _⟩ => exact (lin_rhs_0 _ _).trans hk
    | ⟨1, _⟩ => exact lin_rhs_1 _ _)
  rw [el, er]

/-! ## The body's output block at an index -/

/-- Row `p`, column `q` of the block the body stores: the rectified sum of the two products and the bias. -/
theorem lin_point (agg : Vec Ideal S5000x128 .f32) (cnt : Vec Ideal S5000x1 .f32) (x : Vec Ideal S5000x128 .f32)
    (wl : Vec Ideal S128x256 .bf16) (b : Vec Ideal S1x256 .f32) (wr : Vec Ideal S128x256 .bf16) (p : Fin 5000) (q : Fin 256) :
    linOut agg cnt x wl b wr (ix2 p q)
      = max ((∑ k : Fin 128, Ideal.div (agg (ix2 p k)) (max (cnt (ix2 p 0)) SageSpec.one) * wl (ix2 k q)
            + ∑ k : Fin 128, x (ix2 p k) * wr (ix2 k q)) + b (ix2 0 q)) SageSpec.zero := by
  unfold linOut
  rw [View.canon_unit_zero lin_zero_off]
  simp only [View.ld_unit_zero (S := S5000x128) lin_zero_off, View.ld_unit_zero (S := S5000x1) lin_zero_off,
    View.ld_unit_zero (S := S128x256) lin_zero_off, View.ld_unit_zero (S := S1x256) lin_zero_off]
  unfold k0_pay1
  simp only [shapeCast_self]
  rw [maximumf_apply, addf_apply, addf_apply, lin_matmul_at, lin_matmul_at]
  rw [broadcast_apply, broadcastTo_1b_ab_apply]
  simp only [truncf_apply, divf_apply, broadcastTo_a1_ab_apply, maximumf_apply, broadcast_apply]
  rfl

/-! ## Where the blocks sit in the arrays -/

variable (V : (c : Dev nD) → (b : Ref sig .tc) → Buf (Elt Ideal) ((c : Thread nD τ).loc b))

/-- The printed index maps, decided over the grid: the neighbour sums, the in-degrees, the features and the output are
    at block row `t`; the two weight matrices and the bias row are their arrays' one block. -/
theorem lin_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the neighbour sums' block at point `t` is row `5000 t + p` of the array. -/
theorem lin_agg_blk (c : Dev nD) (t : Fin cfg0.N) (p : Fin 5000) (k : Fin 128) (n : Fin 100000) (hn : n.val = 5000 * t.val + p.val) :
    (iblk0 (F := Ideal) V c 0 t : Vec Ideal S5000x128 .f32) (ix2 p k) = (V c main_v21 : S100000x128.Idx → EReal) (ix2 n k) := by
  obtain ⟨e0, e1, -⟩ := lin_idx_facts t
  unfold iblk0
  rw [View.read_apply]
  show V c main_v21 _ = V c main_v21 _
  congr 1
  funext a
  apply Fin.ext
  match a with
  | ⟨0, _⟩ => show win0_0.index t 0 * 5000 + 1 * p.val = n.val; rw [e0, hn]; omega
  | ⟨1, _⟩ => show win0_0.index t 1 * 128 + 1 * k.val = k.val; rw [e1]; omega

/-- Row `p` of the in-degrees' block at point `t` is row `5000 t + p` of the column. -/
theorem lin_cnt_blk (c : Dev nD) (t : Fin cfg0.N) (p : Fin 5000) (n : Fin 100000) (hn : n.val = 5000 * t.val + p.val) :
    (iblk0 (F := Ideal) V c 1 t : Vec Ideal S5000x1 .f32) (ix2 p 0) = (V c main_v9 : S100000x1.Idx → EReal) (ix2 n 0) := by
  obtain ⟨-, -, e0, e1, -⟩ := lin_idx_facts t
  unfold iblk0
  rw [View.read_apply]
  show V c main_v9 _ = V c main_v9 _
  congr 1
  funext a
  apply Fin.ext
  match a with
  | ⟨0, _⟩ => show win0_1.index t 0 * 5000 + 1 * p.val = n.val; rw [e0, hn]; omega
  | ⟨1, _⟩ => show win0_1.index t 1 * 1 + 1 * 0 = 0; rw [e1]

/-- Row `p` of the features' block at point `t` is row `5000 t + p` of the array. -/
theorem lin_x_blk (c : Dev nD) (t : Fin cfg0.N) (p : Fin 5000) (k : Fin 128) (n : Fin 100000) (hn : n.val = 5000 * t.val + p.val) :
    (iblk0 (F := Ideal) V c 2 t : Vec Ideal S5000x128 .f32) (ix2 p k) = (V c main_arg0 : S100000x128.Idx → EReal) (ix2 n k) := by
  obtain ⟨-, -, -, -, e0, e1, -⟩ := lin_idx_facts t
  unfold iblk0
  rw [View.read_apply]
  show V c main_arg0 _ = V c main_arg0 _
  congr 1
  funext a
  apply Fin.ext
  match a with
  | ⟨0, _⟩ => show win0_2.index t 0 * 5000 + 1 * p.val = n.val; rw [e0, hn]; omega
  | ⟨1, _⟩ => show win0_2.index t 1 * 128 + 1 * k.val = k.val; rw [e1]; omega

/-- The left weights' block at every point is the whole matrix. -/
theorem lin_wl_blk (c : Dev nD) (t : Fin cfg0.N) (k : Fin 128) (q : Fin 256) :
    (iblk0 (F := Ideal) V c 3 t : Vec Ideal S128x256 .bf16) (ix2 k q) = (V c main_v23 : S128x256.Idx → EReal) (ix2 k q) := by
  obtain ⟨-, -, -, -, -, -, e0, e1, -⟩ := lin_idx_facts t
  unfold iblk0
  rw [View.read_apply]
  show V c main_v23 _ = V c main_v23 _
  congr 1
  funext a
  apply Fin.ext
  match a with
  | ⟨0, _⟩ => show win0_3.index t 0 * 128 + 1 * k.val = k.val; rw [e0]; omega
  | ⟨1, _⟩ => show win0_3.index t 1 * 256 + 1 * q.val = q.val; rw [e1]; omega

/-- The bias block at every point is the whole row. -/
theorem lin_b_blk (c : Dev nD) (t : Fin cfg0.N) (q : Fin 256) :
    (iblk0 (F := Ideal) V c 4 t : Vec Ideal S1x256 .f32) (ix2 0 q) = (V c main_v22 : S1x256.Idx → EReal) (ix2 0 q) := by
  obtain ⟨-, -, -, -, -, -, -, -, e0, e1, -⟩ := lin_idx_facts t
  unfold iblk0
  rw [View.read_apply]
  show V c main_v22 _ = V c main_v22 _
  congr 1
  funext a
  apply Fin.ext
  match a with
  | ⟨0, _⟩ => show win0_4.index t 0 * 1 + 1 * 0 = 0; rw [e0]
  | ⟨1, _⟩ => show win0_4.index t 1 * 256 + 1 * q.val = q.val; rw [e1]; omega

/-- The right weights' block at every point is the whole matrix. -/
theorem lin_wr_blk (c : Dev nD) (t : Fin cfg0.N) (k : Fin 128) (q : Fin 256) :
    (iblk0 (F := Ideal) V c 5 t : Vec Ideal S128x256 .bf16) (ix2 k q) = (V c main_v24 : S128x256.Idx → EReal) (ix2 k q) := by
  obtain ⟨-, -, -, -, -, -, -, -, -, -, e0, e1, -⟩ := lin_idx_facts t
  unfold iblk0
  rw [View.read_apply]
  show V c main_v24 _ = V c main_v24 _
  congr 1
  funext a
  apply Fin.ext
  match a with
  | ⟨0, _⟩ => show win0_5.index t 0 * 128 + 1 * k.val = k.val; rw [e0]; omega
  | ⟨1, _⟩ => show win0_5.index t 1 * 256 + 1 * q.val = q.val; rw [e1]; omega

/-! ## The whole array -/

/-- The layer's rectified output as one function of the whole input arrays. -/
def linArr (c : Dev nD) : Buf (Elt Ideal) ((c : Thread nD τ).loc main_v25) :=
  fun (i : S100000x256.Idx) => SageSpec.relu (SageSpec.layer (K := 128) (V c main_v21) (V c main_arg0) (fun n => V c main_v9 (ix2 n 0))
    (V c main_v23) (V c main_v24) (fun d => V c main_v22 (ix2 0 d)) (i 0) (i 1))

/-- Row `p` of the output block at point `t` sits at row `5000 t + p` of the output array. -/
theorem lin_out_emb (t : Fin cfg0.N) (p : Fin 5000) (q : Fin 256) (n : Fin 100000) (hn : n.val = 5000 * t.val + p.val) :
    ((cfg0.win 6).blk t).view.emb (ix2 p q) = (ix2 n q : S100000x256.Idx) := by
  obtain ⟨-, -, -, -, -, -, -, -, -, -, -, -, e0, e1⟩ := lin_idx_facts t
  funext a
  apply Fin.ext
  match a with
  | ⟨0, _⟩ => show win0_6.index t 0 * 5000 + 1 * p.val = n.val; rw [e0, hn]; omega
  | ⟨1, _⟩ => show win0_6.index t 1 * 256 + 1 * q.val = q.val; rw [e1]; omega

/-- What point `t` writes back is block `t` of that function. -/
theorem lin_flushed_eq (c : Dev nD) (t : Fin cfg0.N) :
    (dat0 (F := Ideal) V c).flushed 6 t = ((cfg0.win 6).blk t).view.read (Elt Ideal) (linArr V c) := by
  show (cfg0.win 6).cut (grid0.coords t) ((dat0 (F := Ideal) V c).after 6 t) = _
  rw [after0_6]
  refine funext fun (j : S5000x256.Idx) => ?_
  obtain ⟨p, q, rfl⟩ : ∃ (p : Fin 5000) (q : Fin 256), j = ix2 p q := ⟨j 0, j 1, eq_ix2 j⟩
  have hN : cfg0.N = 20 := N_0
  have hlt : 5000 * t.val + p.val < 100000 := by have := t.isLt; have := p.isLt; omega
  show linOut (iblk0 V c 0 t) (iblk0 V c 1 t) (iblk0 V c 2 t) (iblk0 V c 3 t) (iblk0 V c 4 t) (iblk0 V c 5 t) (ix2 p q)
      = linArr V c (((cfg0.win 6).blk t).view.emb (ix2 p q))
  rw [lin_out_emb t p q ⟨5000 * t.val + p.val, hlt⟩ rfl, lin_point]
  simp only [lin_agg_blk V c t p _ ⟨5000 * t.val + p.val, hlt⟩ rfl, lin_cnt_blk V c t p ⟨5000 * t.val + p.val, hlt⟩ rfl,
    lin_x_blk V c t p _ ⟨5000 * t.val + p.val, hlt⟩ rfl, lin_wl_blk V c t, lin_b_blk V c t, lin_wr_blk V c t]
  rfl

/-- The twenty blocks tile the output's rows (row `r` is in block `r / 5000`), so the array ends holding that function. -/
theorem lin_array (c : Dev nD) : (dat0 (F := Ideal) V c).arrAt 6 cfg0.N = linArr V c :=
  (dat0 (F := Ideal) V c).arrAt_eq_of_cover 6 (linArr V c) (fun t _ => lin_flushed_eq V c t) fun (i : S100000x256.Idx) => by
    have hN : cfg0.N = 20 := N_0
    have h0 : (i 0).val < 100000 := (i 0).isLt
    have h1 : (i 1).val < 256 := (i 1).isLt
    have ht : (i 0).val / 5000 < cfg0.N := by rw [hN]; omega
    refine ⟨⟨(i 0).val / 5000, ht⟩, flush0_6 _, ?_⟩
    show i ∈ ((View.whole main_v25).slice (win0_6.rect ⟨(i 0).val / 5000, ht⟩)).set
    rw [View.set_slice_whole, Rect.mem_set_unit]
    obtain ⟨-, -, -, -, -, -, -, -, -, -, -, -, e0, e1⟩ := lin_idx_facts ⟨(i 0).val / 5000, ht⟩
    intro a
    match a with
    | ⟨0, _⟩ =>
      show win0_6.index ⟨(i 0).val / 5000, ht⟩ 0 * 5000 ≤ (i 0).val ∧ (i 0).val < win0_6.index ⟨(i 0).val / 5000, ht⟩ 0 * 5000 + 5000
      rw [e0]; show (i 0).val / 5000 * 5000 ≤ (i 0).val ∧ (i 0).val < (i 0).val / 5000 * 5000 + 5000; omega
    | ⟨1, _⟩ =>
      show win0_6.index ⟨(i 0).val / 5000, ht⟩ 1 * 256 ≤ (i 1).val ∧ (i 1).val < win0_6.index ⟨(i 0).val / 5000, ht⟩ 1 * 256 + 256
      rw [e1]; omega

/-- Entry `(n, d)` of the first kernel call's output array: the first layer at node `n`, feature `d`, rectified. -/
theorem lin_value (c : Dev nD) (n : Fin 100000) (d : Fin 256) :
    (dat0 (F := Ideal) V c).arrAt 6 cfg0.N (ix2 n d)
      = SageSpec.relu (SageSpec.layer (K := 128) (V c main_v21) (V c main_arg0) (fun n => V c main_v9 (ix2 n 0))
          (V c main_v23) (V c main_v24) (fun d => V c main_v22 (ix2 0 d)) n d) := by
  rw [lin_array]
  rfl

end Cert.KernelIdeal.Sage

end
-- ==== Proof.KernelIdeal.PoolPieces.lean ====
/-
  What the second pallas_call's runs found, read as values.
  The runs of the body's three cases produced, for the accumulator and for the output block, lists of pieces (rectangle
  and payload). Every store of this body covers its whole buffer, so each list reads back as the payload of its last
  store, and a load of the accumulator after a store reads that store's payload. Hence, with the point's contribution
      contrib1 t = k1_pay4 of the seven input blocks,
    * where t % 10 = 0 the accumulator ends at  k1_pay1 (contrib1 t) zeros          (a fresh sum),
    * elsewhere it ends at                       k1_pay1 (contrib1 t) (what the point before left),
    * where t % 10 = 9 the output block ends at  k1_pay2 of what the accumulator ends at.
-/
import proofs.«417693_j14645838480120_3_alg».proof.Proof.KernelIdeal.Pool
import Idealize.ShloMosaic.Lib.Pipeline.Value

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- The point's contribution to the pool, as the body computes it from the seven input blocks (its last step a product of
    two 5000 x 256 matrices contracted over the block's 5000 nodes, giving 256 x 256). -/
def contrib1 (c : Dev nD) (t : Fin cfg1.N) : Vec F S256x256 .f32 :=
  k1_pay4 (iblk1 V c 1 t) (iblk1 V c 0 t) (iblk1 V c 3 t) (iblk1 V c 2 t) (iblk1 V c 5 t) (iblk1 V c 4 t) (iblk1 V c 6 t)

/-- Every load and store of this body starts at the origin of its buffer. -/
theorem off2 : (![0, 0] : Fin 2 → ℕ) = fun _ => 0 := by funext a; fin_cases a <;> rfl
theorem off3 : (![0, 0, 0] : Fin 3 → ℕ) = fun _ => 0 := by funext a; fin_cases a <;> rfl

/-- The accumulator's whole buffer, at contents chosen to read as xs, reads as xs. -/
theorem read_acc (h : scM1.IsWhole) (xs : Vec F S256x256 .f32) :
    View.read (Elt F) (View.whole cc1_scratch0) (h.unread xs) = xs :=
  h.read_unread xs

/-! ## Each case's contents as values -/

/-- Case A: the zero fill, then the sum over it, which read the fill back. -/
theorem sout1_A_val (c : Dev nD) (t : Fin cfg1.N) (h0 : t.val % 10 = 0) (h1 : ¬t.val % 10 = 9) :
    sout1_A V c t h0 h1 = k1_pay1 (contrib1 V c t) (k1_pay3 (F := F)) := by
  unfold sout1_A contrib1
  rw [View.read_writes_eq_canon _ _ _ (scover1_A V c t h0 h1)]
  unfold runA kernelRun1_A
  dsimp only
  sl_unfold_words
  rw [View.canon_cons_unit_zero (S := S256x256) off2]
  simp only [View.readAt_eq_ld, Memref.IsWhole.read_unread, View.ld_unit_zero (S := S5000x1) off2, View.ld_unit_zero (S := S5000x256) off2,
    View.ld_unit_zero (S := S256x256) off2, View.ld_unit_zero (S := S1x256) off2, View.readCov_unit_zero (S := S256x256) _ off2]

/-- Case B: the sum over what the accumulator held on entry. -/
theorem sout1_B_val (c : Dev nD) (t : Fin cfg1.N) (h0 : ¬t.val % 10 = 0) (h1 : ¬t.val % 10 = 9) (xs : Vec F S256x256 .f32) :
    sout1_B V c t h0 h1 xs = k1_pay1 (contrib1 V c t) xs := by
  unfold sout1_B contrib1
  rw [View.read_writes_eq_canon _ _ _ (scover1_B V c t h0 h1 xs)]
  unfold runB kernelRun1_B
  dsimp only
  sl_unfold_words
  rw [View.canon_unit_zero (S := S256x256) off2]
  simp only [View.readAt_eq_ld, Memref.IsWhole.read_unread, View.ld_unit_zero (S := S5000x1) off2, View.ld_unit_zero (S := S5000x256) off2,
    View.ld_unit_zero (S := S256x256) off2, View.ld_unit_zero (S := S1x256) off2, read_acc]

/-- Case C leaves the same in the accumulator, -/
theorem sout1_C_val (c : Dev nD) (t : Fin cfg1.N) (h0 : ¬t.val % 10 = 0) (h1 : t.val % 10 = 9) (xs : Vec F S256x256 .f32) :
    sout1_C V c t h0 h1 xs = k1_pay1 (contrib1 V c t) xs := by
  unfold sout1_C contrib1
  rw [View.read_writes_eq_canon _ _ _ (scover1_C V c t h0 h1 xs)]
  unfold runC kernelRun1_C
  dsimp only
  sl_unfold_words
  rw [View.canon_unit_zero (S := S256x256) off2]
  simp only [View.readAt_eq_ld, Memref.IsWhole.read_unread, View.ld_unit_zero (S := S5000x1) off2, View.ld_unit_zero (S := S5000x256) off2,
    View.ld_unit_zero (S := S256x256) off2, View.ld_unit_zero (S := S1x256) off2, read_acc]

/-- and copies it, reshaped, into the output block. -/
theorem out1_C_7_val (c : Dev nD) (t : Fin cfg1.N) (h0 : ¬t.val % 10 = 0) (h1 : t.val % 10 = 9) (xs : Vec F S256x256 .f32) :
    out1_C_7 V c t h0 h1 xs = k1_pay2 (k1_pay1 (contrib1 V c t) xs) := by
  unfold out1_C_7 contrib1
  rw [View.read_writes_eq_canon _ _ _ (cover1_C_7 V c t h0 h1 xs)]
  unfold runC kernelRun1_C
  dsimp only
  sl_unfold_words
  rw [View.canon_unit_zero (S := S1x256x256) off3]
  simp only [View.readAt_eq_ld, Memref.IsWhole.read_unread, View.ld_unit_zero (S := S5000x1) off2, View.ld_unit_zero (S := S5000x256) off2,
    View.ld_unit_zero (S := S256x256) off2, View.ld_unit_zero (S := S1x256) off2, View.readCov_unit_zero (S := S256x256) _ off2, read_acc]

/-! ## The recursion over the grid, as values -/

/-- Where the inner coordinate is 0 the accumulator ends at the point's contribution added to zeros. -/
theorem scratch_first (c : Dev nD) (t : Fin cfg1.N) (h : t.val % 10 = 0) :
    (outsAt1 V c t.val t.isLt).2 = k1_pay1 (contrib1 V c t) (k1_pay3 (F := F)) := by
  have h1 : ¬t.val % 10 = 9 := by omega
  rw [outsAt1_A V c t h h1]
  dsimp only
  rw [sout1_A_val]

/-- Elsewhere it ends at the point's contribution added to what the point before left. -/
theorem scratch_next (c : Dev nD) (t : Fin cfg1.N) (h : t.val % 10 ≠ 0) :
    (outsAt1 V c t.val t.isLt).2
      = k1_pay1 (contrib1 V c t) (outsAt1 V c (t.val - 1) (Nat.lt_of_le_of_lt (Nat.sub_le _ _) t.isLt)).2 := by
  by_cases h1 : t.val % 10 = 9
  · rw [outsAt1_C V c t h h1]
    dsimp only
    rw [sout1_C_val]
  · rw [outsAt1_B V c t h h1]
    dsimp only
    rw [sout1_B_val]

/-- Where the inner coordinate is 9 the output block ends at the accumulator's final contents, reshaped. -/
theorem out_last (c : Dev nD) (t : Fin cfg1.N) (h : t.val % 10 = 9) :
    (outsAt1 V c t.val t.isLt).1 = k1_pay2 (outsAt1 V c t.val t.isLt).2 := by
  have h0 : ¬t.val % 10 = 0 := by omega
  rw [outsAt1_C V c t h0 h]
  dsimp only
  rw [out1_C_7_val, sout1_C_val]

end Cert.KernelIdeal.Sage

end
-- ==== Proof.KernelIdeal.PoolValue.lean ====
/-
  What the second pallas_call leaves in its output array, entry by entry, on the extended reals.
  The grid has 2 x 10 points; point t = 10·cc + i handles the 5000 nodes 5000·t … 5000·t + 4999: it computes the
  second layer's rows for them and adds, into a 256 x 256 accumulator carried between points, the rows' contribution
  to the pool (the one-hot matrix of the graph ids, transposed, times the rows).  The accumulator starts from zero at
  i = 0 and is written to block cc of the output after i = 9.  So entry (cc, g, d) of the output is the sum, over the
  50000 nodes of half cc, of [graph id = g] times the second layer at (node, d).
-/
import proofs.«417693_j14645838480120_3_alg».proof.Proof.KernelIdeal.PoolPieces
import proofs.«417693_j14645838480120_3_alg».proof.Proof.Spec
import proofs.«417693_j14645838480120_3_alg».proof.Proof.LibBroadcastColumn
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Sage

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The nodes of a grid point -/

/-- Node `r` of the block of grid point `(cc, i)`. -/
def node (cc : Fin 2) (i : Fin 10) (r : Fin 5000) : Fin 100000 :=
  ⟨(cc.val * 10 + i.val) * 5000 + r.val, by have := cc.isLt; have := i.isLt; have := r.isLt; omega⟩

namespace PoolAux

/-- The blocks tile the nodes: (half, point in the half, row in the block) ↦ node is a bijection. -/
def nodeEquiv : (Fin 2 × Fin 10) × Fin 5000 ≃ Fin 100000 :=
  ((finProdFinEquiv.prodCongr (Equiv.refl (Fin 5000))).trans finProdFinEquiv).trans (finCongr (by norm_num))

theorem nodeEquiv_apply (cc : Fin 2) (i : Fin 10) (r : Fin 5000) : nodeEquiv ((cc, i), r) = node cc i r := by
  apply Fin.ext
  simp only [nodeEquiv, node, Equiv.trans_apply, Equiv.prodCongr_apply, Prod.map_apply, Equiv.refl_apply, finCongr_apply,
    Fin.coe_cast, finProdFinEquiv_apply_val]
  omega

end PoolAux

open PoolAux

/-- A sum over the nodes, block by block. -/
theorem sum_node {M : Type*} [AddCommMonoid M] (f : Fin 100000 → M) :
    ∑ cc : Fin 2, ∑ i : Fin 10, ∑ r : Fin 5000, f (node cc i r) = ∑ n : Fin 100000, f n := by
  rw [← Equiv.sum_comp nodeEquiv f, Fintype.sum_prod_type, Fintype.sum_prod_type]
  simp only [nodeEquiv_apply]

/-! ## The payloads at an index -/

namespace PoolAux

/-- A product contracting the second axis of the left operand with the first of the right one, from a zero accumulator. -/
theorem matmul_nn_apply {φ₁ φ₂ : FTy} (a : FVec Ideal S5000x256 φ₁) (b : FVec Ideal S256x256 φ₂) (r : Fin 5000) (d : Fin 256) :
    matmul dot_S5000x256_S256x256_S5000x256_1_0_0_1_n_n none a b (constant S5000x256 .f32 0x00000000#32) (ix2 r d)
      = ∑ k : Fin 256, a (ix2 r k) * b (ix2 k d) := by
  refine (Ideal.matmul_constant_zero_apply dot_S5000x256_S256x256_S5000x256_1_0_0_1_n_n none a b (ix2 r d)).trans ?_
  rw [← Equiv.sum_comp (contrEquiv1 dot_S5000x256_S256x256_S5000x256_1_0_0_1_n_n 256 rfl rfl).symm]
  refine Finset.sum_congr rfl fun k _ => ?_
  have ck := contrEquiv1_symm_val dot_S5000x256_S256x256_S5000x256_1_0_0_1_n_n 256 rfl rfl k
  have hl : dot_S5000x256_S256x256_S5000x256_1_0_0_1_n_n.lhsIdx (ix2 r d)
      ((contrEquiv1 dot_S5000x256_S256x256_S5000x256_1_0_0_1_n_n 256 rfl rfl).symm k) = ix2 r k := by
    funext ax; apply Fin.ext
    match ax with
    | ⟨0, _⟩ => simp [DotDims.lhsIdx, dot_S5000x256_S256x256_S5000x256_1_0_0_1_n_n]; rfl
    | ⟨1, _⟩ => simp [DotDims.lhsIdx, dot_S5000x256_S256x256_S5000x256_1_0_0_1_n_n]; exact ck
  have hr : dot_S5000x256_S256x256_S5000x256_1_0_0_1_n_n.rhsIdx (ix2 r d)
      ((contrEquiv1 dot_S5000x256_S256x256_S5000x256_1_0_0_1_n_n 256 rfl rfl).symm k) = ix2 k d := by
    funext ax; apply Fin.ext
    match ax with
    | ⟨0, _⟩ => simp [DotDims.rhsIdx, dot_S5000x256_S256x256_S5000x256_1_0_0_1_n_n]; exact ck
    | ⟨1, _⟩ => simp [DotDims.rhsIdx, dot_S5000x256_S256x256_S5000x256_1_0_0_1_n_n]; rfl
  rw [hl, hr]

/-- A product contracting the first axis of both operands (the left operand transposed), from a zero accumulator. -/
theorem matmul_tn_apply {φ₁ φ₂ : FTy} (a : FVec Ideal S5000x256 φ₁) (b : FVec Ideal S5000x256 φ₂) (g d : Fin 256) :
    matmul dot_S5000x256_S5000x256_S256x256_0_0_1_1_n_n none a b (constant S256x256 .f32 0x00000000#32) (ix2 g d)
      = ∑ r : Fin 5000, a (ix2 r g) * b (ix2 r d) := by
  refine (Ideal.matmul_constant_zero_apply dot_S5000x256_S5000x256_S256x256_0_0_1_1_n_n none a b (ix2 g d)).trans ?_
  rw [← Equiv.sum_comp (contrEquiv1 dot_S5000x256_S5000x256_S256x256_0_0_1_1_n_n 5000 rfl rfl).symm]
  refine Finset.sum_congr rfl fun r _ => ?_
  have cr := contrEquiv1_symm_val dot_S5000x256_S5000x256_S256x256_0_0_1_1_n_n 5000 rfl rfl r
  have hl : dot_S5000x256_S5000x256_S256x256_0_0_1_1_n_n.lhsIdx (ix2 g d)
      ((contrEquiv1 dot_S5000x256_S5000x256_S256x256_0_0_1_1_n_n 5000 rfl rfl).symm r) = ix2 r g := by
    funext ax; apply Fin.ext
    match ax with
    | ⟨0, _⟩ => simp [DotDims.lhsIdx, dot_S5000x256_S5000x256_S256x256_0_0_1_1_n_n]; exact cr
    | ⟨1, _⟩ => simp [DotDims.lhsIdx, dot_S5000x256_S5000x256_S256x256_0_0_1_1_n_n]; rfl
  have hr : dot_S5000x256_S5000x256_S256x256_0_0_1_1_n_n.rhsIdx (ix2 g d)
      ((contrEquiv1 dot_S5000x256_S5000x256_S256x256_0_0_1_1_n_n 5000 rfl rfl).symm r) = ix2 r d := by
    funext ax; apply Fin.ext
    match ax with
    | ⟨0, _⟩ => simp [DotDims.rhsIdx, dot_S5000x256_S5000x256_S256x256_0_0_1_1_n_n]; exact cr
    | ⟨1, _⟩ => simp [DotDims.rhsIdx, dot_S5000x256_S5000x256_S256x256_0_0_1_1_n_n]; rfl
  rw [hl, hr]

/-- The one-hot entry: the bit of an equality of two words, widened and read as a number, is 1 or 0. -/
theorem onehot_val (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · rw [if_pos h, StableHlo.Predicate.cmpi_eq_iff.mpr h]
    have : ((1#1 : BitVec 1).setWidth 32).toInt = 1 := by decide
    rw [this]; simp
  · rw [if_neg h, eq_zero_of_ne_one (fun e => h (StableHlo.Predicate.cmpi_eq_iff.mp e))]
    have : ((0#1 : BitVec 1).setWidth 32).toInt = 0 := by decide
    rw [this]; simp

/-- The contribution of one block of 5000 nodes to the pool, at graph `g` and feature `d`: over the block's rows,
    [graph id = g] times the second layer's row (left product + right product, then the bias). -/
theorem pay4_apply (v3 : Vec Ideal S5000x1 .f32) (v7 : Vec Ideal S5000x256 .f32) (v12 : Vec Ideal S256x256 .bf16)
    (v15 : Vec Ideal S5000x256 .f32) (v18 : Vec Ideal S256x256 .bf16) (v22 : Vec Ideal S1x256 .f32)
    (v27 : Vec Ideal S5000x1 .i32) (g d : Fin 256) :
    k1_pay4 (F := Ideal) v3 v7 v12 v15 v18 v22 v27 (ix2 g d)
      = ∑ r : Fin 5000, (if v27 (ix2 r 0) = BitVec.ofNat 32 g.val then (1 : EReal) else 0)
          * ((∑ k : Fin 256, Ideal.div (v7 (ix2 r k)) (max (v3 (ix2 r 0)) SageSpec.one) * v12 (ix2 k d)
              + ∑ k : Fin 256, v15 (ix2 r k) * v18 (ix2 k d)) + v22 (ix2 0 d)) := by
  unfold k1_pay4
  refine (matmul_tn_apply _ _ g d).trans ?_
  refine Finset.sum_congr rfl fun r _ => ?_
  refine congrArg₂ (· * ·) ?_ ?_
  · show (FloatOps.sitofp (F := Ideal) .f32 ((IntOp.cmpi .eq
        (broadcastTo S5000x256 (shapeCast S5000x1 v27 shapeCasts_S5000x1_S5000x1) broadcasts_S5000x1_S5000x256 (ix2 r g))
        (iota Kind.tc S5000x256 32 [1] iota_S5000x256_d1_w32 (ix2 r g))).setWidth 32) : EReal) = _
    refine (onehot_val _ _).trans ?_
    have e1 : broadcastTo S5000x256 (shapeCast S5000x1 v27 shapeCasts_S5000x1_S5000x1) broadcasts_S5000x1_S5000x256 (ix2 r g)
        = v27 (ix2 r 0) := by
      rw [broadcastTo_a1_ab_apply, shapeCast_self]
    have e2 : iota Kind.tc S5000x256 32 [1] iota_S5000x256_d1_w32 (ix2 r g) = BitVec.ofNat 32 g.val :=
      iota_single_apply Kind.tc S5000x256 32 1 iota_S5000x256_d1_w32 (ix2 r g)
    rw [e1, e2]
  · show (matmul (F := Ideal) dot_S5000x256_S256x256_S5000x256_1_0_0_1_n_n none _ _ (constant S5000x256 .f32 0x00000000#32) (ix2 r d)
        + matmul (F := Ideal) dot_S5000x256_S256x256_S5000x256_1_0_0_1_n_n none _ _ (constant S5000x256 .f32 0x00000000#32) (ix2 r d))
        + broadcastTo S5000x256 (shapeCast S1x256 v22 shapeCasts_S1x256_S1x256) broadcasts_S1x256_S5000x256 (ix2 r d) = _
    refine congrArg₂ (· + ·) (congrArg₂ (· + ·) ?_ ?_) ?_
    · refine (matmul_nn_apply _ _ r d).trans (Finset.sum_congr rfl fun k _ => ?_)
      simp only [truncf_apply, divf_apply, maximumf_apply, broadcast_apply, shapeCast_self, broadcastTo_a1_ab_apply]
      rfl
    · refine (matmul_nn_apply _ _ r d).trans (Finset.sum_congr rfl fun k _ => ?_)
      simp only [truncf_apply, shapeCast_self]
    · rw [broadcastTo_1b_ab_apply, shapeCast_self]

/-- The accumulator's update: what was there plus the point's contribution. -/
theorem pay1_apply (a : FVec Ideal S256x256 .f32) (b : Vec Ideal S256x256 .f32) (g d : Fin 256) :
    k1_pay1 (F := Ideal) a b (ix2 g d) = b (ix2 g d) + a (ix2 g d) := by
  unfold k1_pay1
  show shapeCast S256x256 (addf b a) shapeCasts_S256x256_S256x256 (ix2 g d) = _
  rw [shapeCast_self]
  rfl

/-- The stored output block is the accumulator under a leading unit axis. -/
theorem pay2_apply (s : Vec Ideal S256x256 .f32) (u : Fin 1) (g d : Fin 256) :
    k1_pay2 (F := Ideal) s (ix3 u g d) = s (ix2 g d) := by
  unfold k1_pay2
  exact shapeCast_ab_1ab_apply s shapeCasts_S256x256_S1x256x256 u g d

/-- The accumulator's first contents: zero everywhere. -/
theorem pay3_apply (g d : Fin 256) : k1_pay3 (F := Ideal) (ix2 g d) = 0 := by
  unfold k1_pay3
  show shapeCast S256x256 (broadcast S256x256 (Scalar.ofBits (F := Ideal) .f32 0x00000000#32)) shapeCasts_S256x256_S256x256 (ix2 g d) = _
  rw [shapeCast_self]
  exact Ideal.ofBits_zero_f32

/-! ## The accumulator over the ten points of a half -/

variable (V : (c : Dev nD) → (b : Ref sig .tc) → Buf (Elt Ideal) ((c : Thread nD τ).loc b))

/-- Grid point `i` of half `cc`. -/
def pt (cc : Fin 2) (i : Fin 10) : Fin cfg1.N :=
  ⟨10 * cc.val + i.val, by rw [show cfg1.N = 20 from N_1]; have := cc.isLt; have := i.isLt; omega⟩

/-- The contribution of point `n` at an entry (zero past the grid, never read there). -/
def addend (c : Dev nD) (g d : Fin 256) (n : ℕ) : EReal :=
  if h : n < cfg1.N then (contrib1 (F := Ideal) V c ⟨n, h⟩ : Vec Ideal S256x256 .f32) (ix2 g d) else 0

/-- The accumulator does not depend on how the point's bound is proved. -/
theorem scratch_congr (c : Dev nD) (n n' : ℕ) (h : n < cfg1.N) (h' : n' < cfg1.N) (e : n = n') :
    (outsAt1 (F := Ideal) V c n h).2 = (outsAt1 (F := Ideal) V c n' h').2 := by
  subst e; rfl

/-- After point `i` of half `cc` the accumulator holds the contributions of the points `0 … i` of that half. -/
theorem scratch_apply (c : Dev nD) (cc : Fin 2) (g d : Fin 256) : ∀ (i : ℕ) (hi : i < 10) (h : 10 * cc.val + i < cfg1.N),
    ((outsAt1 (F := Ideal) V c (10 * cc.val + i) h).2 : Vec Ideal S256x256 .f32) (ix2 g d)
      = ∑ s ∈ Finset.range (i + 1), addend V c g d (10 * cc.val + s)
  | 0, _, h => by
    have e := scratch_first (F := Ideal) V c ⟨10 * cc.val + 0, h⟩ (by show (10 * cc.val + 0) % 10 = 0; omega)
    refine (congrFun e (ix2 g d)).trans ?_
    refine (pay1_apply (contrib1 (F := Ideal) V c ⟨10 * cc.val + 0, h⟩) (k1_pay3 (F := Ideal)) g d).trans ?_
    rw [pay3_apply, zero_add, Finset.sum_range_one]
    unfold addend
    rw [dif_pos h]
  | i + 1, hi, h => by
    have e := scratch_next (F := Ideal) V c ⟨10 * cc.val + (i + 1), h⟩ (by show (10 * cc.val + (i + 1)) % 10 ≠ 0; omega)
    refine (congrFun e (ix2 g d)).trans ?_
    refine (pay1_apply (contrib1 (F := Ideal) V c ⟨10 * cc.val + (i + 1), h⟩) _ g d).trans ?_
    have hp : 10 * cc.val + i < cfg1.N := by omega
    rw [scratch_congr V c _ (10 * cc.val + i) _ hp (by show 10 * cc.val + (i + 1) - 1 = 10 * cc.val + i; omega),
      scratch_apply c cc g d i (by omega) hp, Finset.sum_range_succ _ (i + 1)]
    congr 1
    unfold addend
    rw [dif_pos h]

/-! ## The input blocks, read where their rectangles say -/

/-- The block indices over the grid: the node-blocked windows move with the point, the weights and the bias stay,
    the output's block is the half. -/
theorem idx_rows : ∀ t : Fin cfg1.N,
    (win1_0.index t 0 = t.val ∧ win1_0.index t 1 = 0) ∧ (win1_1.index t 0 = t.val ∧ win1_1.index t 1 = 0)
    ∧ (win1_2.index t 0 = t.val ∧ win1_2.index t 1 = 0) ∧ (win1_6.index t 0 = t.val ∧ win1_6.index t 1 = 0) := by
  decide +kernel

theorem idx_whole : ∀ t : Fin cfg1.N,
    (win1_3.index t 0 = 0 ∧ win1_3.index t 1 = 0) ∧ (win1_4.index t 0 = 0 ∧ win1_4.index t 1 = 0)
    ∧ (win1_5.index t 0 = 0 ∧ win1_5.index t 1 = 0) := by
  decide +kernel

theorem idx_out : ∀ t : Fin cfg1.N, win1_7.index t 0 = t.val / 10 ∧ win1_7.index t 1 = 0 ∧ win1_7.index t 2 = 0 := by
  decide +kernel

theorem blk0_apply (c : Dev nD) (cc : Fin 2) (i : Fin 10) (r : Fin 5000) (k : Fin 256) :
    (iblk1 (F := Ideal) V c 0 (pt cc i) : Vec Ideal S5000x256 .f32) (ix2 r k)
      = (V c main_v37 : Vec Ideal S100000x256 .f32) (ix2 (node cc i r) k) := by
  unfold iblk1
  rw [View.read_apply]
  show V c main_v37 _ = V c main_v37 _
  congr 1
  funext a
  apply Fin.ext
  match a with
  | ⟨0, _⟩ =>
    show win1_0.index (pt cc i) 0 * 5000 + 1 * r.val = (cc.val * 10 + i.val) * 5000 + r.val
    rw [(idx_rows (pt cc i)).1.1]
    show (10 * cc.val + i.val) * 5000 + 1 * r.val = _
    omega
  | ⟨1, _⟩ =>
    show win1_0.index (pt cc i) 1 * 256 + 1 * k.val = k.val
    rw [(idx_rows (pt cc i)).1.2]
    omega

theorem blk1_apply (c : Dev nD) (cc : Fin 2) (i : Fin 10) (r : Fin 5000) :
    (iblk1 (F := Ideal) V c 1 (pt cc i) : Vec Ideal S5000x1 .f32) (ix2 r 0)
      = (V c main_v9 : Vec Ideal S100000x1 .f32) (ix2 (node cc i r) 0) := by
  unfold iblk1
  rw [View.read_apply]
  show V c main_v9 _ = V c main_v9 _
  congr 1
  funext a
  apply Fin.ext
  match a with
  | ⟨0, _⟩ =>
    show win1_1.index (pt cc i) 0 * 5000 + 1 * r.val = (cc.val * 10 + i.val) * 5000 + r.val
    rw [(idx_rows (pt cc i)).2.1.1]
    show (10 * cc.val + i.val) * 5000 + 1 * r.val = _
    omega
  | ⟨1, _⟩ =>
    show win1_1.index (pt cc i) 1 * 1 + 1 * 0 = 0
    rw [(idx_rows (pt cc i)).2.1.2]

theorem blk2_apply (c : Dev nD) (cc : Fin 2) (i : Fin 10) (r : Fin 5000) (k : Fin 256) :
    (iblk1 (F := Ideal) V c 2 (pt cc i) : Vec Ideal S5000x256 .f32) (ix2 r k)
      = (V c main_v25 : Vec Ideal S100000x256 .f32) (ix2 (node cc i r) k) := by
  unfold iblk1
  rw [View.read_apply]
  show V c main_v25 _ = V c main_v25 _
  congr 1
  funext a
  apply Fin.ext
  match a with
  | ⟨0, _⟩ =>
    show win1_2.index (pt cc i) 0 * 5000 + 1 * r.val = (cc.val * 10 + i.val) * 5000 + r.val
    rw [(idx_rows (pt cc i)).2.2.1.1]
    show (10 * cc.val + i.val) * 5000 + 1 * r.val = _
    omega
  | ⟨1, _⟩ =>
    show win1_2.index (pt cc i) 1 * 256 + 1 * k.val = k.val
    rw [(idx_rows (pt cc i)).2.2.1.2]
    omega

theorem blk6_apply (c : Dev nD) (cc : Fin 2) (i : Fin 10) (r : Fin 5000) :
    (iblk1 (F := Ideal) V c 6 (pt cc i) : Vec Ideal S5000x1 .i32) (ix2 r 0)
      = (V c main_v41 : Vec Ideal S100000x1 .i32) (ix2 (node cc i r) 0) := by
  unfold iblk1
  rw [View.read_apply]
  show V c main_v41 _ = V c main_v41 _
  congr 1
  funext a
  apply Fin.ext
  match a with
  | ⟨0, _⟩ =>
    show win1_6.index (pt cc i) 0 * 5000 + 1 * r.val = (cc.val * 10 + i.val) * 5000 + r.val
    rw [(idx_rows (pt cc i)).2.2.2.1]
    show (10 * cc.val + i.val) * 5000 + 1 * r.val = _
    omega
  | ⟨1, _⟩ =>
    show win1_6.index (pt cc i) 1 * 1 + 1 * 0 = 0
    rw [(idx_rows (pt cc i)).2.2.2.2]

theorem blk3_apply (c : Dev nD) (t : Fin cfg1.N) (k d : Fin 256) :
    (iblk1 (F := Ideal) V c 3 t : Vec Ideal S256x256 .bf16) (ix2 k d) = (V c main_v39 : Vec Ideal S256x256 .bf16) (ix2 k d) := by
  unfold iblk1
  rw [View.read_apply]
  show V c main_v39 _ = V c main_v39 _
  congr 1
  funext a
  apply Fin.ext
  match a with
  | ⟨0, _⟩ =>
    show win1_3.index t 0 * 256 + 1 * k.val = k.val
    rw [(idx_whole t).1.1]
    omega
  | ⟨1, _⟩ =>
    show win1_3.index t 1 * 256 + 1 * d.val = d.val
    rw [(idx_whole t).1.2]
    omega

theorem blk4_apply (c : Dev nD) (t : Fin cfg1.N) (d : Fin 256) :
    (iblk1 (F := Ideal) V c 4 t : Vec Ideal S1x256 .f32) (ix2 0 d) = (V c main_v38 : Vec Ideal S1x256 .f32) (ix2 0 d) := by
  unfold iblk1
  rw [View.read_apply]
  show V c main_v38 _ = V c main_v38 _
  congr 1
  funext a
  apply Fin.ext
  match a with
  | ⟨0, _⟩ =>
    show win1_4.index t 0 * 1 + 1 * 0 = 0
    rw [(idx_whole t).2.1.1]
  | ⟨1, _⟩ =>
    show win1_4.index t 1 * 256 + 1 * d.val = d.val
    rw [(idx_whole t).2.1.2]
    omega

theorem blk5_apply (c : Dev nD) (t : Fin cfg1.N) (k d : Fin 256) :
    (iblk1 (F := Ideal) V c 5 t : Vec Ideal S256x256 .bf16) (ix2 k d) = (V c main_v40 : Vec Ideal S256x256 .bf16) (ix2 k d) := by
  unfold iblk1
  rw [View.read_apply]
  show V c main_v40 _ = V c main_v40 _
  congr 1
  funext a
  apply Fin.ext
  match a with
  | ⟨0, _⟩ =>
    show win1_5.index t 0 * 256 + 1 * k.val = k.val
    rw [(idx_whole t).2.2.1]
    omega
  | ⟨1, _⟩ =>
    show win1_5.index t 1 * 256 + 1 * d.val = d.val
    rw [(idx_whole t).2.2.2]
    omega

/-- The contribution of point `i` of half `cc` over the arrays: over the block's nodes, [graph id = g] times the layer. -/
theorem contrib_apply (c : Dev nD) (cc : Fin 2) (i : Fin 10) (g d : Fin 256) :
    (contrib1 (F := Ideal) V c (pt cc i) : Vec Ideal S256x256 .f32) (ix2 g d)
      = ∑ r : Fin 5000, (if V c main_v41 (ix2 (node cc i r) 0) = BitVec.ofNat 32 g.val then (1 : EReal) else 0)
          * SageSpec.layer (K := 256) (V c main_v37) (V c main_v25) (fun n => V c main_v9 (ix2 n 0)) (V c main_v39)
              (V c main_v40) (fun d => V c main_v38 (ix2 0 d)) (node cc i r) d := by
  unfold contrib1
  refine (pay4_apply (iblk1 (F := Ideal) V c 1 (pt cc i)) (iblk1 (F := Ideal) V c 0 (pt cc i)) (iblk1 (F := Ideal) V c 3 (pt cc i))
    (iblk1 (F := Ideal) V c 2 (pt cc i)) (iblk1 (F := Ideal) V c 5 (pt cc i)) (iblk1 (F := Ideal) V c 4 (pt cc i))
    (iblk1 (F := Ideal) V c 6 (pt cc i)) g d).trans ?_
  refine Finset.sum_congr rfl fun r _ => ?_
  unfold SageSpec.layer SageSpec.left SageSpec.right
  rw [blk6_apply V c cc i r, blk1_apply V c cc i r, blk4_apply V c (pt cc i) d]
  refine congrArg _ (congrArg₂ (· + ·) (congrArg₂ (· + ·) (Finset.sum_congr rfl fun k _ => ?_)
    (Finset.sum_congr rfl fun k _ => ?_)) rfl)
  · rw [blk0_apply V c cc i r k, blk3_apply V c (pt cc i) k d]
  · rw [blk2_apply V c cc i r k, blk5_apply V c (pt cc i) k d]

/-! ## The output array from its two written-back blocks -/

/-- What a half has accumulated after its last point, at an entry. -/
def total (c : Dev nD) (a : Fin 2) (g d : Fin 256) : EReal :=
  ∑ s ∈ Finset.range 10, addend V c g d (10 * a.val + s)

/-- The output array as one function of its index: block `a` is what half `a` accumulated. -/
def outArr (c : Dev nD) : Vec Ideal S2x256x256 .f32 := fun j => total V c (j 0) (j 1) (j 2)

theorem outArr_apply (c : Dev nD) (j : S2x256x256.Idx) (a : Fin 2) (g d : Fin 256)
    (h0 : (j 0).val = a.val) (h1 : (j 1).val = g.val) (h2 : (j 2).val = d.val) : outArr V c j = total V c a g d := by
  have e : j = ix3 a g d := by
    funext x
    apply Fin.ext
    match x with
    | ⟨0, _⟩ => exact h0
    | ⟨1, _⟩ => exact h1
    | ⟨2, _⟩ => exact h2
  rw [e]
  rfl

/-- The output window's rectangle at a point: block `t / 10` on the leading axis, everything on the other two. -/
theorem out_rect : ∀ t : Fin cfg1.N,
    (win1_7.index t 0 * win1_7.size 0 = t.val / 10 ∧ win1_7.xsize (grid1.coords t) 0 = 1)
    ∧ (win1_7.index t 1 * win1_7.size 1 = 0 ∧ win1_7.xsize (grid1.coords t) 1 = 256)
    ∧ (win1_7.index t 2 * win1_7.size 2 = 0 ∧ win1_7.xsize (grid1.coords t) 2 = 256) := by
  decide +kernel

/-- Each write-back (after the last point of a half) writes that half's block of `outArr`. -/
theorem flushed_eq (c : Dev nD) (t : Fin cfg1.N) (hf : (cfg1.win 7).flush t = true) :
    (dat1 (F := Ideal) V c).flushed 7 t = ((cfg1.win 7).blk t).view.read (Elt Ideal) (outArr V c) := by
  have h9 : t.val % 10 = 9 := (flush1_7 t).mp hf
  have hN : cfg1.N = 20 := N_1
  have ht := t.isLt
  show (cfg1.win 7).cut (cfg1.grid.coords t) ((dat1 (F := Ideal) V c).after 7 t) = _
  rw [after1_7, out_last (F := Ideal) V c t h9]
  funext y
  obtain ⟨u, g, d, rfl⟩ : ∃ (u : Fin 1) (g d : Fin 256), y = ix3 u g d := ⟨y 0, y 1, y 2, eq_ix3 y⟩
  have hq : t.val / 10 < 2 := by omega
  rw [View.read_apply]
  show k1_pay2 (F := Ideal) (outsAt1 (F := Ideal) V c t.val t.isLt).2 (ix3 u g d)
    = outArr V c (((cfg1.win 7).blk t).view.emb (ix3 u g d))
  refine (pay2_apply (outsAt1 (F := Ideal) V c t.val t.isLt).2 u g d).trans ?_
  refine Eq.trans ?_ (outArr_apply V c (((cfg1.win 7).blk t).view.emb (ix3 u g d)) ⟨t.val / 10, hq⟩ g d ?_ ?_ ?_).symm
  · have h' : 10 * (t.val / 10) + 9 < cfg1.N := by omega
    rw [scratch_congr V c t.val (10 * (t.val / 10) + 9) t.isLt h' (by omega)]
    exact scratch_apply V c ⟨t.val / 10, hq⟩ g d 9 (by omega) h'
  · show win1_7.index t 0 * 1 + 1 * u.val = t.val / 10
    rw [(idx_out t).1]
    omega
  · show win1_7.index t 1 * 256 + 1 * g.val = g.val
    rw [(idx_out t).2.1]
    omega
  · show win1_7.index t 2 * 256 + 1 * d.val = d.val
    rw [(idx_out t).2.2]
    omega

end PoolAux

/-- Entry (cc, g, d) of the output array after the run: over the 50000 nodes of half `cc`, the flag [graph id = g]
    (1 when the node's graph id is the word of `g`, else 0) times the second layer at (node, d). -/
theorem pool_value (V : (c : Dev nD) → (b : Ref sig .tc) → Buf (Elt Ideal) ((c : Thread nD τ).loc b)) (c : Dev nD) (cc : Fin 2)
    (g d : Fin 256) :
    (dat1 (F := Ideal) V c).arrAt 7 cfg1.N (ix3 cc g d)
      = ∑ i : Fin 10, ∑ r : Fin 5000,
          (if V c main_v41 (ix2 (node cc i r) 0) = BitVec.ofNat 32 g.val then (1 : EReal) else 0)
            * SageSpec.layer (K := 256) (V c main_v37) (V c main_v25) (fun n => V c main_v9 (ix2 n 0)) (V c main_v39)
                (V c main_v40) (fun d => V c main_v38 (ix2 0 d)) (node cc i r) d := by
  have hN : cfg1.N = 20 := N_1
  have hcc := cc.isLt
  have hf : (cfg1.win 7).flush (pt cc 9) = true := (flush1_7 (pt cc 9)).mpr (by show (10 * cc.val + 9) % 10 = 9; omega)
  have hval : (pt cc 9).val = 10 * cc.val + 9 := rfl
  refine ((dat1 (F := Ideal) V c).arrAt_apply_of_mem 7 (outArr V c) (flushed_eq V c) cfg1.N (pt cc 9) (ix3 cc g d)
    (pt cc 9).isLt hf ?_).trans ?_
  · show (ix3 cc g d : S2x256x256.Idx) ∈ ((View.whole main_v42).slice (win1_7.rect (pt cc 9))).set
    rw [View.set_slice_whole, Rect.mem_set_unit]
    intro a
    have hg := g.isLt
    have hd := d.isLt
    match a with
    | ⟨0, _⟩ =>
      show win1_7.index (pt cc 9) 0 * win1_7.size 0 ≤ cc.val
        ∧ cc.val < win1_7.index (pt cc 9) 0 * win1_7.size 0 + win1_7.xsize (grid1.coords (pt cc 9)) 0
      rw [(out_rect (pt cc 9)).1.1, (out_rect (pt cc 9)).1.2, hval]
      omega
    | ⟨1, _⟩ =>
      show win1_7.index (pt cc 9) 1 * win1_7.size 1 ≤ g.val
        ∧ g.val < win1_7.index (pt cc 9) 1 * win1_7.size 1 + win1_7.xsize (grid1.coords (pt cc 9)) 1
      rw [(out_rect (pt cc 9)).2.1.1, (out_rect (pt cc 9)).2.1.2]
      omega
    | ⟨2, _⟩ =>
      show win1_7.index (pt cc 9) 2 * win1_7.size 2 ≤ d.val
        ∧ d.val < win1_7.index (pt cc 9) 2 * win1_7.size 2 + win1_7.xsize (grid1.coords (pt cc 9)) 2
      rw [(out_rect (pt cc 9)).2.2.1, (out_rect (pt cc 9)).2.2.2]
      omega
  · show total V c cc g d = _
    unfold total
    rw [Finset.sum_range]
    refine Finset.sum_congr rfl fun i _ => ?_
    have hi := i.isLt
    have hlt : 10 * cc.val + i.val < cfg1.N := by omega
    unfold addend
    rw [dif_pos hlt]
    exact contrib_apply V c cc i g d

end Cert.KernelIdeal.Sage

end
-- ==== Proof.RefValue.lean ====
/-
  The reference program read entry by entry on the extended reals.
  Each dense stage of a layer is read at an index (n, d): the neighbour sums divided by the in-degree count
  (at least one) are contracted with the left weights, the bias row is added, the node's own features contracted
  with the right weights are added, and the first layer ends in a maximum with zero. The neighbour sums and the
  count stay as the arrays the program computes. The final stage adds the second layer's rows into the zero
  matrix by graph id, so its entry (g, d) is zero plus the sum of the entries (n, d) of the rows whose id is g.
-/
import proofs.«417693_j14645838480120_3_alg».proof.Proof.RefImports
import proofs.«417693_j14645838480120_3_alg».proof.Proof.Spec
import proofs.«417693_j14645838480120_3_alg».proof.Proof.LibScatterAdd
import Idealize.ShloMosaic.PureOps.Ideal
import Idealize.ShloMosaic.PureOps.Ideal.Laws
import Idealize.ShloMosaic.Lib.ValueIdx
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert

variable (x0 : (⟨S100000x128, .f32⟩ : BufTy).Contents (Elt Ideal))
  (x1 : (⟨S2x640000, .i32⟩ : BufTy).Contents (Elt Ideal))
  (x2 : (⟨S100000, .i32⟩ : BufTy).Contents (Elt Ideal))
  (x3 : (⟨S128x256, .f32⟩ : BufTy).Contents (Elt Ideal))
  (x4 : (⟨S256, .f32⟩ : BufTy).Contents (Elt Ideal))
  (x5 : (⟨S128x256, .f32⟩ : BufTy).Contents (Elt Ideal))
  (x6 : (⟨S256x256, .f32⟩ : BufTy).Contents (Elt Ideal))
  (x7 : (⟨S256, .f32⟩ : BufTy).Contents (Elt Ideal))
  (x8 : (⟨S256x256, .f32⟩ : BufTy).Contents (Elt Ideal))

/-! ## The index functions of the layout stages, at an index given by its coordinates -/

theorem lidx23 (n : Fin 100000) (d : Fin 256) (k : Fin 128) : lidx_main_v23 (ix2 n d) k = ix2 n k :=
  funext fun a => Fin.ext (by match a with | ⟨0, _⟩ => rfl | ⟨1, _⟩ => rfl)

theorem ridx23 (n : Fin 100000) (d : Fin 256) (k : Fin 128) : ridx_main_v23 (ix2 n d) k = ix2 k d :=
  funext fun a => Fin.ext (by match a with | ⟨0, _⟩ => rfl | ⟨1, _⟩ => rfl)

theorem lidx27 (n : Fin 100000) (d : Fin 256) (k : Fin 128) : lidx_main_v27 (ix2 n d) k = ix2 n k :=
  funext fun a => Fin.ext (by match a with | ⟨0, _⟩ => rfl | ⟨1, _⟩ => rfl)

theorem ridx27 (n : Fin 100000) (d : Fin 256) (k : Fin 128) : ridx_main_v27 (ix2 n d) k = ix2 k d :=
  funext fun a => Fin.ext (by match a with | ⟨0, _⟩ => rfl | ⟨1, _⟩ => rfl)

theorem idx21 (n : Fin 100000) (k : Fin 128) : idx_main_v21 (ix2 n k) = ix2 n (0 : Fin 1) :=
  funext fun a => Fin.ext (by match a with | ⟨0, _⟩ => rfl | ⟨1, _⟩ => rfl)

theorem idx20 (n : Fin 100000) : idx_main_v20 (ix2 n (0 : Fin 1)) = ix1 n :=
  funext fun a => Fin.ext (by match a with | ⟨0, _⟩ => rfl)

theorem idx25 (n : Fin 100000) (d : Fin 256) : idx_main_v25 (ix2 n d) = ix2 (0 : Fin 1) d :=
  funext fun a => Fin.ext (by match a with | ⟨0, _⟩ => rfl | ⟨1, _⟩ => rfl)

theorem idx24 (d : Fin 256) : idx_main_v24 (ix2 (0 : Fin 1) d) = ix1 d :=
  funext fun a => Fin.ext (by match a with | ⟨0, _⟩ => rfl)

/-- The first layer's output at node `n`, feature `d`. -/
theorem h1_apply (n : Fin 100000) (d : Fin 256) :
    val_main_v29 (F := Ideal) x0 x1 x3 x4 x5 (ix2 n d)
      = SageSpec.relu (SageSpec.layerRef (K := 128) (val_main_v13 x0 x1) x0 (fun n => val_main_v17 x1 (ix1 n))
          x3 x5 (fun d => x4 (ix1 d)) n d) := by
  rw [val_main_v29_apply, val_main_v28_apply, val_main_v26_apply, val_main_v23_apply, val_main_v27_apply,
    val_main_v25_apply, val_main_v24_apply, val_main_call0_v0_apply, val_main_call0_cst_apply]
  simp only [val_main_v22_apply, val_main_v21_apply, val_main_v20_apply, val_main_v19_apply, val_main_v18_apply,
    val_main_cst_3_apply, lidx23, ridx23, lidx27, ridx27, idx21, idx20, idx25, idx24,
    Ideal.maximumf_def, Ideal.addf_def, Ideal.hostDivf_def, Ideal.ofBits_def]
  rfl

/-! ## The second layer -/

theorem lidx49 (n : Fin 100000) (d k : Fin 256) : lidx_main_v49 (ix2 n d) k = ix2 n k :=
  funext fun a => Fin.ext (by match a with | ⟨0, _⟩ => rfl | ⟨1, _⟩ => rfl)

theorem ridx49 (n : Fin 100000) (d k : Fin 256) : ridx_main_v49 (ix2 n d) k = ix2 k d :=
  funext fun a => Fin.ext (by match a with | ⟨0, _⟩ => rfl | ⟨1, _⟩ => rfl)

theorem lidx53 (n : Fin 100000) (d k : Fin 256) : lidx_main_v53 (ix2 n d) k = ix2 n k :=
  funext fun a => Fin.ext (by match a with | ⟨0, _⟩ => rfl | ⟨1, _⟩ => rfl)

theorem ridx53 (n : Fin 100000) (d k : Fin 256) : ridx_main_v53 (ix2 n d) k = ix2 k d :=
  funext fun a => Fin.ext (by match a with | ⟨0, _⟩ => rfl | ⟨1, _⟩ => rfl)

theorem idx47 (n : Fin 100000) (k : Fin 256) : idx_main_v47 (ix2 n k) = ix2 n (0 : Fin 1) :=
  funext fun a => Fin.ext (by match a with | ⟨0, _⟩ => rfl | ⟨1, _⟩ => rfl)

theorem idx46 (n : Fin 100000) : idx_main_v46 (ix2 n (0 : Fin 1)) = ix1 n :=
  funext fun a => Fin.ext (by match a with | ⟨0, _⟩ => rfl)

theorem idx51 (n : Fin 100000) (d : Fin 256) : idx_main_v51 (ix2 n d) = ix2 (0 : Fin 1) d :=
  funext fun a => Fin.ext (by match a with | ⟨0, _⟩ => rfl | ⟨1, _⟩ => rfl)

theorem idx50 (d : Fin 256) : idx_main_v50 (ix2 (0 : Fin 1) d) = ix1 d :=
  funext fun a => Fin.ext (by match a with | ⟨0, _⟩ => rfl)

/-- The second layer's output at node `n`, feature `d`: the same dense half over the first layer's output, with no
    rectifier. -/
theorem h2_apply (n : Fin 100000) (d : Fin 256) :
    val_main_v54 (F := Ideal) x0 x1 x3 x4 x5 x6 x7 x8 (ix2 n d)
      = SageSpec.layerRef (K := 256) (val_main_v39 x0 x1 x3 x4 x5) (val_main_v29 x0 x1 x3 x4 x5)
          (fun n => val_main_v43 x1 (ix1 n)) x6 x8 (fun d => x7 (ix1 d)) n d := by
  rw [val_main_v54_apply, val_main_v52_apply, val_main_v49_apply, val_main_v53_apply, val_main_v51_apply,
    val_main_v50_apply]
  simp only [val_main_v48_apply, val_main_v47_apply, val_main_v46_apply, val_main_v45_apply, val_main_v44_apply,
    val_main_cst_9_apply, lidx49, ridx49, lidx53, ridx53, idx47, idx46, idx51, idx50,
    Ideal.maximumf_def, Ideal.addf_def, Ideal.hostDivf_def, Ideal.ofBits_def]
  rfl

/-! ## The pooled result -/

theorem idx56 (r : Fin 100000) : idx_main_v56 (ix2 r (0 : Fin 1)) = ix1 r :=
  funext fun a => Fin.ext (by match a with | ⟨0, _⟩ => rfl)

/-- The result at graph `g`, feature `d`: zero plus the sum of the second layer's rows whose graph id is `g`. -/
theorem res_apply (g d : Fin 256) :
    val_main_v57 (F := Ideal) x0 x1 x2 x3 x4 x5 x6 x7 x8 (ix2 g d)
      = SageSpec.zero + SageSpec.pooled (fun n => x2 (ix1 n))
          (fun n d => val_main_v54 x0 x1 x3 x4 x5 x6 x7 x8 (ix2 n d)) g d := by
  unfold val_main_v57 Host.scatterAdd
  rw [Ideal.hostScatterAdd_def]
  refine (ScatterAdd.scatterAdd_rows scatter_S256x256_S100000x1_S100000x256_1_0_0_1 rfl rfl rfl rfl
    (val_main_v55 (F := Ideal)) (val_main_v56 (F := Ideal) x2) (val_main_v54 (F := Ideal) x0 x1 x3 x4 x5 x6 x7 x8) g d).trans ?_
  rw [val_main_v55_apply, val_main_cst_10_apply]
  simp only [val_main_v56_apply, idx56, Ideal.ofBits_def]
  rfl

/-! ## The in-degree count -/

/-- The count is the sum of ones, added into zeros, over the destination column. -/
theorem cnt_apply (n : Fin 100000) :
    val_main_v17 (F := Ideal) x1 (ix1 n)
      = Ideal.hostScatterAdd scatter_S100000_S640000x1_S640000_n_0_0_1 (fun _ => (0 : EReal)) (val_main_v16 x1)
          (fun _ => (1 : EReal)) (ix1 n) := by
  have h0 : val_main_v15 (F := Ideal) = fun _ => (0 : EReal) := funext fun i => by
    rw [val_main_v15_apply, val_main_cst_2_apply, Ideal.ofBits_def, Ideal.ofBits_zero_f32]
  have h1 : val_main_v14 (F := Ideal) = fun _ => (1 : EReal) := funext fun i => by
    rw [val_main_v14_apply, val_main_cst_1_apply, Ideal.ofBits_def, Ideal.ofBits_one_f32]
  unfold val_main_v17 Host.scatterAdd
  rw [Ideal.hostScatterAdd_def, h0, h1]

/-- The second layer counts the same column the same way. -/
theorem cnt2_eq : val_main_v43 (F := Ideal) x1 = val_main_v17 x1 := rfl

end Cert.ReferenceIdeal.RefValue

end
-- ==== Proof.Bridge.lean ====
/-
  The kernel's program and the reference compute the same pooled result on the extended reals.
  Both programs form the neighbour sums by the same host operations; the in-degrees agree because a 32-bit count of
  at most 640000 edges, read signed, is the exact float sum of as many ones; the two layers agree entry by entry up to
  the order in which three terms are added; and the kernel's pool — a one-hot matrix product accumulated over ten
  blocks of 5000 nodes in each half, the two halves added at the end — is the sum over all nodes of the rows whose graph
  id is the given one, which is what the reference's segment sum is.
-/
import proofs.«417693_j14645838480120_3_alg».proof.Proof.HostValue
import proofs.«417693_j14645838480120_3_alg».proof.Proof.KernelIdeal.LinearValue
import proofs.«417693_j14645838480120_3_alg».proof.Proof.KernelIdeal.PoolValue
import proofs.«417693_j14645838480120_3_alg».proof.Proof.RefValue
import proofs.«417693_j14645838480120_3_alg».proof.Proof.Spec
import proofs.«417693_j14645838480120_3_alg».proof.Proof.LibScatterFold
import Idealize.ShloMosaic.Lib.IdealHost
import Idealize.ShloMosaic.PureOps.Ideal.Laws

set_option maxRecDepth 16384

noncomputable section

namespace Cert.Bridge

open Cert.KernelIdeal Cert.KernelIdeal.Gen Cert.KernelIdeal.Sage
open Idealize.ShloMosaic Idealize.ShloMosaic.TcCoe Idealize.ShloMosaic.ValueIdx Idealize.ShloMosaic.StableHlo
open Idealize.SL.Sem
open Cert.ReferenceIdeal.Read (val_main_v13 val_main_v16 val_main_v17 val_main_v29 val_main_v39 val_main_v43 val_main_v54 val_main_v57)

variable (m : (ℓ : Loc nD τ sig) → Buf (Elt Ideal) ℓ) (ρ : Dev nD → PrngReg)

/-! ## The arguments, by name -/

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)

/-! ## The in-degree -/

/-- The kernel's converted integer count is the reference's float count. -/
theorem cnt_bridge (c : Dev nD) (n : Fin 100000) :
    Sage.V1 m ρ c main_v9 (ix2 n 0) = val_main_v17 (a1 m c) (ix1 n) := by
  rw [cntK_apply, Cert.ReferenceIdeal.RefValue.cnt_apply]
  exact Cert.ScatterFold.count_eq (by norm_num) _ rfl rfl rfl rfl _ n

/-! ## The first layer -/

/-- What the first pallas_call leaves in its output array is the reference's first layer. -/
theorem h1_bridge (c : Dev nD) :
    W2 m ρ c (Proc.devRef .tc main_v25) = val_main_v29 (a0 m c) (a1 m c) (a3 m c) (a4 m c) (a5 m c) := by
  funext j
  obtain ⟨n, d, rfl⟩ : ∃ (n : Fin 100000) (d : Fin 256), j = ix2 n d := ⟨j 0, j 1, eq_ix2 j⟩
  refine (congrFun (W2_arr m ρ c 6) (ix2 n d)).trans ?_
  have hcnt : (fun n => Sage.V1 m ρ c main_v9 (ix2 n 0)) = fun n => val_main_v17 (a1 m c) (ix1 n) := funext (cnt_bridge m ρ c)
  have hwl : Sage.V1 m ρ c main_v23 = a3 m c := funext (w1l_eq m ρ c)
  have hwr : Sage.V1 m ρ c main_v24 = a5 m c := funext (w1r_eq m ρ c)
  have hb : (fun d => Sage.V1 m ρ c main_v22 (ix2 0 d)) = fun d => a4 m c (ix1 d) := funext (b1_eq m ρ c)
  rw [lin_value, Cert.ReferenceIdeal.RefValue.h1_apply, SageSpec.layerRef_eq, agg1_eq, x_eq, hcnt, hwl, hwr, hb]

/-! ## The second layer -/

/-- The second layer's neighbour sums agree, being the same function of first-layer outputs that agree. -/
theorem agg2_bridge (c : Dev nD) :
    Sage.V3 m ρ c main_v37 = val_main_v39 (a0 m c) (a1 m c) (a3 m c) (a4 m c) (a5 m c) := by
  rw [agg2_eq, agg2_ref, h1_bridge]

/-- The second layer at a node and a feature, as the kernel's second pallas_call computes it from the arrays it is
    entered with, is the reference's. -/
theorem h2_bridge (c : Dev nD) (n : Fin 100000) (d : Fin 256) :
    SageSpec.layer (K := 256) (Sage.V3 m ρ c main_v37) (Sage.V3 m ρ c main_v25) (fun n => Sage.V3 m ρ c main_v9 (ix2 n 0))
        (Sage.V3 m ρ c main_v39) (Sage.V3 m ρ c main_v40) (fun d => Sage.V3 m ρ c main_v38 (ix2 0 d)) n d
      = val_main_v54 (a0 m c) (a1 m c) (a3 m c) (a4 m c) (a5 m c) (a6 m c) (a7 m c) (a8 m c) (ix2 n d) := by
  have hcnt : (fun n => Sage.V3 m ρ c main_v9 (ix2 n 0)) = fun n => val_main_v17 (a1 m c) (ix1 n) := by
    rw [v3_cnt]; exact funext (cnt_bridge m ρ c)
  have hwl : Sage.V3 m ρ c main_v39 = a6 m c := funext (w2l_eq m ρ c)
  have hwr : Sage.V3 m ρ c main_v40 = a8 m c := funext (w2r_eq m ρ c)
  have hb : (fun d => Sage.V3 m ρ c main_v38 (ix2 0 d)) = fun d => a7 m c (ix1 d) := funext (b2_eq m ρ c)
  have hh : Sage.V3 m ρ c main_v25 = val_main_v29 (a0 m c) (a1 m c) (a3 m c) (a4 m c) (a5 m c) := (v3_h1 m ρ c).trans (h1_bridge m ρ c)
  rw [Cert.ReferenceIdeal.RefValue.h2_apply, SageSpec.layerRef_eq, Cert.ReferenceIdeal.RefValue.cnt2_eq, agg2_bridge, hh, hcnt, hwl, hwr, hb]

/-! ## The pool -/

/-- A 32-bit word is the word of a graph number below 256 exactly when its signed reading is that number. -/
theorem word_eq_iff (w : BitVec 32) (g : Fin 256) : w = BitVec.ofNat 32 g.val ↔ w.toInt = (g.val : ℤ) := by
  have hg : g.val < 2 ^ 31 := lt_of_lt_of_le g.isLt (by norm_num)
  have h1 : (BitVec.ofNat 32 g.val).toInt = (g.val : ℤ) := Cert.ScatterFold.toInt_natCast_of_lt hg
  constructor
  · rintro rfl; exact h1
  · intro h; exact BitVec.eq_of_toInt_eq (h.trans h1.symm)

theorem reduces0 : S2x256x256.Reduces [0] S256x256 := by decide

/-- Putting the dropped leading coordinate back in front of (g, d). -/
theorem lift0 (g d : Fin 256) (k : Fin (S2x256x256.size 0)) : reduces0.lift (ix2 g d) k = ix3 (k : Fin 2) g d := by
  funext a
  apply Fin.ext
  match a with
  | ⟨0, _⟩ => rfl
  | ⟨1, _⟩ => rfl
  | ⟨2, _⟩ => rfl

/-- The second pallas_call's output array, at its literal type. -/
abbrev poolArr (c : Dev nD) : S2x256x256.Idx → EReal := W4 m ρ c (Proc.devRef .tc main_v42)

set_option maxHeartbeats 4000000 in
/-- The last host line adds the two halves' partial sums to a zero. -/
theorem res_form (c : Dev nD) (g d : Fin 256) :
    W5 m ρ c (Proc.devRef .tc main_v43) (ix2 g d)
      = SageSpec.zero + ∑ k : Fin 2, poolArr m ρ c (ix3 k g d) := by
  show StableHlo.after hostOps2 (W4 m ρ c) (Proc.devRef .tc main_v43) (ix2 g d) = _
  after_results_simp
  rw [hostReduceAdd_apply, Ideal.hostReduceAdd_single _ reduces0]
  refine congrArg₂ (· + ·) rfl (Finset.sum_congr rfl fun k _ => ?_)
  rw [lift0]
  rfl

/-- THE RESULT: the kernel's pooled sums are the reference's. -/
theorem result_bridge (c : Dev nD) :
    W5 m ρ c (Proc.devRef .tc main_v43)
      = val_main_v57 (a0 m c) (a1 m c) (a2 m c) (a3 m c) (a4 m c) (a5 m c) (a6 m c) (a7 m c) (a8 m c) := by
  funext j
  obtain ⟨g, d, rfl⟩ : ∃ (g d : Fin 256), j = ix2 g d := ⟨j 0, j 1, eq_ix2 j⟩
  rw [res_form, Cert.ReferenceIdeal.RefValue.res_apply]
  refine congrArg (SageSpec.zero + ·) ?_
  unfold SageSpec.pooled
  refine Eq.trans ?_ (sum_node (fun n => if (a2 m c (ix1 n)).toInt = (g.val : ℤ)
    then val_main_v54 (a0 m c) (a1 m c) (a3 m c) (a4 m c) (a5 m c) (a6 m c) (a7 m c) (a8 m c) (ix2 n d) else 0))
  refine Finset.sum_congr rfl fun cc _ => ?_
  show poolArr m ρ c (ix3 cc g d) = _
  rw [show poolArr m ρ c (ix3 cc g d) = _ from (congrFun (W4_arr m ρ c 7) (ix3 cc g d)).trans (pool_value (Sage.V3 m ρ) c cc g d)]
  refine Finset.sum_congr rfl fun i _ => Finset.sum_congr rfl fun r _ => ?_
  rw [h2_bridge, batch_eq]
  by_cases h : a2 m c (ix1 (node cc i r)) = BitVec.ofNat 32 g.val
  · rw [if_pos h, if_pos ((word_eq_iff _ g).mp h), one_mul]
  · rw [if_neg h, if_neg (fun h' => h ((word_eq_iff _ g).mpr h')), zero_mul]

end Cert.Bridge

end
-- ==== Proof.lean ====
/-
  The certificate of a two-layer SAGEConv network with a global add pool: the kernel's program (two pallas_calls among
  host lines) against the plain reference, on the extended reals.
  The three frames: each program runs to the end from any memory, faults nowhere, and leaves its nine arguments as
  launched — for the kernel's program at the word level and at the ideal level from one run theorem over @main's
  segments, for the reference from its run. The ideal pass rewrote nothing, so there is nothing to preserve. The
  algebraic claim: from memories agreeing on the arguments both programs end with the same pooled sums, the kernel's
  last valuation at its result buffer being the reference's result term of the same arguments.
-/
import proofs.«417693_j14645838480120_3_alg».proof.Defs
import proofs.«417693_j14645838480120_3_alg».proof.Proof.Gen.Kernel
import proofs.«417693_j14645838480120_3_alg».proof.Proof.Gen.KernelIdeal
import proofs.«417693_j14645838480120_3_alg».proof.Proof.Gen.ReferenceIdeal
import proofs.«417693_j14645838480120_3_alg».proof.Proof.Gen.Pre_finite_inputs
import proofs.«417693_j14645838480120_3_alg».proof.Proof.Kernel.Run
import proofs.«417693_j14645838480120_3_alg».proof.Proof.KernelIdeal.Run
import proofs.«417693_j14645838480120_3_alg».proof.Proof.RefImports
import proofs.«417693_j14645838480120_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Sage.frame m ρ

theorem frame_ki : Cert.frame_KernelIdeal := fun m ρ _ => Cert.KernelIdeal.Sage.frame m ρ

theorem frame_r : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the kernel's last valuation at its result buffer:
    the kernel by its value run, the reference by its run and the equality of the two results. -/
theorem algebraic : Cert.algebraic_KernelIdeal_ReferenceIdeal := by
  intro m ρ m' ρ' _ hagree
  refine ⟨fun c => Cert.KernelIdeal.Sage.W5 m ρ c (Proc.devRef .tc Cert.KernelIdeal.main_v43), Cert.KernelIdeal.Sage.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  exact (Cert.Bridge.result_bridge m ρ c).symm

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
